-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v49)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v49) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v49) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x2048 : Shape := ⟨2, ![8192, 2048]⟩
abbrev S8192 : Shape := ⟨1, ![8192]⟩
abbrev S8x2048x1376 : Shape := ⟨3, ![8, 2048, 1376]⟩
abbrev S8x1376x2048 : Shape := ⟨3, ![8, 1376, 2048]⟩
abbrev S_ : Shape := ⟨0, ![]⟩

class Facts : Prop where
  bcast_S_S8192x2048 : S_.BroadcastsInDim S8192x2048 (![] : Fin 0 → Fin S8192x2048.rank)
  reducesTo_S8192x2048_S_d0_1 : S8192x2048.ReducesTo [0, 1] S_
  h_S_ : 0 < S_.numel
  bcast_S_S8192 : S_.BroadcastsInDim S8192 (![] : Fin 0 → Fin S8192.rank)
  reducesTo_S8192_S_d0 : S8192.ReducesTo [0] S_
  bcast_S_S8x2048x1376 : S_.BroadcastsInDim S8x2048x1376 (![] : Fin 0 → Fin S8x2048x1376.rank)
  reducesTo_S8x2048x1376_S_d0_1_2 : S8x2048x1376.ReducesTo [0, 1, 2] S_
  bcast_S_S8x1376x2048 : S_.BroadcastsInDim S8x1376x2048 (![] : Fin 0 → Fin S8x1376x2048.rank)
  reducesTo_S8x1376x2048_S_d0_1_2 : S8x1376x2048.ReducesTo [0, 1, 2] S_

variable [Facts]

def fn_part1 {F : FTy → Type} [FloatOps F] (main_arg5 : FVec F S8x1376x2048 .f32) (main_v13 : IVec S_ 1) (main_v16 : IVec S8x2048x1376 1) : IVec S_ 1 :=
  let main_c_5 : IVec S_ 1 := constantI S_ 1 1#1
  let main_v17 : IVec S_ 1 := (fun x v => Host.reduce IntOp.andi x v reducesTo_S8x2048x1376_S_d0_1_2 h_S_) main_v16 main_c_5
  let main_v18 : IVec S_ 1 := andi main_v13 main_v17
  let main_v19 : FVec F S8x1376x2048 .f32 := Host.absf main_arg5
  let main_cst_6 : FVec F S_ .f32 := constant S_ .f32 0x7F800000#32
  let main_v20 : FVec F S8x1376x2048 .f32 := broadcastInDim S8x1376x2048 ![] bcast_S_S8x1376x2048 main_cst_6
  let main_v21 : IVec S8x1376x2048 1 := cmpf .olt main_v19 main_v20
  let main_c_7 : IVec S_ 1 := constantI S_ 1 1#1
  let main_v22 : IVec S_ 1 := (fun x v => Host.reduce IntOp.andi x v reducesTo_S8x1376x2048_S_d0_1_2 h_S_) main_v21 main_c_7
  let main_v23 : IVec S_ 1 := andi main_v18 main_v22
  main_v23

def fn {F : FTy → Type} [FloatOps F] (main_arg0 : FVec F S8192x2048 .f32) (main_arg1 : IVec S8192 32) (main_arg2 : FVec F S8192 .f32) (main_arg3 : FVec F S8x2048x1376 .f32) (main_arg4 : FVec F S8x2048x1376 .f32) (main_arg5 : FVec F S8x1376x2048 .f32) : IVec S_ 1 :=
  let main_v0 : FVec F S8192x2048 .f32 := Host.absf main_arg0
  let main_cst : FVec F S_ .f32 := constant S_ .f32 0x7F800000#32
  let main_v1 : FVec F S8192x2048 .f32 := broadcastInDim S8192x2048 ![] bcast_S_S8192x2048 main_cst
  let main_v2 : IVec S8192x2048 1 := cmpf .olt main_v0 main_v1
  let main_c : IVec S_ 1 := constantI S_ 1 1#1
  let main_v3 : IVec S_ 1 := (fun x v => Host.reduce IntOp.andi x v reducesTo_S8192x2048_S_d0_1 h_S_) main_v2 main_c
  let main_v4 : FVec F S8192 .f32 := Host.absf main_arg2
  let main_cst_0 : FVec F S_ .f32 := constant S_ .f32 0x7F800000#32
  let main_v5 : FVec F S8192 .f32 := broadcastInDim S8192 ![] bcast_S_S8192 main_cst_0
  let main_v6 : IVec S8192 1 := cmpf .olt main_v4 main_v5
  let main_c_1 : IVec S_ 1 := constantI S_ 1 1#1
  let main_v7 : IVec S_ 1 := (fun x v => Host.reduce IntOp.andi x v reducesTo_S8192_S_d0 h_S_) main_v6 main_c_1
  let main_v8 : IVec S_ 1 := andi main_v3 main_v7
  let main_v9 : FVec F S8x2048x1376 .f32 := Host.absf main_arg3
  let main_cst_2 : FVec F S_ .f32 := constant S_ .f32 0x7F800000#32
  let main_v10 : FVec F S8x2048x1376 .f32 := broadcastInDim S8x2048x1376 ![] bcast_S_S8x2048x1376 main_cst_2
  let main_v11 : IVec S8x2048x1376 1 := cmpf .olt main_v9 main_v10
  let main_c_3 : IVec S_ 1 := constantI S_ 1 1#1
  let main_v12 : IVec S_ 1 := (fun x v => Host.reduce IntOp.andi x v reducesTo_S8x2048x1376_S_d0_1_2 h_S_) main_v11 main_c_3
  let main_v13 : IVec S_ 1 := andi main_v8 main_v12
  let main_v14 : FVec F S8x2048x1376 .f32 := Host.absf main_arg4
  let main_cst_4 : FVec F S_ .f32 := constant S_ .f32 0x7F800000#32
  let main_v15 : FVec F S8x2048x1376 .f32 := broadcastInDim S8x2048x1376 ![] bcast_S_S8x2048x1376 main_cst_4
  let main_v16 : IVec S8x2048x1376 1 := cmpf .olt main_v14 main_v15
  fn_part1 (F := F) main_arg5 main_v13 main_v16
-- ==== Kernel.lean ====
abbrev S8192x2048 : Shape := ⟨2, ![8192, 2048]⟩
abbrev S8192 : Shape := ⟨1, ![8192]⟩
abbrev S8x2048x1376 : Shape := ⟨3, ![8, 2048, 1376]⟩
abbrev S8x1376x2048 : Shape := ⟨3, ![8, 1376, 2048]⟩
abbrev S8192x1 : Shape := ⟨2, ![8192, 1]⟩
abbrev S1x8 : Shape := ⟨2, ![1, 8]⟩
abbrev S8192x8 : Shape := ⟨2, ![8192, 8]⟩
abbrev S_ : Shape := ⟨0, ![]⟩
abbrev S8192x1x1 : Shape := ⟨3, ![8192, 1, 1]⟩
abbrev S1 : Shape := ⟨1, ![1]⟩
abbrev S1x1x1 : Shape := ⟨3, ![1, 1, 1]⟩
abbrev S10241x2048 : Shape := ⟨2, ![10241, 2048]⟩
abbrev S10240x2048 : Shape := ⟨2, ![10240, 2048]⟩
abbrev S8x1280x2048 : Shape := ⟨3, ![8, 1280, 2048]⟩
abbrev S1x320x2048 : Shape := ⟨3, ![1, 320, 2048]⟩
abbrev S1x2048x1376 : Shape := ⟨3, ![1, 2048, 1376]⟩
abbrev S1x1376x2048 : Shape := ⟨3, ![1, 1376, 2048]⟩
abbrev S320x2048 : Shape := ⟨2, ![320, 2048]⟩
abbrev S2048x1376 : Shape := ⟨2, ![2048, 1376]⟩
abbrev S1376x2048 : Shape := ⟨2, ![1376, 2048]⟩
abbrev S320x1376 : Shape := ⟨2, ![320, 1376]⟩
abbrev S1x2048 : Shape := ⟨2, ![1, 2048]⟩

abbrev nBuf : Space → Nat
  | .hbm => 99
  | .vmem => 7
  | .smem => 0
  | _ => 0

abbrev bufTy : (tb : Table) → Fin (tcTables nBuf tb) → BufTy
  | .hbm, ⟨0, _⟩ => ⟨S8192x2048, .f32⟩
  | .hbm, ⟨1, _⟩ => ⟨S8192, .i32⟩
  | .hbm, ⟨2, _⟩ => ⟨S8192, .f32⟩
  | .hbm, ⟨3, _⟩ => ⟨S8x2048x1376, .f32⟩
  | .hbm, ⟨4, _⟩ => ⟨S8x2048x1376, .f32⟩
  | .hbm, ⟨5, _⟩ => ⟨S8x1376x2048, .f32⟩
  | .hbm, ⟨6, _⟩ => ⟨S8192x1, .i32⟩
  | .hbm, ⟨7, _⟩ => ⟨S1x8, .i32⟩
  | .hbm, ⟨8, _⟩ => ⟨S8192x8, .i32⟩
  | .hbm, ⟨9, _⟩ => ⟨S8192x8, .i32⟩
  | .hbm, ⟨10, _⟩ => ⟨S8192x8, .i1⟩
  | .hbm, ⟨11, _⟩ => ⟨S8192x8, .i32⟩
  | .hbm, ⟨12, _⟩ => ⟨S_, .i32⟩
  | .hbm, ⟨13, _⟩ => ⟨S_, .i32⟩
  | .hbm, ⟨14, _⟩ => ⟨S8192x8, .i32⟩
  | .hbm, ⟨15, _⟩ => ⟨S_, .i32⟩
  | .hbm, ⟨16, _⟩ => ⟨S8192x8, .i32⟩
  | .hbm, ⟨17, _⟩ => ⟨S8192x8, .i32⟩
  | .hbm, ⟨18, _⟩ => ⟨S8192x1, .i32⟩
  | .hbm, ⟨19, _⟩ => ⟨S_, .i32⟩
  | .hbm, ⟨20, _⟩ => ⟨S8192x1, .i32⟩
  | .hbm, ⟨21, _⟩ => ⟨S8192x1, .i1⟩
  | .hbm, ⟨22, _⟩ => ⟨S_, .i32⟩
  | .hbm, ⟨23, _⟩ => ⟨S8192x1, .i32⟩
  | .hbm, ⟨24, _⟩ => ⟨S8192x1, .i32⟩
  | .hbm, ⟨25, _⟩ => ⟨S8192x1, .i32⟩
  | .hbm, ⟨26, _⟩ => ⟨S8192x1x1, .i32⟩
  | .hbm, ⟨27, _⟩ => ⟨S1, .i32⟩
  | .hbm, ⟨28, _⟩ => ⟨S_, .i32⟩
  | .hbm, ⟨29, _⟩ => ⟨S8192x1x1, .i32⟩
  | .hbm, ⟨30, _⟩ => ⟨S8192x1x1, .i1⟩
  | .hbm, ⟨31, _⟩ => ⟨S1x1x1, .i32⟩
  | .hbm, ⟨32, _⟩ => ⟨S8192x1x1, .i32⟩
  | .hbm, ⟨33, _⟩ => ⟨S8192x1x1, .i1⟩
  | .hbm, ⟨34, _⟩ => ⟨S8192x1x1, .i1⟩
  | .hbm, ⟨35, _⟩ => ⟨S_, .i1⟩
  | .hbm, ⟨36, _⟩ => ⟨S8192x1, .i1⟩
  | .hbm, ⟨37, _⟩ => ⟨S8192x1, .i32⟩
  | .hbm, ⟨38, _⟩ => ⟨S_, .i32⟩
  | .hbm, ⟨39, _⟩ => ⟨S8192x1, .i32⟩
  | .hbm, ⟨40, _⟩ => ⟨S8192x1, .i32⟩
  | .hbm, ⟨41, _⟩ => ⟨S8192, .i32⟩
  | .hbm, ⟨42, _⟩ => ⟨S_, .i32⟩
  | .hbm, ⟨43, _⟩ => ⟨S8192, .i32⟩
  | .hbm, ⟨44, _⟩ => ⟨S8192, .i1⟩
  | .hbm, ⟨45, _⟩ => ⟨S_, .i32⟩
  | .hbm, ⟨46, _⟩ => ⟨S8192, .i32⟩
  | .hbm, ⟨47, _⟩ => ⟨S8192, .i32⟩
  | .hbm, ⟨48, _⟩ => ⟨S8192, .i32⟩
  | .hbm, ⟨49, _⟩ => ⟨S_, .i32⟩
  | .hbm, ⟨50, _⟩ => ⟨S_, .i32⟩
  | .hbm, ⟨51, _⟩ => ⟨S8192, .i32⟩
  | .hbm, ⟨52, _⟩ => ⟨S8192, .i32⟩
  | .hbm, ⟨53, _⟩ => ⟨S_, .f32⟩
  | .hbm, ⟨54, _⟩ => ⟨S10241x2048, .f32⟩
  | .hbm, ⟨55, _⟩ => ⟨S8192x1, .i1⟩
  | .hbm, ⟨56, _⟩ => ⟨S_, .f32⟩
  | .hbm, ⟨57, _⟩ => ⟨S8192x2048, .f32⟩
  | .hbm, ⟨58, _⟩ => ⟨S8192x2048, .i1⟩
  | .hbm, ⟨59, _⟩ => ⟨S8192x2048, .f32⟩
  | .hbm, ⟨60, _⟩ => ⟨S_, .i32⟩
  | .hbm, ⟨61, _⟩ => ⟨S8192, .i32⟩
  | .hbm, ⟨62, _⟩ => ⟨S8192, .i1⟩
  | .hbm, ⟨63, _⟩ => ⟨S_, .i32⟩
  | .hbm, ⟨64, _⟩ => ⟨S8192, .i32⟩
  | .hbm, ⟨65, _⟩ => ⟨S8192, .i32⟩
  | .hbm, ⟨66, _⟩ => ⟨S8192, .i32⟩
  | .hbm, ⟨67, _⟩ => ⟨S8192x1, .i32⟩
  | .hbm, ⟨68, _⟩ => ⟨S10241x2048, .f32⟩
  | .hbm, ⟨69, _⟩ => ⟨S10240x2048, .f32⟩
  | .hbm, ⟨70, _⟩ => ⟨S8x1280x2048, .f32⟩
  | .hbm, ⟨71, _⟩ => ⟨S8x1280x2048, .bf16⟩
  | .hbm, ⟨72, _⟩ => ⟨S8x2048x1376, .bf16⟩
  | .hbm, ⟨73, _⟩ => ⟨S8x2048x1376, .bf16⟩
  | .hbm, ⟨74, _⟩ => ⟨S8x1376x2048, .bf16⟩
  | .hbm, ⟨75, _⟩ => ⟨S8x1280x2048, .f32⟩
  | .hbm, ⟨76, _⟩ => ⟨S10240x2048, .f32⟩
  | .hbm, ⟨77, _⟩ => ⟨S_, .f32⟩
  | .hbm, ⟨78, _⟩ => ⟨S1x2048, .f32⟩
  | .hbm, ⟨79, _⟩ => ⟨S10241x2048, .f32⟩
  | .hbm, ⟨80, _⟩ => ⟨S_, .i32⟩
  | .hbm, ⟨81, _⟩ => ⟨S8192, .i32⟩
  | .hbm, ⟨82, _⟩ => ⟨S8192, .i1⟩
  | .hbm, ⟨83, _⟩ => ⟨S_, .i32⟩
  | .hbm, ⟨84, _⟩ => ⟨S8192, .i32⟩
  | .hbm, ⟨85, _⟩ => ⟨S8192, .i32⟩
  | .hbm, ⟨86, _⟩ => ⟨S8192, .i32⟩
  | .hbm, ⟨87, _⟩ => ⟨S8192x1, .i32⟩
  | .hbm, ⟨88, _⟩ => ⟨S8192x2048, .f32⟩
  | .hbm, ⟨89, _⟩ => ⟨S8192x1, .i1⟩
  | .hbm, ⟨90, _⟩ => ⟨S8192x1, .f32⟩
  | .hbm, ⟨91, _⟩ => ⟨S8192x2048, .f32⟩
  | .hbm, ⟨92, _⟩ => ⟨S8192x2048, .f32⟩
  | .hbm, ⟨93, _⟩ => ⟨S8192x1, .f32⟩
  | .hbm, ⟨94, _⟩ => ⟨S_, .f32⟩
  | .hbm, ⟨95, _⟩ => ⟨S8192x1, .f32⟩
  | .hbm, ⟨96, _⟩ => ⟨S8192x1, .f32⟩
  | .hbm, ⟨97, _⟩ => ⟨S8192x2048, .f32⟩
  | .hbm, ⟨98, _⟩ => ⟨S8192x2048, .f32⟩
  | .local _ .vmem, ⟨0, _⟩ => ⟨S1x320x2048, .bf16⟩
  | .local _ .vmem, ⟨1, _⟩ => ⟨S1x320x2048, .bf16⟩
  | .local _ .vmem, ⟨2, _⟩ => ⟨S1x2048x1376, .bf16⟩
  | .local _ .vmem, ⟨3, _⟩ => ⟨S1x2048x1376, .bf16⟩
  | .local _ .vmem, ⟨4, _⟩ => ⟨S1x1376x2048, .bf16⟩
  | .local _ .vmem, ⟨5, _⟩ => ⟨S1x320x2048, .f32⟩
  | .local _ .vmem, ⟨6, _⟩ => ⟨S1x320x2048, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_call0_v0 : Ref sig .tc := ⟨.hbm, 6, rfl⟩
abbrev main_call0_v1 : Ref sig .tc := ⟨.hbm, 7, rfl⟩
abbrev main_call0_v2 : Ref sig .tc := ⟨.hbm, 8, rfl⟩
abbrev main_call0_v3 : Ref sig .tc := ⟨.hbm, 9, rfl⟩
abbrev main_call0_v4 : Ref sig .tc := ⟨.hbm, 10, rfl⟩
abbrev main_v0 : Ref sig .tc := ⟨.hbm, 11, rfl⟩
abbrev main_call1_call0_c : Ref sig .tc := ⟨.hbm, 12, rfl⟩
abbrev main_call1_call0_v0 : Ref sig .tc := ⟨.hbm, 13, rfl⟩
abbrev main_v1 : Ref sig .tc := ⟨.hbm, 14, rfl⟩
abbrev main_c : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_call2_c : Ref sig .tc := ⟨.hbm, 19, rfl⟩
abbrev main_call2_v0 : Ref sig .tc := ⟨.hbm, 20, rfl⟩
abbrev main_call2_v1 : Ref sig .tc := ⟨.hbm, 21, rfl⟩
abbrev main_call2_c_0 : Ref sig .tc := ⟨.hbm, 22, rfl⟩
abbrev main_call2_v2 : Ref sig .tc := ⟨.hbm, 23, rfl⟩
abbrev main_call2_v3 : Ref sig .tc := ⟨.hbm, 24, rfl⟩
abbrev main_call2_v4 : Ref sig .tc := ⟨.hbm, 25, rfl⟩
abbrev main_call2_v5 : Ref sig .tc := ⟨.hbm, 26, rfl⟩
abbrev main_call2_c_1 : Ref sig .tc := ⟨.hbm, 27, rfl⟩
abbrev main_call2_c_2 : Ref sig .tc := ⟨.hbm, 28, rfl⟩
abbrev main_call2_v6 : Ref sig .tc := ⟨.hbm, 29, rfl⟩
abbrev main_call2_v7 : Ref sig .tc := ⟨.hbm, 30, rfl⟩
abbrev main_call2_v8 : Ref sig .tc := ⟨.hbm, 31, rfl⟩
abbrev main_call2_v9 : Ref sig .tc := ⟨.hbm, 32, rfl⟩
abbrev main_call2_v10 : Ref sig .tc := ⟨.hbm, 33, rfl⟩
abbrev main_call2_v11 : Ref sig .tc := ⟨.hbm, 34, rfl⟩
abbrev main_call2_c_3 : Ref sig .tc := ⟨.hbm, 35, rfl⟩
abbrev main_call2_v12 : Ref sig .tc := ⟨.hbm, 36, rfl⟩
abbrev main_call2_v13 : Ref sig .tc := ⟨.hbm, 37, rfl⟩
abbrev main_call2_c_4 : Ref sig .tc := ⟨.hbm, 38, rfl⟩
abbrev main_call2_v14 : Ref sig .tc := ⟨.hbm, 39, rfl⟩
abbrev main_v5 : Ref sig .tc := ⟨.hbm, 40, rfl⟩
abbrev main_v6 : Ref sig .tc := ⟨.hbm, 41, rfl⟩
abbrev main_c_0 : Ref sig .tc := ⟨.hbm, 42, rfl⟩
abbrev main_v7 : Ref sig .tc := ⟨.hbm, 43, rfl⟩
abbrev main_v8 : Ref sig .tc := ⟨.hbm, 44, rfl⟩
abbrev main_c_1 : Ref sig .tc := ⟨.hbm, 45, rfl⟩
abbrev main_v9 : Ref sig .tc := ⟨.hbm, 46, rfl⟩
abbrev main_v10 : Ref sig .tc := ⟨.hbm, 47, rfl⟩
abbrev main_v11 : Ref sig .tc := ⟨.hbm, 48, rfl⟩
abbrev main_c_2 : Ref sig .tc := ⟨.hbm, 49, rfl⟩
abbrev main_call3_v0 : Ref sig .tc := ⟨.hbm, 50, rfl⟩
abbrev main_call3_v1 : Ref sig .tc := ⟨.hbm, 51, rfl⟩
abbrev main_v12 : Ref sig .tc := ⟨.hbm, 52, rfl⟩
abbrev main_cst : Ref sig .tc := ⟨.hbm, 53, rfl⟩
abbrev main_v13 : Ref sig .tc := ⟨.hbm, 54, rfl⟩
abbrev main_v14 : Ref sig .tc := ⟨.hbm, 55, rfl⟩
abbrev main_cst_3 : Ref sig .tc := ⟨.hbm, 56, rfl⟩
abbrev main_v15 : Ref sig .tc := ⟨.hbm, 57, rfl⟩
abbrev main_call4_v0 : Ref sig .tc := ⟨.hbm, 58, rfl⟩
abbrev main_v16 : Ref sig .tc := ⟨.hbm, 59, rfl⟩
abbrev main_c_4 : Ref sig .tc := ⟨.hbm, 60, rfl⟩
abbrev main_v17 : Ref sig .tc := ⟨.hbm, 61, rfl⟩
abbrev main_v18 : Ref sig .tc := ⟨.hbm, 62, rfl⟩
abbrev main_c_5 : Ref sig .tc := ⟨.hbm, 63, rfl⟩
abbrev main_v19 : Ref sig .tc := ⟨.hbm, 64, rfl⟩
abbrev main_v20 : Ref sig .tc := ⟨.hbm, 65, rfl⟩
abbrev main_v21 : Ref sig .tc := ⟨.hbm, 66, rfl⟩
abbrev main_v22 : Ref sig .tc := ⟨.hbm, 67, rfl⟩
abbrev main_v23 : Ref sig .tc := ⟨.hbm, 68, rfl⟩
abbrev main_v24 : Ref sig .tc := ⟨.hbm, 69, rfl⟩
abbrev main_v25 : Ref sig .tc := ⟨.hbm, 70, rfl⟩
abbrev main_v26 : Ref sig .tc := ⟨.hbm, 71, rfl⟩
abbrev main_v27 : Ref sig .tc := ⟨.hbm, 72, rfl⟩
abbrev main_v28 : Ref sig .tc := ⟨.hbm, 73, rfl⟩
abbrev main_v29 : Ref sig .tc := ⟨.hbm, 74, rfl⟩
abbrev main_v30 : Ref sig .tc := ⟨.hbm, 75, rfl⟩
abbrev main_v31 : Ref sig .tc := ⟨.hbm, 76, rfl⟩
abbrev main_cst_6 : Ref sig .tc := ⟨.hbm, 77, rfl⟩
abbrev main_v32 : Ref sig .tc := ⟨.hbm, 78, rfl⟩
abbrev main_v33 : Ref sig .tc := ⟨.hbm, 79, rfl⟩
abbrev main_c_7 : Ref sig .tc := ⟨.hbm, 80, rfl⟩
abbrev main_v34 : Ref sig .tc := ⟨.hbm, 81, rfl⟩
abbrev main_v35 : Ref sig .tc := ⟨.hbm, 82, rfl⟩
abbrev main_c_8 : Ref sig .tc := ⟨.hbm, 83, rfl⟩
abbrev main_v36 : Ref sig .tc := ⟨.hbm, 84, rfl⟩
abbrev main_v37 : Ref sig .tc := ⟨.hbm, 85, rfl⟩
abbrev main_v38 : Ref sig .tc := ⟨.hbm, 86, rfl⟩
abbrev main_v39 : Ref sig .tc := ⟨.hbm, 87, rfl⟩
abbrev main_v40 : Ref sig .tc := ⟨.hbm, 88, rfl⟩
abbrev main_v41 : Ref sig .tc := ⟨.hbm, 89, rfl⟩
abbrev main_v42 : Ref sig .tc := ⟨.hbm, 90, rfl⟩
abbrev main_v43 : Ref sig .tc := ⟨.hbm, 91, rfl⟩
abbrev main_v44 : Ref sig .tc := ⟨.hbm, 92, rfl⟩
abbrev main_v45 : Ref sig .tc := ⟨.hbm, 93, rfl⟩
abbrev main_cst_9 : Ref sig .tc := ⟨.hbm, 94, rfl⟩
abbrev main_v46 : Ref sig .tc := ⟨.hbm, 95, rfl⟩
abbrev main_v47 : Ref sig .tc := ⟨.hbm, 96, rfl⟩
abbrev main_v48 : Ref sig .tc := ⟨.hbm, 97, rfl⟩
abbrev main_v49 : Ref sig .tc := ⟨.hbm, 98, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨2, ![8, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x320x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x2048x1376 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 1 → Memref sig .tc .vmem S1x2048x1376 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]

abbrev stage0_3 : Fin 1 → Memref sig .tc .vmem S1x1376x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, false]

abbrev stage0_4 : Fin 2 → Memref sig .tc .vmem S1x320x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

class Facts₀ : Prop where
  bcast_S8192_S8192x1_0 : S8192.BroadcastsInDim S8192x1 (![0] : Fin 1 → Fin S8192x1.rank)
  bcast_S8192x1_S8192x8_0_1 : S8192x1.BroadcastsInDim S8192x8 (![0, 1] : Fin 2 → Fin S8192x8.rank)
  bcast_S1x8_S8192x8_0_1 : S1x8.BroadcastsInDim S8192x8 (![0, 1] : Fin 2 → Fin S8192x8.rank)
  natLt_1_32 : 1 < 32
  bcast_S_S_ : S_.BroadcastsInDim S_ (![] : Fin 0 → Fin S_.rank)
  reduceWindows_S8192x8_S8192x8_w8192s1p8191_0_w1s1p0_0 : S8192x8.ReduceWindows (![8192, 1] : Fin 2 → Nat) ![1, 1] ![8191, 0] ![0, 0] S8192x8
  h_S_ : 0 < S_.numel
  bcast_S_S8192x8 : S_.BroadcastsInDim S8192x8 (![] : Fin 0 → Fin S8192x8.rank)
  bcast_S_S8192x1 : S_.BroadcastsInDim S8192x1 (![] : Fin 0 → Fin S8192x1.rank)
  shapeCasts_S8192x1_S8192x1x1 : S8192x1.ShapeCasts S8192x1x1
  bcast_S_S8192x1x1 : S_.BroadcastsInDim S8192x1x1 (![] : Fin 0 → Fin S8192x1x1.rank)
  bcast_S1_S1x1x1_2 : S1.BroadcastsInDim S1x1x1 (![2] : Fin 1 → Fin S1x1x1.rank)
  bcast_S1x1x1_S8192x1x1_0_1_2 : S1x1x1.BroadcastsInDim S8192x1x1 (![0, 1, 2] : Fin 3 → Fin S8192x1x1.rank)
  reducesTo_S8192x1x1_S8192x1_d2 : S8192x1x1.ReducesTo [2] S8192x1
  shapeCasts_S8192x1_S8192 : S8192x1.ShapeCasts S8192
  bcast_S_S8192 : S_.BroadcastsInDim S8192 (![] : Fin 0 → Fin S8192.rank)
  bcast_S_S10241x2048 : S_.BroadcastsInDim S10241x2048 (![] : Fin 0 → Fin S10241x2048.rank)
  bcast_S_S8192x2048 : S_.BroadcastsInDim S8192x2048 (![] : Fin 0 → Fin S8192x2048.rank)
  bcast_S8192x1_S8192x2048_0_1 : S8192x1.BroadcastsInDim S8192x2048 (![0, 1] : Fin 2 → Fin S8192x2048.rank)
  slices_S10241x2048_S10240x2048_0_0 : S10241x2048.Slices ![0, 0] S10240x2048
  shapeCasts_S10240x2048_S8x1280x2048 : S10240x2048.ShapeCasts S8x1280x2048
  bitsLt_bf16_f32 : FTy.bits .bf16 < FTy.bits .f32
  inb_S1x320x2048_S1x320x2048_0_0_0 : ∀ a, (![0, 0, 0] : Fin 3 → Nat) a + S1x320x2048.size a ≤ S1x320x2048.size a
  h_S1x320x2048 : 0 < S1x320x2048.numel
  shapeCasts_S1x320x2048_S320x2048 : S1x320x2048.ShapeCasts S320x2048
  inb_S1x2048x1376_S1x2048x1376_0_0_0 : ∀ a, (![0, 0, 0] : Fin 3 → Nat) a + S1x2048x1376.size a ≤ S1x2048x1376.size a
  h_S1x2048x1376 : 0 < S1x2048x1376.numel
  shapeCasts_S1x2048x1376_S2048x1376 : S1x2048x1376.ShapeCasts S2048x1376
  inb_S1x1376x2048_S1x1376x2048_0_0_0 : ∀ a, (![0, 0, 0] : Fin 3 → Nat) a + S1x1376x2048.size a ≤ S1x1376x2048.size a
  h_S1x1376x2048 : 0 < S1x1376x2048.numel
  shapeCasts_S1x1376x2048_S1376x2048 : S1x1376x2048.ShapeCasts S1376x2048
  shapeCasts_S320x2048_S1x320x2048 : S320x2048.ShapeCasts S1x320x2048
  shapeCasts_S8x1280x2048_S10240x2048 : S8x1280x2048.ShapeCasts S10240x2048
  bcast_S_S1x2048 : S_.BroadcastsInDim S1x2048 (![] : Fin 0 → Fin S1x2048.rank)
  concatenates_S10240x2048_S1x2048_S10241x2048_d0 : Shape.Concatenates [S10240x2048, S1x2048] S10241x2048 0
  gather_S8192x8_S8192x1x1_S8192x1_n_1_0_0_1_2_11_wf : GatherDims.WF S8192x8 S8192x1x1 S8192x1 [] [1] [0] [1] [0] 2 ![1, 1]
  scatter_S10241x2048_S8192x1_S8192x2048_1_0_0_1_wf : ScatterDims.WF S10241x2048 S8192x1 S8192x2048 [1] [0] [0] 1
  dot_S320x2048_S2048x1376_S320x1376_1_0_0_1_n_n_wf : DotDims.WF S320x2048 S2048x1376 S320x1376 [1] [0] [0] [1] [] []
  dot_S320x1376_S1376x2048_S320x2048_1_0_0_1_n_n_wf : DotDims.WF S320x1376 S1376x2048 S320x2048 [1] [0] [0] [1] [] []
  gather_S10241x2048_S8192x1_S8192x2048_1_0_n_n_0_1_12048_wf : GatherDims.WF S10241x2048 S8192x1 S8192x2048 [1] [0] [] [0] [] 1 ![1, 2048]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x320x2048.size a ≤ S8x1280x2048.size a
  hwx0_0 : ∀ i : grid0.Coords, EltTy.bits .bf16 = 32 ∨ (Rect.block (s := S8x1280x2048) S1x320x2048.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x2048x1376.size a ≤ S8x2048x1376.size a
  hwx0_1 : ∀ i : grid0.Coords, EltTy.bits .bf16 = 32 ∨ (Rect.block (s := S8x2048x1376) S1x2048x1376.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x2048x1376.size a ≤ S8x2048x1376.size a
  hwx0_2 : ∀ i : grid0.Coords, EltTy.bits .bf16 = 32 ∨ (Rect.block (s := S8x2048x1376) S1x2048x1376.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x1376x2048.size a ≤ S8x1376x2048.size a
  hwx0_3 : ∀ i : grid0.Coords, EltTy.bits .bf16 = 32 ∨ (Rect.block (s := S8x1376x2048) S1x1376x2048.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x320x2048.size a ≤ S8x1280x2048.size a
  hwx0_4 : ∀ i : grid0.Coords, EltTy.bits .f32 = 32 ∨ (Rect.block (s := S8x1280x2048) S1x320x2048.size (cc0_transform_4 i) (hinb0_4 i)).WholeWords (EltTy.packing .f32)

variable [Facts₀]

def gather_S8192x8_S8192x1x1_S8192x1_n_1_0_0_1_2_11 : GatherDims S8192x8 S8192x1x1 S8192x1 where
  offsetDims := []
  collapsedSliceDims := [1]
  operandBatchingDims := [0]
  startIndicesBatchingDims := [0]
  startIndexMap := [1]
  indexVectorDim := 2
  sliceSizes := ![1, 1]
  wf := gather_S8192x8_S8192x1x1_S8192x1_n_1_0_0_1_2_11_wf
def scatter_S10241x2048_S8192x1_S8192x2048_1_0_0_1 : ScatterDims S10241x2048 S8192x1 S8192x2048 where
  updateWindowDims := [1]
  insertedWindowDims := [0]
  scatterDimsToOperandDims := [0]
  indexVectorDim := 1
  wf := scatter_S10241x2048_S8192x1_S8192x2048_1_0_0_1_wf
def dot_S320x2048_S2048x1376_S320x1376_1_0_0_1_n_n : DotDims S320x2048 S2048x1376 S320x1376 where
  lhsContracting := [1]
  rhsContracting := [0]
  lhsNonContracting := [0]
  rhsNonContracting := [1]
  lhsBatch := []
  rhsBatch := []
  wf := dot_S320x2048_S2048x1376_S320x1376_1_0_0_1_n_n_wf
def dot_S320x1376_S1376x2048_S320x2048_1_0_0_1_n_n : DotDims S320x1376 S1376x2048 S320x2048 where
  lhsContracting := [1]
  rhsContracting := [0]
  lhsNonContracting := [0]
  rhsNonContracting := [1]
  lhsBatch := []
  rhsBatch := []
  wf := dot_S320x1376_S1376x2048_S320x2048_1_0_0_1_n_n_wf
def gather_S10241x2048_S8192x1_S8192x2048_1_0_n_n_0_1_12048 : GatherDims S10241x2048 S8192x1 S8192x2048 where
  offsetDims := [1]
  collapsedSliceDims := [0]
  operandBatchingDims := []
  startIndicesBatchingDims := []
  startIndexMap := [0]
  indexVectorDim := 1
  sliceSizes := ![1, 2048]
  wf := gather_S10241x2048_S8192x1_S8192x2048_1_0_n_n_0_1_12048_wf

abbrev win0_0 : Pipeline.Window sig grid0 :=
  Pipeline.Window.ofSpec (Memref.whole main_v26) S1x320x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v27) S1x2048x1376.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v28) S1x2048x1376.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v29) S1x1376x2048.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v30) S1x320x2048.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S8192x2048 : Shape := ⟨2, ![8192, 2048]⟩
abbrev S8192 : Shape := ⟨1, ![8192]⟩
abbrev S8x2048x1376 : Shape := ⟨3, ![8, 2048, 1376]⟩
abbrev S8x1376x2048 : Shape := ⟨3, ![8, 1376, 2048]⟩
abbrev S8192x1 : Shape := ⟨2, ![8192, 1]⟩
abbrev S1x8 : Shape := ⟨2, ![1, 8]⟩
abbrev S8192x8 : Shape := ⟨2, ![8192, 8]⟩
abbrev S_ : Shape := ⟨0, ![]⟩
abbrev S8192x1x1 : Shape := ⟨3, ![8192, 1, 1]⟩
abbrev S1 : Shape := ⟨1, ![1]⟩
abbrev S1x1x1 : Shape := ⟨3, ![1, 1, 1]⟩
abbrev S10241x2048 : Shape := ⟨2, ![10241, 2048]⟩
abbrev S10240x2048 : Shape := ⟨2, ![10240, 2048]⟩
abbrev S8x1280x2048 : Shape := ⟨3, ![8, 1280, 2048]⟩
abbrev S8x1280x1376 : Shape := ⟨3, ![8, 1280, 1376]⟩
abbrev S1x2048 : Shape := ⟨2, ![1, 2048]⟩

abbrev nBuf : Space → Nat
  | .hbm => 107
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S8192, .i32⟩
  | .hbm, ⟨2, _⟩ => ⟨S8192, .f32⟩
  | .hbm, ⟨3, _⟩ => ⟨S8x2048x1376, .f32⟩
  | .hbm, ⟨4, _⟩ => ⟨S8x2048x1376, .f32⟩
  | .hbm, ⟨5, _⟩ => ⟨S8x1376x2048, .f32⟩
  | .hbm, ⟨6, _⟩ => ⟨S8192x1, .i32⟩
  | .hbm, ⟨7, _⟩ => ⟨S1x8, .i32⟩
  | .hbm, ⟨8, _⟩ => ⟨S8192x8, .i32⟩
  | .hbm, ⟨9, _⟩ => ⟨S8192x8, .i32⟩
  | .hbm, ⟨10, _⟩ => ⟨S8192x8, .i1⟩
  | .hbm, ⟨11, _⟩ => ⟨S8192x8, .i32⟩
  | .hbm, ⟨12, _⟩ => ⟨S_, .i32⟩
  | .hbm, ⟨13, _⟩ => ⟨S_, .i32⟩
  | .hbm, ⟨14, _⟩ => ⟨S8192x8, .i32⟩
  | .hbm, ⟨15, _⟩ => ⟨S_, .i32⟩
  | .hbm, ⟨16, _⟩ => ⟨S8192x8, .i32⟩
  | .hbm, ⟨17, _⟩ => ⟨S8192x8, .i32⟩
  | .hbm, ⟨18, _⟩ => ⟨S8192x1, .i32⟩
  | .hbm, ⟨19, _⟩ => ⟨S_, .i32⟩
  | .hbm, ⟨20, _⟩ => ⟨S8192x1, .i32⟩
  | .hbm, ⟨21, _⟩ => ⟨S8192x1, .i1⟩
  | .hbm, ⟨22, _⟩ => ⟨S_, .i32⟩
  | .hbm, ⟨23, _⟩ => ⟨S8192x1, .i32⟩
  | .hbm, ⟨24, _⟩ => ⟨S8192x1, .i32⟩
  | .hbm, ⟨25, _⟩ => ⟨S8192x1, .i32⟩
  | .hbm, ⟨26, _⟩ => ⟨S8192x1x1, .i32⟩
  | .hbm, ⟨27, _⟩ => ⟨S1, .i32⟩
  | .hbm, ⟨28, _⟩ => ⟨S_, .i32⟩
  | .hbm, ⟨29, _⟩ => ⟨S8192x1x1, .i32⟩
  | .hbm, ⟨30, _⟩ => ⟨S8192x1x1, .i1⟩
  | .hbm, ⟨31, _⟩ => ⟨S1x1x1, .i32⟩
  | .hbm, ⟨32, _⟩ => ⟨S8192x1x1, .i32⟩
  | .hbm, ⟨33, _⟩ => ⟨S8192x1x1, .i1⟩
  | .hbm, ⟨34, _⟩ => ⟨S8192x1x1, .i1⟩
  | .hbm, ⟨35, _⟩ => ⟨S_, .i1⟩
  | .hbm, ⟨36, _⟩ => ⟨S8192x1, .i1⟩
  | .hbm, ⟨37, _⟩ => ⟨S8192x1, .i32⟩
  | .hbm, ⟨38, _⟩ => ⟨S_, .i32⟩
  | .hbm, ⟨39, _⟩ => ⟨S8192x1, .i32⟩
  | .hbm, ⟨40, _⟩ => ⟨S8192x1, .i32⟩
  | .hbm, ⟨41, _⟩ => ⟨S8192, .i32⟩
  | .hbm, ⟨42, _⟩ => ⟨S_, .i32⟩
  | .hbm, ⟨43, _⟩ => ⟨S8192, .i32⟩
  | .hbm, ⟨44, _⟩ => ⟨S8192, .i1⟩
  | .hbm, ⟨45, _⟩ => ⟨S_, .i32⟩
  | .hbm, ⟨46, _⟩ => ⟨S8192, .i32⟩
  | .hbm, ⟨47, _⟩ => ⟨S8192, .i32⟩
  | .hbm, ⟨48, _⟩ => ⟨S8192, .i32⟩
  | .hbm, ⟨49, _⟩ => ⟨S_, .i32⟩
  | .hbm, ⟨50, _⟩ => ⟨S_, .i32⟩
  | .hbm, ⟨51, _⟩ => ⟨S8192, .i32⟩
  | .hbm, ⟨52, _⟩ => ⟨S8192, .i32⟩
  | .hbm, ⟨53, _⟩ => ⟨S_, .f32⟩
  | .hbm, ⟨54, _⟩ => ⟨S10241x2048, .f32⟩
  | .hbm, ⟨55, _⟩ => ⟨S8192x1, .i1⟩
  | .hbm, ⟨56, _⟩ => ⟨S_, .f32⟩
  | .hbm, ⟨57, _⟩ => ⟨S8192x2048, .f32⟩
  | .hbm, ⟨58, _⟩ => ⟨S8192x2048, .i1⟩
  | .hbm, ⟨59, _⟩ => ⟨S8192x2048, .f32⟩
  | .hbm, ⟨60, _⟩ => ⟨S_, .i32⟩
  | .hbm, ⟨61, _⟩ => ⟨S8192, .i32⟩
  | .hbm, ⟨62, _⟩ => ⟨S8192, .i1⟩
  | .hbm, ⟨63, _⟩ => ⟨S_, .i32⟩
  | .hbm, ⟨64, _⟩ => ⟨S8192, .i32⟩
  | .hbm, ⟨65, _⟩ => ⟨S8192, .i32⟩
  | .hbm, ⟨66, _⟩ => ⟨S8192, .i32⟩
  | .hbm, ⟨67, _⟩ => ⟨S8192x1, .i32⟩
  | .hbm, ⟨68, _⟩ => ⟨S10241x2048, .f32⟩
  | .hbm, ⟨69, _⟩ => ⟨S10240x2048, .f32⟩
  | .hbm, ⟨70, _⟩ => ⟨S8x1280x2048, .f32⟩
  | .hbm, ⟨71, _⟩ => ⟨S8x1280x1376, .f32⟩
  | .hbm, ⟨72, _⟩ => ⟨S8x1280x1376, .f32⟩
  | .hbm, ⟨73, _⟩ => ⟨S8x1280x1376, .f32⟩
  | .hbm, ⟨74, _⟩ => ⟨S_, .f32⟩
  | .hbm, ⟨75, _⟩ => ⟨S8x1280x1376, .f32⟩
  | .hbm, ⟨76, _⟩ => ⟨S8x1280x1376, .f32⟩
  | .hbm, ⟨77, _⟩ => ⟨S_, .f32⟩
  | .hbm, ⟨78, _⟩ => ⟨S8x1280x1376, .f32⟩
  | .hbm, ⟨79, _⟩ => ⟨S8x1280x1376, .f32⟩
  | .hbm, ⟨80, _⟩ => ⟨S8x1280x1376, .f32⟩
  | .hbm, ⟨81, _⟩ => ⟨S8x1280x1376, .f32⟩
  | .hbm, ⟨82, _⟩ => ⟨S8x1280x1376, .f32⟩
  | .hbm, ⟨83, _⟩ => ⟨S8x1280x2048, .f32⟩
  | .hbm, ⟨84, _⟩ => ⟨S10240x2048, .f32⟩
  | .hbm, ⟨85, _⟩ => ⟨S_, .f32⟩
  | .hbm, ⟨86, _⟩ => ⟨S1x2048, .f32⟩
  | .hbm, ⟨87, _⟩ => ⟨S10241x2048, .f32⟩
  | .hbm, ⟨88, _⟩ => ⟨S_, .i32⟩
  | .hbm, ⟨89, _⟩ => ⟨S8192, .i32⟩
  | .hbm, ⟨90, _⟩ => ⟨S8192, .i1⟩
  | .hbm, ⟨91, _⟩ => ⟨S_, .i32⟩
  | .hbm, ⟨92, _⟩ => ⟨S8192, .i32⟩
  | .hbm, ⟨93, _⟩ => ⟨S8192, .i32⟩
  | .hbm, ⟨94, _⟩ => ⟨S8192, .i32⟩
  | .hbm, ⟨95, _⟩ => ⟨S8192x1, .i32⟩
  | .hbm, ⟨96, _⟩ => ⟨S8192x2048, .f32⟩
  | .hbm, ⟨97, _⟩ => ⟨S8192x1, .i1⟩
  | .hbm, ⟨98, _⟩ => ⟨S8192x1, .f32⟩
  | .hbm, ⟨99, _⟩ => ⟨S8192x2048, .f32⟩
  | .hbm, ⟨100, _⟩ => ⟨S8192x2048, .f32⟩
  | .hbm, ⟨101, _⟩ => ⟨S8192x1, .f32⟩
  | .hbm, ⟨102, _⟩ => ⟨S_, .f32⟩
  | .hbm, ⟨103, _⟩ => ⟨S8192x1, .f32⟩
  | .hbm, ⟨104, _⟩ => ⟨S8192x1, .f32⟩
  | .hbm, ⟨105, _⟩ => ⟨S8192x2048, .f32⟩
  | .hbm, ⟨106, _⟩ => ⟨S8192x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_call0_v0 : Ref sig .tc := ⟨.hbm, 6, rfl⟩
abbrev main_call0_v1 : Ref sig .tc := ⟨.hbm, 7, rfl⟩
abbrev main_call0_v2 : Ref sig .tc := ⟨.hbm, 8, rfl⟩
abbrev main_call0_v3 : Ref sig .tc := ⟨.hbm, 9, rfl⟩
abbrev main_call0_v4 : Ref sig .tc := ⟨.hbm, 10, rfl⟩
abbrev main_v0 : Ref sig .tc := ⟨.hbm, 11, rfl⟩
abbrev main_call1_call0_c : Ref sig .tc := ⟨.hbm, 12, rfl⟩
abbrev main_call1_call0_v0 : Ref sig .tc := ⟨.hbm, 13, rfl⟩
abbrev main_v1 : Ref sig .tc := ⟨.hbm, 14, rfl⟩
abbrev main_c : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_call2_c : Ref sig .tc := ⟨.hbm, 19, rfl⟩
abbrev main_call2_v0 : Ref sig .tc := ⟨.hbm, 20, rfl⟩
abbrev main_call2_v1 : Ref sig .tc := ⟨.hbm, 21, rfl⟩
abbrev main_call2_c_0 : Ref sig .tc := ⟨.hbm, 22, rfl⟩
abbrev main_call2_v2 : Ref sig .tc := ⟨.hbm, 23, rfl⟩
abbrev main_call2_v3 : Ref sig .tc := ⟨.hbm, 24, rfl⟩
abbrev main_call2_v4 : Ref sig .tc := ⟨.hbm, 25, rfl⟩
abbrev main_call2_v5 : Ref sig .tc := ⟨.hbm, 26, rfl⟩
abbrev main_call2_c_1 : Ref sig .tc := ⟨.hbm, 27, rfl⟩
abbrev main_call2_c_2 : Ref sig .tc := ⟨.hbm, 28, rfl⟩
abbrev main_call2_v6 : Ref sig .tc := ⟨.hbm, 29, rfl⟩
abbrev main_call2_v7 : Ref sig .tc := ⟨.hbm, 30, rfl⟩
abbrev main_call2_v8 : Ref sig .tc := ⟨.hbm, 31, rfl⟩
abbrev main_call2_v9 : Ref sig .tc := ⟨.hbm, 32, rfl⟩
abbrev main_call2_v10 : Ref sig .tc := ⟨.hbm, 33, rfl⟩
abbrev main_call2_v11 : Ref sig .tc := ⟨.hbm, 34, rfl⟩
abbrev main_call2_c_3 : Ref sig .tc := ⟨.hbm, 35, rfl⟩
abbrev main_call2_v12 : Ref sig .tc := ⟨.hbm, 36, rfl⟩
abbrev main_call2_v13 : Ref sig .tc := ⟨.hbm, 37, rfl⟩
abbrev main_call2_c_4 : Ref sig .tc := ⟨.hbm, 38, rfl⟩
abbrev main_call2_v14 : Ref sig .tc := ⟨.hbm, 39, rfl⟩
abbrev main_v5 : Ref sig .tc := ⟨.hbm, 40, rfl⟩
abbrev main_v6 : Ref sig .tc := ⟨.hbm, 41, rfl⟩
abbrev main_c_0 : Ref sig .tc := ⟨.hbm, 42, rfl⟩
abbrev main_v7 : Ref sig .tc := ⟨.hbm, 43, rfl⟩
abbrev main_v8 : Ref sig .tc := ⟨.hbm, 44, rfl⟩
abbrev main_c_1 : Ref sig .tc := ⟨.hbm, 45, rfl⟩
abbrev main_v9 : Ref sig .tc := ⟨.hbm, 46, rfl⟩
abbrev main_v10 : Ref sig .tc := ⟨.hbm, 47, rfl⟩
abbrev main_v11 : Ref sig .tc := ⟨.hbm, 48, rfl⟩
abbrev main_c_2 : Ref sig .tc := ⟨.hbm, 49, rfl⟩
abbrev main_call3_v0 : Ref sig .tc := ⟨.hbm, 50, rfl⟩
abbrev main_call3_v1 : Ref sig .tc := ⟨.hbm, 51, rfl⟩
abbrev main_v12 : Ref sig .tc := ⟨.hbm, 52, rfl⟩
abbrev main_cst : Ref sig .tc := ⟨.hbm, 53, rfl⟩
abbrev main_v13 : Ref sig .tc := ⟨.hbm, 54, rfl⟩
abbrev main_v14 : Ref sig .tc := ⟨.hbm, 55, rfl⟩
abbrev main_cst_3 : Ref sig .tc := ⟨.hbm, 56, rfl⟩
abbrev main_v15 : Ref sig .tc := ⟨.hbm, 57, rfl⟩
abbrev main_call4_v0 : Ref sig .tc := ⟨.hbm, 58, rfl⟩
abbrev main_v16 : Ref sig .tc := ⟨.hbm, 59, rfl⟩
abbrev main_c_4 : Ref sig .tc := ⟨.hbm, 60, rfl⟩
abbrev main_v17 : Ref sig .tc := ⟨.hbm, 61, rfl⟩
abbrev main_v18 : Ref sig .tc := ⟨.hbm, 62, rfl⟩
abbrev main_c_5 : Ref sig .tc := ⟨.hbm, 63, rfl⟩
abbrev main_v19 : Ref sig .tc := ⟨.hbm, 64, rfl⟩
abbrev main_v20 : Ref sig .tc := ⟨.hbm, 65, rfl⟩
abbrev main_v21 : Ref sig .tc := ⟨.hbm, 66, rfl⟩
abbrev main_v22 : Ref sig .tc := ⟨.hbm, 67, rfl⟩
abbrev main_v23 : Ref sig .tc := ⟨.hbm, 68, rfl⟩
abbrev main_v24 : Ref sig .tc := ⟨.hbm, 69, rfl⟩
abbrev main_v25 : Ref sig .tc := ⟨.hbm, 70, rfl⟩
abbrev main_v26 : Ref sig .tc := ⟨.hbm, 71, rfl⟩
abbrev main_call5_v0 : Ref sig .tc := ⟨.hbm, 72, rfl⟩
abbrev main_call5_v1 : Ref sig .tc := ⟨.hbm, 73, rfl⟩
abbrev main_call5_cst : Ref sig .tc := ⟨.hbm, 74, rfl⟩
abbrev main_call5_v2 : Ref sig .tc := ⟨.hbm, 75, rfl⟩
abbrev main_call5_v3 : Ref sig .tc := ⟨.hbm, 76, rfl⟩
abbrev main_call5_cst_0 : Ref sig .tc := ⟨.hbm, 77, rfl⟩
abbrev main_call5_v4 : Ref sig .tc := ⟨.hbm, 78, rfl⟩
abbrev main_call5_v5 : Ref sig .tc := ⟨.hbm, 79, rfl⟩
abbrev main_v27 : Ref sig .tc := ⟨.hbm, 80, rfl⟩
abbrev main_v28 : Ref sig .tc := ⟨.hbm, 81, rfl⟩
abbrev main_v29 : Ref sig .tc := ⟨.hbm, 82, rfl⟩
abbrev main_v30 : Ref sig .tc := ⟨.hbm, 83, rfl⟩
abbrev main_v31 : Ref sig .tc := ⟨.hbm, 84, rfl⟩
abbrev main_cst_6 : Ref sig .tc := ⟨.hbm, 85, rfl⟩
abbrev main_v32 : Ref sig .tc := ⟨.hbm, 86, rfl⟩
abbrev main_v33 : Ref sig .tc := ⟨.hbm, 87, rfl⟩
abbrev main_c_7 : Ref sig .tc := ⟨.hbm, 88, rfl⟩
abbrev main_v34 : Ref sig .tc := ⟨.hbm, 89, rfl⟩
abbrev main_v35 : Ref sig .tc := ⟨.hbm, 90, rfl⟩
abbrev main_c_8 : Ref sig .tc := ⟨.hbm, 91, rfl⟩
abbrev main_v36 : Ref sig .tc := ⟨.hbm, 92, rfl⟩
abbrev main_v37 : Ref sig .tc := ⟨.hbm, 93, rfl⟩
abbrev main_v38 : Ref sig .tc := ⟨.hbm, 94, rfl⟩
abbrev main_v39 : Ref sig .tc := ⟨.hbm, 95, rfl⟩
abbrev main_v40 : Ref sig .tc := ⟨.hbm, 96, rfl⟩
abbrev main_v41 : Ref sig .tc := ⟨.hbm, 97, rfl⟩
abbrev main_v42 : Ref sig .tc := ⟨.hbm, 98, rfl⟩
abbrev main_v43 : Ref sig .tc := ⟨.hbm, 99, rfl⟩
abbrev main_v44 : Ref sig .tc := ⟨.hbm, 100, rfl⟩
abbrev main_v45 : Ref sig .tc := ⟨.hbm, 101, rfl⟩
abbrev main_cst_9 : Ref sig .tc := ⟨.hbm, 102, rfl⟩
abbrev main_v46 : Ref sig .tc := ⟨.hbm, 103, rfl⟩
abbrev main_v47 : Ref sig .tc := ⟨.hbm, 104, rfl⟩
abbrev main_v48 : Ref sig .tc := ⟨.hbm, 105, rfl⟩
abbrev main_v49 : Ref sig .tc := ⟨.hbm, 106, rfl⟩

abbrev nD : Nat := 1
abbrev τ : Topo := Topo.v7x

variable {F : FTy → Type} [FloatOps F]

class Facts₀ : Prop where
  bcast_S8192_S8192x1_0 : S8192.BroadcastsInDim S8192x1 (![0] : Fin 1 → Fin S8192x1.rank)
  bcast_S8192x1_S8192x8_0_1 : S8192x1.BroadcastsInDim S8192x8 (![0, 1] : Fin 2 → Fin S8192x8.rank)
  bcast_S1x8_S8192x8_0_1 : S1x8.BroadcastsInDim S8192x8 (![0, 1] : Fin 2 → Fin S8192x8.rank)
  natLt_1_32 : 1 < 32
  bcast_S_S_ : S_.BroadcastsInDim S_ (![] : Fin 0 → Fin S_.rank)
  reduceWindows_S8192x8_S8192x8_w8192s1p8191_0_w1s1p0_0 : S8192x8.ReduceWindows (![8192, 1] : Fin 2 → Nat) ![1, 1] ![8191, 0] ![0, 0] S8192x8
  h_S_ : 0 < S_.numel
  bcast_S_S8192x8 : S_.BroadcastsInDim S8192x8 (![] : Fin 0 → Fin S8192x8.rank)
  bcast_S_S8192x1 : S_.BroadcastsInDim S8192x1 (![] : Fin 0 → Fin S8192x1.rank)
  shapeCasts_S8192x1_S8192x1x1 : S8192x1.ShapeCasts S8192x1x1
  bcast_S_S8192x1x1 : S_.BroadcastsInDim S8192x1x1 (![] : Fin 0 → Fin S8192x1x1.rank)
  bcast_S1_S1x1x1_2 : S1.BroadcastsInDim S1x1x1 (![2] : Fin 1 → Fin S1x1x1.rank)
  bcast_S1x1x1_S8192x1x1_0_1_2 : S1x1x1.BroadcastsInDim S8192x1x1 (![0, 1, 2] : Fin 3 → Fin S8192x1x1.rank)
  reducesTo_S8192x1x1_S8192x1_d2 : S8192x1x1.ReducesTo [2] S8192x1
  shapeCasts_S8192x1_S8192 : S8192x1.ShapeCasts S8192
  bcast_S_S8192 : S_.BroadcastsInDim S8192 (![] : Fin 0 → Fin S8192.rank)
  bcast_S_S10241x2048 : S_.BroadcastsInDim S10241x2048 (![] : Fin 0 → Fin S10241x2048.rank)
  bcast_S_S8192x2048 : S_.BroadcastsInDim S8192x2048 (![] : Fin 0 → Fin S8192x2048.rank)
  bcast_S8192x1_S8192x2048_0_1 : S8192x1.BroadcastsInDim S8192x2048 (![0, 1] : Fin 2 → Fin S8192x2048.rank)
  slices_S10241x2048_S10240x2048_0_0 : S10241x2048.Slices ![0, 0] S10240x2048
  shapeCasts_S10240x2048_S8x1280x2048 : S10240x2048.ShapeCasts S8x1280x2048
  bcast_S_S8x1280x1376 : S_.BroadcastsInDim S8x1280x1376 (![] : Fin 0 → Fin S8x1280x1376.rank)
  shapeCasts_S8x1280x2048_S10240x2048 : S8x1280x2048.ShapeCasts S10240x2048
  bcast_S_S1x2048 : S_.BroadcastsInDim S1x2048 (![] : Fin 0 → Fin S1x2048.rank)
  concatenates_S10240x2048_S1x2048_S10241x2048_d0 : Shape.Concatenates [S10240x2048, S1x2048] S10241x2048 0
  gather_S8192x8_S8192x1x1_S8192x1_n_1_0_0_1_2_11_wf : GatherDims.WF S8192x8 S8192x1x1 S8192x1 [] [1] [0] [1] [0] 2 ![1, 1]
  scatter_S10241x2048_S8192x1_S8192x2048_1_0_0_1_wf : ScatterDims.WF S10241x2048 S8192x1 S8192x2048 [1] [0] [0] 1
  dot_S8x1280x2048_S8x2048x1376_S8x1280x1376_2_1_1_2_0_0_wf : DotDims.WF S8x1280x2048 S8x2048x1376 S8x1280x1376 [2] [1] [1] [2] [0] [0]
  dot_S8x1280x1376_S8x1376x2048_S8x1280x2048_2_1_1_2_0_0_wf : DotDims.WF S8x1280x1376 S8x1376x2048 S8x1280x2048 [2] [1] [1] [2] [0] [0]
  gather_S10241x2048_S8192x1_S8192x2048_1_0_n_n_0_1_12048_wf : GatherDims.WF S10241x2048 S8192x1 S8192x2048 [1] [0] [] [0] [] 1 ![1, 2048]

variable [Facts₀]

def gather_S8192x8_S8192x1x1_S8192x1_n_1_0_0_1_2_11 : GatherDims S8192x8 S8192x1x1 S8192x1 where
  offsetDims := []
  collapsedSliceDims := [1]
  operandBatchingDims := [0]
  startIndicesBatchingDims := [0]
  startIndexMap := [1]
  indexVectorDim := 2
  sliceSizes := ![1, 1]
  wf := gather_S8192x8_S8192x1x1_S8192x1_n_1_0_0_1_2_11_wf
def scatter_S10241x2048_S8192x1_S8192x2048_1_0_0_1 : ScatterDims S10241x2048 S8192x1 S8192x2048 where
  updateWindowDims := [1]
  insertedWindowDims := [0]
  scatterDimsToOperandDims := [0]
  indexVectorDim := 1
  wf := scatter_S10241x2048_S8192x1_S8192x2048_1_0_0_1_wf
def dot_S8x1280x2048_S8x2048x1376_S8x1280x1376_2_1_1_2_0_0 : DotDims S8x1280x2048 S8x2048x1376 S8x1280x1376 where
  lhsContracting := [2]
  rhsContracting := [1]
  lhsNonContracting := [1]
  rhsNonContracting := [2]
  lhsBatch := [0]
  rhsBatch := [0]
  wf := dot_S8x1280x2048_S8x2048x1376_S8x1280x1376_2_1_1_2_0_0_wf
def dot_S8x1280x1376_S8x1376x2048_S8x1280x2048_2_1_1_2_0_0 : DotDims S8x1280x1376 S8x1376x2048 S8x1280x2048 where
  lhsContracting := [2]
  rhsContracting := [1]
  lhsNonContracting := [1]
  rhsNonContracting := [2]
  lhsBatch := [0]
  rhsBatch := [0]
  wf := dot_S8x1280x1376_S8x1376x2048_S8x1280x2048_2_1_1_2_0_0_wf
def gather_S10241x2048_S8192x1_S8192x2048_1_0_n_n_0_1_12048 : GatherDims S10241x2048 S8192x1 S8192x2048 where
  offsetDims := [1]
  collapsedSliceDims := [0]
  operandBatchingDims := []
  startIndicesBatchingDims := []
  startIndexMap := [0]
  indexVectorDim := 1
  sliceSizes := ![1, 2048]
  wf := gather_S10241x2048_S8192x1_S8192x2048_1_0_n_n_0_1_12048_wf

class Facts : Prop extends Facts₀ where

variable [Facts]
-- ==== Proof.RefRun.lean ====
/-
  The reference's @main as one straight line of host operations, and its run.

  The reference calls the outlined functions one_hot, cumsum, take_along_axis, where (twice) and silu; with each
  callee's operations listed at its call site over that call's buffers, @main is a line of 101 operations, cut here
  in three stretches: `pre` (the routing — the rank of each token within its expert, which tokens are kept, each
  token's slot — and the dispatch of the kept tokens into the experts' buffers, ending at the buffer of dispatched
  tokens), `mid` (the expert layer: the two projections, the gate's logistic spelt out, the product, the down
  projection) and `tail` (the combine: each token gathers its slot's row, dropped tokens are zeroed, the row is
  scaled by the token's score). Every weakly fair execution of @main terminates with every buffer at the fold of
  these operations over the launch contents.
-/
import proofs.«169530_j74380243632186_1_alg».proof.Proof.Gen.ReferenceIdeal
import Idealize.ShloMosaic.Lib.StableHlo.Run
import Idealize.ShloMosaic.Lib.Pipeline.Regions

noncomputable section

namespace Cert.ReferenceIdeal.RefRun

open Cert.ReferenceIdeal Cert.ReferenceIdeal.Gen Idealize.ShloMosaic Idealize.ShloMosaic.TcCoe Idealize.SL.Sem

variable {F : FTy → Type} [FloatOps F]

/-- The routing and the dispatch: 65 operations, the last writing the dispatched tokens. -/
abbrev pre : List (HloOp τ sig (Elt F)) :=
  [ StableHlo.TRef.unary (.of main_arg1 : StableHlo.TRef sig ⟨S8192, .i32⟩) (.of main_call0_v0 : StableHlo.TRef sig ⟨S8192x1, .i32⟩) (broadcastInDim S8192x1 ![0] bcast_S8192_S8192x1_0),
    StableHlo.TRef.nullary (.of main_call0_v1 : StableHlo.TRef sig ⟨S1x8, .i32⟩) (iotaInDim S1x8 32 1),
    StableHlo.TRef.unary (.of main_call0_v0 : StableHlo.TRef sig ⟨S8192x1, .i32⟩) (.of main_call0_v2 : StableHlo.TRef sig ⟨S8192x8, .i32⟩) (broadcastInDim S8192x8 ![0, 1] bcast_S8192x1_S8192x8_0_1),
    StableHlo.TRef.unary (.of main_call0_v1 : StableHlo.TRef sig ⟨S1x8, .i32⟩) (.of main_call0_v3 : StableHlo.TRef sig ⟨S8192x8, .i32⟩) (broadcastInDim S8192x8 ![0, 1] bcast_S1x8_S8192x8_0_1),
    StableHlo.TRef.binary (.of main_call0_v2 : StableHlo.TRef sig ⟨S8192x8, .i32⟩) (.of main_call0_v3 : StableHlo.TRef sig ⟨S8192x8, .i32⟩) (.of main_call0_v4 : StableHlo.TRef sig ⟨S8192x8, .i1⟩) (cmpi .eq),
    StableHlo.TRef.unary (.of main_call0_v4 : StableHlo.TRef sig ⟨S8192x8, .i1⟩) (.of main_v0 : StableHlo.TRef sig ⟨S8192x8, .i32⟩) (extui 32 · natLt_1_32),
    StableHlo.TRef.nullary (.of main_call1_call0_c : StableHlo.TRef sig ⟨S_, .i32⟩) (constantI S_ 32 0#32),
    StableHlo.TRef.unary (.of main_call1_call0_c : StableHlo.TRef sig ⟨S_, .i32⟩) (.of main_call1_call0_v0 : StableHlo.TRef sig ⟨S_, .i32⟩) (broadcastInDim S_ ![] bcast_S_S_),
    StableHlo.TRef.binary (.of main_v0 : StableHlo.TRef sig ⟨S8192x8, .i32⟩) (.of main_call1_call0_v0 : StableHlo.TRef sig ⟨S_, .i32⟩) (.of main_v1 : StableHlo.TRef sig ⟨S8192x8, .i32⟩) (fun x v => Host.reduceWindow IntOp.addi ![8192, 1] ![1, 1] ![8191, 0] ![0, 0] x v reduceWindows_S8192x8_S8192x8_w8192s1p8191_0_w1s1p0_0 h_S_),
    StableHlo.nullary main_c (constantI S_ 32 1#32),
    StableHlo.unary main_c main_v2 (broadcastInDim S8192x8 ![] bcast_S_S8192x8 : (⟨S_, .i32⟩ : BufTy).Contents (Elt F) → (⟨S8192x8, .i32⟩ : BufTy).Contents (Elt F)),
    StableHlo.binary main_v1 main_v2 main_v3 (subi : (⟨S8192x8, .i32⟩ : BufTy).Contents (Elt F) → (⟨S8192x8, .i32⟩ : BufTy).Contents (Elt F) → (⟨S8192x8, .i32⟩ : BufTy).Contents (Elt F)),
    StableHlo.unary main_arg1 main_v4 (broadcastInDim S8192x1 ![0] bcast_S8192_S8192x1_0 : (⟨S8192, .i32⟩ : BufTy).Contents (Elt F) → (⟨S8192x1, .i32⟩ : BufTy).Contents (Elt F)),
    StableHlo.TRef.nullary (.of main_call2_c : StableHlo.TRef sig ⟨S_, .i32⟩) (constantI S_ 32 0#32),
    StableHlo.TRef.unary (.of main_call2_c : StableHlo.TRef sig ⟨S_, .i32⟩) (.of main_call2_v0 : StableHlo.TRef sig ⟨S8192x1, .i32⟩) (broadcastInDim S8192x1 ![] bcast_S_S8192x1),
    StableHlo.TRef.binary (.of main_v4 : StableHlo.TRef sig ⟨S8192x1, .i32⟩) (.of main_call2_v0 : StableHlo.TRef sig ⟨S8192x1, .i32⟩) (.of main_call2_v1 : StableHlo.TRef sig ⟨S8192x1, .i1⟩) (cmpi .slt),
    StableHlo.TRef.nullary (.of main_call2_c_0 : StableHlo.TRef sig ⟨S_, .i32⟩) (constantI S_ 32 8#32),
    StableHlo.TRef.unary (.of main_call2_c_0 : StableHlo.TRef sig ⟨S_, .i32⟩) (.of main_call2_v2 : StableHlo.TRef sig ⟨S8192x1, .i32⟩) (broadcastInDim S8192x1 ![] bcast_S_S8192x1),
    StableHlo.TRef.binary (.of main_v4 : StableHlo.TRef sig ⟨S8192x1, .i32⟩) (.of main_call2_v2 : StableHlo.TRef sig ⟨S8192x1, .i32⟩) (.of main_call2_v3 : StableHlo.TRef sig ⟨S8192x1, .i32⟩) addi,
    StableHlo.TRef.ternary (.of main_call2_v1 : StableHlo.TRef sig ⟨S8192x1, .i1⟩) (.of main_call2_v3 : StableHlo.TRef sig ⟨S8192x1, .i32⟩) (.of main_v4 : StableHlo.TRef sig ⟨S8192x1, .i32⟩) (.of main_call2_v4 : StableHlo.TRef sig ⟨S8192x1, .i32⟩) select,
    StableHlo.TRef.reshape (.of main_call2_v4 : StableHlo.TRef sig ⟨S8192x1, .i32⟩) (.of main_call2_v5 : StableHlo.TRef sig ⟨S8192x1x1, .i32⟩) rfl shapeCasts_S8192x1_S8192x1x1,
    StableHlo.TRef.nullary (.of main_call2_c_1 : StableHlo.TRef sig ⟨S1, .i32⟩) (constantI S1 32 7#32),
    StableHlo.TRef.nullary (.of main_call2_c_2 : StableHlo.TRef sig ⟨S_, .i32⟩) (constantI S_ 32 0#32),
    StableHlo.TRef.unary (.of main_call2_c_2 : StableHlo.TRef sig ⟨S_, .i32⟩) (.of main_call2_v6 : StableHlo.TRef sig ⟨S8192x1x1, .i32⟩) (broadcastInDim S8192x1x1 ![] bcast_S_S8192x1x1),
    StableHlo.TRef.binary (.of main_call2_v5 : StableHlo.TRef sig ⟨S8192x1x1, .i32⟩) (.of main_call2_v6 : StableHlo.TRef sig ⟨S8192x1x1, .i32⟩) (.of main_call2_v7 : StableHlo.TRef sig ⟨S8192x1x1, .i1⟩) (cmpi .sge),
    StableHlo.TRef.unary (.of main_call2_c_1 : StableHlo.TRef sig ⟨S1, .i32⟩) (.of main_call2_v8 : StableHlo.TRef sig ⟨S1x1x1, .i32⟩) (broadcastInDim S1x1x1 ![2] bcast_S1_S1x1x1_2),
    StableHlo.TRef.unary (.of main_call2_v8 : StableHlo.TRef sig ⟨S1x1x1, .i32⟩) (.of main_call2_v9 : StableHlo.TRef sig ⟨S8192x1x1, .i32⟩) (broadcastInDim S8192x1x1 ![0, 1, 2] bcast_S1x1x1_S8192x1x1_0_1_2),
    StableHlo.TRef.binary (.of main_call2_v5 : StableHlo.TRef sig ⟨S8192x1x1, .i32⟩) (.of main_call2_v9 : StableHlo.TRef sig ⟨S8192x1x1, .i32⟩) (.of main_call2_v10 : StableHlo.TRef sig ⟨S8192x1x1, .i1⟩) (cmpi .sle),
    StableHlo.TRef.binary (.of main_call2_v7 : StableHlo.TRef sig ⟨S8192x1x1, .i1⟩) (.of main_call2_v10 : StableHlo.TRef sig ⟨S8192x1x1, .i1⟩) (.of main_call2_v11 : StableHlo.TRef sig ⟨S8192x1x1, .i1⟩) andi,
    StableHlo.TRef.nullary (.of main_call2_c_3 : StableHlo.TRef sig ⟨S_, .i1⟩) (constantI S_ 1 1#1),
    StableHlo.TRef.binary (.of main_call2_v11 : StableHlo.TRef sig ⟨S8192x1x1, .i1⟩) (.of main_call2_c_3 : StableHlo.TRef sig ⟨S_, .i1⟩) (.of main_call2_v12 : StableHlo.TRef sig ⟨S8192x1, .i1⟩) (fun x v => Host.reduce IntOp.andi x v reducesTo_S8192x1x1_S8192x1_d2 h_S_),
    StableHlo.TRef.binary (.of main_v3 : StableHlo.TRef sig ⟨S8192x8, .i32⟩) (.of main_call2_v5 : StableHlo.TRef sig ⟨S8192x1x1, .i32⟩) (.of main_call2_v13 : StableHlo.TRef sig ⟨S8192x1, .i32⟩) (fun x i => Host.gather gather_S8192x8_S8192x1x1_S8192x1_n_1_0_0_1_2_11 x i),
    StableHlo.TRef.nullary (.of main_call2_c_4 : StableHlo.TRef sig ⟨S_, .i32⟩) (constantI S_ 32 2147483648#32),
    StableHlo.TRef.unary (.of main_call2_c_4 : StableHlo.TRef sig ⟨S_, .i32⟩) (.of main_call2_v14 : StableHlo.TRef sig ⟨S8192x1, .i32⟩) (broadcastInDim S8192x1 ![] bcast_S_S8192x1),
    StableHlo.TRef.ternary (.of main_call2_v12 : StableHlo.TRef sig ⟨S8192x1, .i1⟩) (.of main_call2_v13 : StableHlo.TRef sig ⟨S8192x1, .i32⟩) (.of main_call2_v14 : StableHlo.TRef sig ⟨S8192x1, .i32⟩) (.of main_v5 : StableHlo.TRef sig ⟨S8192x1, .i32⟩) select,
    StableHlo.reshape main_v5 main_v6 rfl shapeCasts_S8192x1_S8192,
    StableHlo.nullary main_c_0 (constantI S_ 32 1280#32),
    StableHlo.unary main_c_0 main_v7 (broadcastInDim S8192 ![] bcast_S_S8192 : (⟨S_, .i32⟩ : BufTy).Contents (Elt F) → (⟨S8192, .i32⟩ : BufTy).Contents (Elt F)),
    StableHlo.binary main_v6 main_v7 main_v8 (cmpi .slt : (⟨S8192, .i32⟩ : BufTy).Contents (Elt F) → (⟨S8192, .i32⟩ : BufTy).Contents (Elt F) → (⟨S8192, .i1⟩ : BufTy).Contents (Elt F)),
    StableHlo.nullary main_c_1 (constantI S_ 32 1280#32),
    StableHlo.unary main_c_1 main_v9 (broadcastInDim S8192 ![] bcast_S_S8192 : (⟨S_, .i32⟩ : BufTy).Contents (Elt F) → (⟨S8192, .i32⟩ : BufTy).Contents (Elt F)),
    StableHlo.binary main_arg1 main_v9 main_v10 (muli : (⟨S8192, .i32⟩ : BufTy).Contents (Elt F) → (⟨S8192, .i32⟩ : BufTy).Contents (Elt F) → (⟨S8192, .i32⟩ : BufTy).Contents (Elt F)),
    StableHlo.binary main_v10 main_v6 main_v11 (addi : (⟨S8192, .i32⟩ : BufTy).Contents (Elt F) → (⟨S8192, .i32⟩ : BufTy).Contents (Elt F) → (⟨S8192, .i32⟩ : BufTy).Contents (Elt F)),
    StableHlo.nullary main_c_2 (constantI S_ 32 10240#32),
    StableHlo.TRef.unary (.of main_c_2 : StableHlo.TRef sig ⟨S_, .i32⟩) (.of main_call3_v0 : StableHlo.TRef sig ⟨S_, .i32⟩) id,
    StableHlo.TRef.unary (.of main_call3_v0 : StableHlo.TRef sig ⟨S_, .i32⟩) (.of main_call3_v1 : StableHlo.TRef sig ⟨S8192, .i32⟩) (broadcastInDim S8192 ![] bcast_S_S8192),
    StableHlo.TRef.ternary (.of main_v8 : StableHlo.TRef sig ⟨S8192, .i1⟩) (.of main_v11 : StableHlo.TRef sig ⟨S8192, .i32⟩) (.of main_call3_v1 : StableHlo.TRef sig ⟨S8192, .i32⟩) (.of main_v12 : StableHlo.TRef sig ⟨S8192, .i32⟩) select,
    StableHlo.nullary main_cst (constant S_ .f32 0x00000000#32),
    StableHlo.unary main_cst main_v13 (broadcastInDim S10241x2048 ![] bcast_S_S10241x2048 : (⟨S_, .f32⟩ : BufTy).Contents (Elt F) → (⟨S10241x2048, .f32⟩ : BufTy).Contents (Elt F)),
    StableHlo.unary main_v8 main_v14 (broadcastInDim S8192x1 ![0] bcast_S8192_S8192x1_0 : (⟨S8192, .i1⟩ : BufTy).Contents (Elt F) → (⟨S8192x1, .i1⟩ : BufTy).Contents (Elt F)),
    StableHlo.nullary main_cst_3 (constant S_ .f32 0x00000000#32),
    StableHlo.unary main_cst_3 main_v15 (broadcastInDim S8192x2048 ![] bcast_S_S8192x2048 : (⟨S_, .f32⟩ : BufTy).Contents (Elt F) → (⟨S8192x2048, .f32⟩ : BufTy).Contents (Elt F)),
    StableHlo.TRef.unary (.of main_v14 : StableHlo.TRef sig ⟨S8192x1, .i1⟩) (.of main_call4_v0 : StableHlo.TRef sig ⟨S8192x2048, .i1⟩) (broadcastInDim S8192x2048 ![0, 1] bcast_S8192x1_S8192x2048_0_1),
    StableHlo.TRef.ternary (.of main_call4_v0 : StableHlo.TRef sig ⟨S8192x2048, .i1⟩) (.of main_arg0 : StableHlo.TRef sig ⟨S8192x2048, .f32⟩) (.of main_v15 : StableHlo.TRef sig ⟨S8192x2048, .f32⟩) (.of main_v16 : StableHlo.TRef sig ⟨S8192x2048, .f32⟩) select,
    StableHlo.nullary main_c_4 (constantI S_ 32 0#32),
    StableHlo.unary main_c_4 main_v17 (broadcastInDim S8192 ![] bcast_S_S8192 : (⟨S_, .i32⟩ : BufTy).Contents (Elt F) → (⟨S8192, .i32⟩ : BufTy).Contents (Elt F)),
    StableHlo.binary main_v12 main_v17 main_v18 (cmpi .slt : (⟨S8192, .i32⟩ : BufTy).Contents (Elt F) → (⟨S8192, .i32⟩ : BufTy).Contents (Elt F) → (⟨S8192, .i1⟩ : BufTy).Contents (Elt F)),
    StableHlo.nullary main_c_5 (constantI S_ 32 10241#32),
    StableHlo.unary main_c_5 main_v19 (broadcastInDim S8192 ![] bcast_S_S8192 : (⟨S_, .i32⟩ : BufTy).Contents (Elt F) → (⟨S8192, .i32⟩ : BufTy).Contents (Elt F)),
    StableHlo.binary main_v12 main_v19 main_v20 (addi : (⟨S8192, .i32⟩ : BufTy).Contents (Elt F) → (⟨S8192, .i32⟩ : BufTy).Contents (Elt F) → (⟨S8192, .i32⟩ : BufTy).Contents (Elt F)),
    StableHlo.ternary main_v18 main_v20 main_v12 main_v21 (select : (⟨S8192, .i1⟩ : BufTy).Contents (Elt F) → (⟨S8192, .i32⟩ : BufTy).Contents (Elt F) → (⟨S8192, .i32⟩ : BufTy).Contents (Elt F) → (⟨S8192, .i32⟩ : BufTy).Contents (Elt F)),
    StableHlo.unary main_v21 main_v22 (broadcastInDim S8192x1 ![0] bcast_S8192_S8192x1_0 : (⟨S8192, .i32⟩ : BufTy).Contents (Elt F) → (⟨S8192x1, .i32⟩ : BufTy).Contents (Elt F)),
    StableHlo.ternary main_v13 main_v22 main_v16 main_v23 ((fun x i u => Host.scatter scatter_S10241x2048_S8192x1_S8192x2048_1_0_0_1 (fun _ b => b) x i u) : (⟨S10241x2048, .f32⟩ : BufTy).Contents (Elt F) → (⟨S8192x1, .i32⟩ : BufTy).Contents (Elt F) → (⟨S8192x2048, .f32⟩ : BufTy).Contents (Elt F) → (⟨S10241x2048, .f32⟩ : BufTy).Contents (Elt F)),
    StableHlo.unary main_v23 main_v24 ((extractStridedSlice S10240x2048 ![0, 0] · slices_S10241x2048_S10240x2048_0_0) : (⟨S10241x2048, .f32⟩ : BufTy).Contents (Elt F) → (⟨S10240x2048, .f32⟩ : BufTy).Contents (Elt F)),
    StableHlo.reshape main_v24 main_v25 rfl shapeCasts_S10240x2048_S8x1280x2048 ]

/-- The expert layer: 13 operations, the last writing the experts' results. -/
abbrev mid : List (HloOp τ sig (Elt F)) :=
  [ StableHlo.binary main_v25 main_arg3 main_v26 ((fun l r => Host.dotGeneral dot_S8x1280x2048_S8x2048x1376_S8x1280x1376_2_1_1_2_0_0 none l r) : (⟨S8x1280x2048, .f32⟩ : BufTy).Contents (Elt F) → (⟨S8x2048x1376, .f32⟩ : BufTy).Contents (Elt F) → (⟨S8x1280x1376, .f32⟩ : BufTy).Contents (Elt F)),
    StableHlo.TRef.unary (.of main_v26 : StableHlo.TRef sig ⟨S8x1280x1376, .f32⟩) (.of main_call5_v0 : StableHlo.TRef sig ⟨S8x1280x1376, .f32⟩) Host.negf,
    StableHlo.TRef.unary (.of main_call5_v0 : StableHlo.TRef sig ⟨S8x1280x1376, .f32⟩) (.of main_call5_v1 : StableHlo.TRef sig ⟨S8x1280x1376, .f32⟩) Host.exp,
    StableHlo.TRef.nullary (.of main_call5_cst : StableHlo.TRef sig ⟨S_, .f32⟩) (constant S_ .f32 0x3F800000#32),
    StableHlo.TRef.unary (.of main_call5_cst : StableHlo.TRef sig ⟨S_, .f32⟩) (.of main_call5_v2 : StableHlo.TRef sig ⟨S8x1280x1376, .f32⟩) (broadcastInDim S8x1280x1376 ![] bcast_S_S8x1280x1376),
    StableHlo.TRef.binary (.of main_call5_v2 : StableHlo.TRef sig ⟨S8x1280x1376, .f32⟩) (.of main_call5_v1 : StableHlo.TRef sig ⟨S8x1280x1376, .f32⟩) (.of main_call5_v3 : StableHlo.TRef sig ⟨S8x1280x1376, .f32⟩) addf,
    StableHlo.TRef.nullary (.of main_call5_cst_0 : StableHlo.TRef sig ⟨S_, .f32⟩) (constant S_ .f32 0x3F800000#32),
    StableHlo.TRef.unary (.of main_call5_cst_0 : StableHlo.TRef sig ⟨S_, .f32⟩) (.of main_call5_v4 : StableHlo.TRef sig ⟨S8x1280x1376, .f32⟩) (broadcastInDim S8x1280x1376 ![] bcast_S_S8x1280x1376),
    StableHlo.TRef.binary (.of main_call5_v4 : StableHlo.TRef sig ⟨S8x1280x1376, .f32⟩) (.of main_call5_v3 : StableHlo.TRef sig ⟨S8x1280x1376, .f32⟩) (.of main_call5_v5 : StableHlo.TRef sig ⟨S8x1280x1376, .f32⟩) Host.divf,
    StableHlo.TRef.binary (.of main_v26 : StableHlo.TRef sig ⟨S8x1280x1376, .f32⟩) (.of main_call5_v5 : StableHlo.TRef sig ⟨S8x1280x1376, .f32⟩) (.of main_v27 : StableHlo.TRef sig ⟨S8x1280x1376, .f32⟩) mulf,
    StableHlo.binary main_v25 main_arg4 main_v28 ((fun l r => Host.dotGeneral dot_S8x1280x2048_S8x2048x1376_S8x1280x1376_2_1_1_2_0_0 none l r) : (⟨S8x1280x2048, .f32⟩ : BufTy).Contents (Elt F) → (⟨S8x2048x1376, .f32⟩ : BufTy).Contents (Elt F) → (⟨S8x1280x1376, .f32⟩ : BufTy).Contents (Elt F)),
    StableHlo.binary main_v27 main_v28 main_v29 (mulf : (⟨S8x1280x1376, .f32⟩ : BufTy).Contents (Elt F) → (⟨S8x1280x1376, .f32⟩ : BufTy).Contents (Elt F) → (⟨S8x1280x1376, .f32⟩ : BufTy).Contents (Elt F)),
    StableHlo.binary main_v29 main_arg5 main_v30 ((fun l r => Host.dotGeneral dot_S8x1280x1376_S8x1376x2048_S8x1280x2048_2_1_1_2_0_0 none l r) : (⟨S8x1280x1376, .f32⟩ : BufTy).Contents (Elt F) → (⟨S8x1376x2048, .f32⟩ : BufTy).Contents (Elt F) → (⟨S8x1280x2048, .f32⟩ : BufTy).Contents (Elt F)) ]

/-- The combine: 23 operations, the last writing @main's result. -/
abbrev tail : List (HloOp τ sig (Elt F)) :=
  [ StableHlo.reshape main_v30 main_v31 rfl shapeCasts_S8x1280x2048_S10240x2048,
    StableHlo.nullary main_cst_6 (constant S_ .f32 0x00000000#32),
    StableHlo.unary main_cst_6 main_v32 (broadcastInDim S1x2048 ![] bcast_S_S1x2048 : (⟨S_, .f32⟩ : BufTy).Contents (Elt F) → (⟨S1x2048, .f32⟩ : BufTy).Contents (Elt F)),
    StableHlo.binary main_v31 main_v32 main_v33 ((fun a b => concatenate S10241x2048 0 [⟨S10240x2048, a⟩, ⟨S1x2048, b⟩] concatenates_S10240x2048_S1x2048_S10241x2048_d0) : (⟨S10240x2048, .f32⟩ : BufTy).Contents (Elt F) → (⟨S1x2048, .f32⟩ : BufTy).Contents (Elt F) → (⟨S10241x2048, .f32⟩ : BufTy).Contents (Elt F)),
    StableHlo.nullary main_c_7 (constantI S_ 32 0#32),
    StableHlo.unary main_c_7 main_v34 (broadcastInDim S8192 ![] bcast_S_S8192 : (⟨S_, .i32⟩ : BufTy).Contents (Elt F) → (⟨S8192, .i32⟩ : BufTy).Contents (Elt F)),
    StableHlo.binary main_v12 main_v34 main_v35 (cmpi .slt : (⟨S8192, .i32⟩ : BufTy).Contents (Elt F) → (⟨S8192, .i32⟩ : BufTy).Contents (Elt F) → (⟨S8192, .i1⟩ : BufTy).Contents (Elt F)),
    StableHlo.nullary main_c_8 (constantI S_ 32 10241#32),
    StableHlo.unary main_c_8 main_v36 (broadcastInDim S8192 ![] bcast_S_S8192 : (⟨S_, .i32⟩ : BufTy).Contents (Elt F) → (⟨S8192, .i32⟩ : BufTy).Contents (Elt F)),
    StableHlo.binary main_v12 main_v36 main_v37 (addi : (⟨S8192, .i32⟩ : BufTy).Contents (Elt F) → (⟨S8192, .i32⟩ : BufTy).Contents (Elt F) → (⟨S8192, .i32⟩ : BufTy).Contents (Elt F)),
    StableHlo.ternary main_v35 main_v37 main_v12 main_v38 (select : (⟨S8192, .i1⟩ : BufTy).Contents (Elt F) → (⟨S8192, .i32⟩ : BufTy).Contents (Elt F) → (⟨S8192, .i32⟩ : BufTy).Contents (Elt F) → (⟨S8192, .i32⟩ : BufTy).Contents (Elt F)),
    StableHlo.unary main_v38 main_v39 (broadcastInDim S8192x1 ![0] bcast_S8192_S8192x1_0 : (⟨S8192, .i32⟩ : BufTy).Contents (Elt F) → (⟨S8192x1, .i32⟩ : BufTy).Contents (Elt F)),
    StableHlo.binary main_v33 main_v39 main_v40 ((fun x i => Host.gather gather_S10241x2048_S8192x1_S8192x2048_1_0_n_n_0_1_12048 x i) : (⟨S10241x2048, .f32⟩ : BufTy).Contents (Elt F) → (⟨S8192x1, .i32⟩ : BufTy).Contents (Elt F) → (⟨S8192x2048, .f32⟩ : BufTy).Contents (Elt F)),
    StableHlo.unary main_v8 main_v41 (broadcastInDim S8192x1 ![0] bcast_S8192_S8192x1_0 : (⟨S8192, .i1⟩ : BufTy).Contents (Elt F) → (⟨S8192x1, .i1⟩ : BufTy).Contents (Elt F)),
    StableHlo.unary main_v41 main_v42 (uitofp .f32 : (⟨S8192x1, .i1⟩ : BufTy).Contents (Elt F) → (⟨S8192x1, .f32⟩ : BufTy).Contents (Elt F)),
    StableHlo.unary main_v42 main_v43 (broadcastInDim S8192x2048 ![0, 1] bcast_S8192x1_S8192x2048_0_1 : (⟨S8192x1, .f32⟩ : BufTy).Contents (Elt F) → (⟨S8192x2048, .f32⟩ : BufTy).Contents (Elt F)),
    StableHlo.binary main_v40 main_v43 main_v44 (mulf : (⟨S8192x2048, .f32⟩ : BufTy).Contents (Elt F) → (⟨S8192x2048, .f32⟩ : BufTy).Contents (Elt F) → (⟨S8192x2048, .f32⟩ : BufTy).Contents (Elt F)),
    StableHlo.unary main_arg2 main_v45 (broadcastInDim S8192x1 ![0] bcast_S8192_S8192x1_0 : (⟨S8192, .f32⟩ : BufTy).Contents (Elt F) → (⟨S8192x1, .f32⟩ : BufTy).Contents (Elt F)),
    StableHlo.nullary main_cst_9 (constant S_ .f32 0x3F800000#32),
    StableHlo.unary main_cst_9 main_v46 (broadcastInDim S8192x1 ![] bcast_S_S8192x1 : (⟨S_, .f32⟩ : BufTy).Contents (Elt F) → (⟨S8192x1, .f32⟩ : BufTy).Contents (Elt F)),
    StableHlo.binary main_v45 main_v46 main_v47 (mulf : (⟨S8192x1, .f32⟩ : BufTy).Contents (Elt F) → (⟨S8192x1, .f32⟩ : BufTy).Contents (Elt F) → (⟨S8192x1, .f32⟩ : BufTy).Contents (Elt F)),
    StableHlo.unary main_v47 main_v48 (broadcastInDim S8192x2048 ![0, 1] bcast_S8192x1_S8192x2048_0_1 : (⟨S8192x1, .f32⟩ : BufTy).Contents (Elt F) → (⟨S8192x2048, .f32⟩ : BufTy).Contents (Elt F)),
    StableHlo.binary main_v44 main_v48 main_v49 (mulf : (⟨S8192x2048, .f32⟩ : BufTy).Contents (Elt F) → (⟨S8192x2048, .f32⟩ : BufTy).Contents (Elt F) → (⟨S8192x2048, .f32⟩ : BufTy).Contents (Elt F)) ]

/-- @main's operations, in order. -/
abbrev ops : List (HloOp τ sig (Elt F)) :=
  [ StableHlo.TRef.unary (.of main_arg1 : StableHlo.TRef sig ⟨S8192, .i32⟩) (.of main_call0_v0 : StableHlo.TRef sig ⟨S8192x1, .i32⟩) (broadcastInDim S8192x1 ![0] bcast_S8192_S8192x1_0),
    StableHlo.TRef.nullary (.of main_call0_v1 : StableHlo.TRef sig ⟨S1x8, .i32⟩) (iotaInDim S1x8 32 1),
    StableHlo.TRef.unary (.of main_call0_v0 : StableHlo.TRef sig ⟨S8192x1, .i32⟩) (.of main_call0_v2 : StableHlo.TRef sig ⟨S8192x8, .i32⟩) (broadcastInDim S8192x8 ![0, 1] bcast_S8192x1_S8192x8_0_1),
    StableHlo.TRef.unary (.of main_call0_v1 : StableHlo.TRef sig ⟨S1x8, .i32⟩) (.of main_call0_v3 : StableHlo.TRef sig ⟨S8192x8, .i32⟩) (broadcastInDim S8192x8 ![0, 1] bcast_S1x8_S8192x8_0_1),
    StableHlo.TRef.binary (.of main_call0_v2 : StableHlo.TRef sig ⟨S8192x8, .i32⟩) (.of main_call0_v3 : StableHlo.TRef sig ⟨S8192x8, .i32⟩) (.of main_call0_v4 : StableHlo.TRef sig ⟨S8192x8, .i1⟩) (cmpi .eq),
    StableHlo.TRef.unary (.of main_call0_v4 : StableHlo.TRef sig ⟨S8192x8, .i1⟩) (.of main_v0 : StableHlo.TRef sig ⟨S8192x8, .i32⟩) (extui 32 · natLt_1_32),
    StableHlo.TRef.nullary (.of main_call1_call0_c : StableHlo.TRef sig ⟨S_, .i32⟩) (constantI S_ 32 0#32),
    StableHlo.TRef.unary (.of main_call1_call0_c : StableHlo.TRef sig ⟨S_, .i32⟩) (.of main_call1_call0_v0 : StableHlo.TRef sig ⟨S_, .i32⟩) (broadcastInDim S_ ![] bcast_S_S_),
    StableHlo.TRef.binary (.of main_v0 : StableHlo.TRef sig ⟨S8192x8, .i32⟩) (.of main_call1_call0_v0 : StableHlo.TRef sig ⟨S_, .i32⟩) (.of main_v1 : StableHlo.TRef sig ⟨S8192x8, .i32⟩) (fun x v => Host.reduceWindow IntOp.addi ![8192, 1] ![1, 1] ![8191, 0] ![0, 0] x v reduceWindows_S8192x8_S8192x8_w8192s1p8191_0_w1s1p0_0 h_S_),
    StableHlo.nullary main_c (constantI S_ 32 1#32),
    StableHlo.unary main_c main_v2 (broadcastInDim S8192x8 ![] bcast_S_S8192x8 : (⟨S_, .i32⟩ : BufTy).Contents (Elt F) → (⟨S8192x8, .i32⟩ : BufTy).Contents (Elt F)),
    StableHlo.binary main_v1 main_v2 main_v3 (subi : (⟨S8192x8, .i32⟩ : BufTy).Contents (Elt F) → (⟨S8192x8, .i32⟩ : BufTy).Contents (Elt F) → (⟨S8192x8, .i32⟩ : BufTy).Contents (Elt F)),
    StableHlo.unary main_arg1 main_v4 (broadcastInDim S8192x1 ![0] bcast_S8192_S8192x1_0 : (⟨S8192, .i32⟩ : BufTy).Contents (Elt F) → (⟨S8192x1, .i32⟩ : BufTy).Contents (Elt F)),
    StableHlo.TRef.nullary (.of main_call2_c : StableHlo.TRef sig ⟨S_, .i32⟩) (constantI S_ 32 0#32),
    StableHlo.TRef.unary (.of main_call2_c : StableHlo.TRef sig ⟨S_, .i32⟩) (.of main_call2_v0 : StableHlo.TRef sig ⟨S8192x1, .i32⟩) (broadcastInDim S8192x1 ![] bcast_S_S8192x1),
    StableHlo.TRef.binary (.of main_v4 : StableHlo.TRef sig ⟨S8192x1, .i32⟩) (.of main_call2_v0 : StableHlo.TRef sig ⟨S8192x1, .i32⟩) (.of main_call2_v1 : StableHlo.TRef sig ⟨S8192x1, .i1⟩) (cmpi .slt),
    StableHlo.TRef.nullary (.of main_call2_c_0 : StableHlo.TRef sig ⟨S_, .i32⟩) (constantI S_ 32 8#32),
    StableHlo.TRef.unary (.of main_call2_c_0 : StableHlo.TRef sig ⟨S_, .i32⟩) (.of main_call2_v2 : StableHlo.TRef sig ⟨S8192x1, .i32⟩) (broadcastInDim S8192x1 ![] bcast_S_S8192x1),
    StableHlo.TRef.binary (.of main_v4 : StableHlo.TRef sig ⟨S8192x1, .i32⟩) (.of main_call2_v2 : StableHlo.TRef sig ⟨S8192x1, .i32⟩) (.of main_call2_v3 : StableHlo.TRef sig ⟨S8192x1, .i32⟩) addi,
    StableHlo.TRef.ternary (.of main_call2_v1 : StableHlo.TRef sig ⟨S8192x1, .i1⟩) (.of main_call2_v3 : StableHlo.TRef sig ⟨S8192x1, .i32⟩) (.of main_v4 : StableHlo.TRef sig ⟨S8192x1, .i32⟩) (.of main_call2_v4 : StableHlo.TRef sig ⟨S8192x1, .i32⟩) select,
    StableHlo.TRef.reshape (.of main_call2_v4 : StableHlo.TRef sig ⟨S8192x1, .i32⟩) (.of main_call2_v5 : StableHlo.TRef sig ⟨S8192x1x1, .i32⟩) rfl shapeCasts_S8192x1_S8192x1x1,
    StableHlo.TRef.nullary (.of main_call2_c_1 : StableHlo.TRef sig ⟨S1, .i32⟩) (constantI S1 32 7#32),
    StableHlo.TRef.nullary (.of main_call2_c_2 : StableHlo.TRef sig ⟨S_, .i32⟩) (constantI S_ 32 0#32),
    StableHlo.TRef.unary (.of main_call2_c_2 : StableHlo.TRef sig ⟨S_, .i32⟩) (.of main_call2_v6 : StableHlo.TRef sig ⟨S8192x1x1, .i32⟩) (broadcastInDim S8192x1x1 ![] bcast_S_S8192x1x1),
    StableHlo.TRef.binary (.of main_call2_v5 : StableHlo.TRef sig ⟨S8192x1x1, .i32⟩) (.of main_call2_v6 : StableHlo.TRef sig ⟨S8192x1x1, .i32⟩) (.of main_call2_v7 : StableHlo.TRef sig ⟨S8192x1x1, .i1⟩) (cmpi .sge),
    StableHlo.TRef.unary (.of main_call2_c_1 : StableHlo.TRef sig ⟨S1, .i32⟩) (.of main_call2_v8 : StableHlo.TRef sig ⟨S1x1x1, .i32⟩) (broadcastInDim S1x1x1 ![2] bcast_S1_S1x1x1_2),
    StableHlo.TRef.unary (.of main_call2_v8 : StableHlo.TRef sig ⟨S1x1x1, .i32⟩) (.of main_call2_v9 : StableHlo.TRef sig ⟨S8192x1x1, .i32⟩) (broadcastInDim S8192x1x1 ![0, 1, 2] bcast_S1x1x1_S8192x1x1_0_1_2),
    StableHlo.TRef.binary (.of main_call2_v5 : StableHlo.TRef sig ⟨S8192x1x1, .i32⟩) (.of main_call2_v9 : StableHlo.TRef sig ⟨S8192x1x1, .i32⟩) (.of main_call2_v10 : StableHlo.TRef sig ⟨S8192x1x1, .i1⟩) (cmpi .sle),
    StableHlo.TRef.binary (.of main_call2_v7 : StableHlo.TRef sig ⟨S8192x1x1, .i1⟩) (.of main_call2_v10 : StableHlo.TRef sig ⟨S8192x1x1, .i1⟩) (.of main_call2_v11 : StableHlo.TRef sig ⟨S8192x1x1, .i1⟩) andi,
    StableHlo.TRef.nullary (.of main_call2_c_3 : StableHlo.TRef sig ⟨S_, .i1⟩) (constantI S_ 1 1#1),
    StableHlo.TRef.binary (.of main_call2_v11 : StableHlo.TRef sig ⟨S8192x1x1, .i1⟩) (.of main_call2_c_3 : StableHlo.TRef sig ⟨S_, .i1⟩) (.of main_call2_v12 : StableHlo.TRef sig ⟨S8192x1, .i1⟩) (fun x v => Host.reduce IntOp.andi x v reducesTo_S8192x1x1_S8192x1_d2 h_S_),
    StableHlo.TRef.binary (.of main_v3 : StableHlo.TRef sig ⟨S8192x8, .i32⟩) (.of main_call2_v5 : StableHlo.TRef sig ⟨S8192x1x1, .i32⟩) (.of main_call2_v13 : StableHlo.TRef sig ⟨S8192x1, .i32⟩) (fun x i => Host.gather gather_S8192x8_S8192x1x1_S8192x1_n_1_0_0_1_2_11 x i),
    StableHlo.TRef.nullary (.of main_call2_c_4 : StableHlo.TRef sig ⟨S_, .i32⟩) (constantI S_ 32 2147483648#32),
    StableHlo.TRef.unary (.of main_call2_c_4 : StableHlo.TRef sig ⟨S_, .i32⟩) (.of main_call2_v14 : StableHlo.TRef sig ⟨S8192x1, .i32⟩) (broadcastInDim S8192x1 ![] bcast_S_S8192x1),
    StableHlo.TRef.ternary (.of main_call2_v12 : StableHlo.TRef sig ⟨S8192x1, .i1⟩) (.of main_call2_v13 : StableHlo.TRef sig ⟨S8192x1, .i32⟩) (.of main_call2_v14 : StableHlo.TRef sig ⟨S8192x1, .i32⟩) (.of main_v5 : StableHlo.TRef sig ⟨S8192x1, .i32⟩) select,
    StableHlo.reshape main_v5 main_v6 rfl shapeCasts_S8192x1_S8192,
    StableHlo.nullary main_c_0 (constantI S_ 32 1280#32),
    StableHlo.unary main_c_0 main_v7 (broadcastInDim S8192 ![] bcast_S_S8192 : (⟨S_, .i32⟩ : BufTy).Contents (Elt F) → (⟨S8192, .i32⟩ : BufTy).Contents (Elt F)),
    StableHlo.binary main_v6 main_v7 main_v8 (cmpi .slt : (⟨S8192, .i32⟩ : BufTy).Contents (Elt F) → (⟨S8192, .i32⟩ : BufTy).Contents (Elt F) → (⟨S8192, .i1⟩ : BufTy).Contents (Elt F)),
    StableHlo.nullary main_c_1 (constantI S_ 32 1280#32),
    StableHlo.unary main_c_1 main_v9 (broadcastInDim S8192 ![] bcast_S_S8192 : (⟨S_, .i32⟩ : BufTy).Contents (Elt F) → (⟨S8192, .i32⟩ : BufTy).Contents (Elt F)),
    StableHlo.binary main_arg1 main_v9 main_v10 (muli : (⟨S8192, .i32⟩ : BufTy).Contents (Elt F) → (⟨S8192, .i32⟩ : BufTy).Contents (Elt F) → (⟨S8192, .i32⟩ : BufTy).Contents (Elt F)),
    StableHlo.binary main_v10 main_v6 main_v11 (addi : (⟨S8192, .i32⟩ : BufTy).Contents (Elt F) → (⟨S8192, .i32⟩ : BufTy).Contents (Elt F) → (⟨S8192, .i32⟩ : BufTy).Contents (Elt F)),
    StableHlo.nullary main_c_2 (constantI S_ 32 10240#32),
    StableHlo.TRef.unary (.of main_c_2 : StableHlo.TRef sig ⟨S_, .i32⟩) (.of main_call3_v0 : StableHlo.TRef sig ⟨S_, .i32⟩) id,
    StableHlo.TRef.unary (.of main_call3_v0 : StableHlo.TRef sig ⟨S_, .i32⟩) (.of main_call3_v1 : StableHlo.TRef sig ⟨S8192, .i32⟩) (broadcastInDim S8192 ![] bcast_S_S8192),
    StableHlo.TRef.ternary (.of main_v8 : StableHlo.TRef sig ⟨S8192, .i1⟩) (.of main_v11 : StableHlo.TRef sig ⟨S8192, .i32⟩) (.of main_call3_v1 : StableHlo.TRef sig ⟨S8192, .i32⟩) (.of main_v12 : StableHlo.TRef sig ⟨S8192, .i32⟩) select,
    StableHlo.nullary main_cst (constant S_ .f32 0x00000000#32),
    StableHlo.unary main_cst main_v13 (broadcastInDim S10241x2048 ![] bcast_S_S10241x2048 : (⟨S_, .f32⟩ : BufTy).Contents (Elt F) → (⟨S10241x2048, .f32⟩ : BufTy).Contents (Elt F)),
    StableHlo.unary main_v8 main_v14 (broadcastInDim S8192x1 ![0] bcast_S8192_S8192x1_0 : (⟨S8192, .i1⟩ : BufTy).Contents (Elt F) → (⟨S8192x1, .i1⟩ : BufTy).Contents (Elt F)),
    StableHlo.nullary main_cst_3 (constant S_ .f32 0x00000000#32),
    StableHlo.unary main_cst_3 main_v15 (broadcastInDim S8192x2048 ![] bcast_S_S8192x2048 : (⟨S_, .f32⟩ : BufTy).Contents (Elt F) → (⟨S8192x2048, .f32⟩ : BufTy).Contents (Elt F)),
    StableHlo.TRef.unary (.of main_v14 : StableHlo.TRef sig ⟨S8192x1, .i1⟩) (.of main_call4_v0 : StableHlo.TRef sig ⟨S8192x2048, .i1⟩) (broadcastInDim S8192x2048 ![0, 1] bcast_S8192x1_S8192x2048_0_1),
    StableHlo.TRef.ternary (.of main_call4_v0 : StableHlo.TRef sig ⟨S8192x2048, .i1⟩) (.of main_arg0 : StableHlo.TRef sig ⟨S8192x2048, .f32⟩) (.of main_v15 : StableHlo.TRef sig ⟨S8192x2048, .f32⟩) (.of main_v16 : StableHlo.TRef sig ⟨S8192x2048, .f32⟩) select,
    StableHlo.nullary main_c_4 (constantI S_ 32 0#32),
    StableHlo.unary main_c_4 main_v17 (broadcastInDim S8192 ![] bcast_S_S8192 : (⟨S_, .i32⟩ : BufTy).Contents (Elt F) → (⟨S8192, .i32⟩ : BufTy).Contents (Elt F)),
    StableHlo.binary main_v12 main_v17 main_v18 (cmpi .slt : (⟨S8192, .i32⟩ : BufTy).Contents (Elt F) → (⟨S8192, .i32⟩ : BufTy).Contents (Elt F) → (⟨S8192, .i1⟩ : BufTy).Contents (Elt F)),
    StableHlo.nullary main_c_5 (constantI S_ 32 10241#32),
    StableHlo.unary main_c_5 main_v19 (broadcastInDim S8192 ![] bcast_S_S8192 : (⟨S_, .i32⟩ : BufTy).Contents (Elt F) → (⟨S8192, .i32⟩ : BufTy).Contents (Elt F)),
    StableHlo.binary main_v12 main_v19 main_v20 (addi : (⟨S8192, .i32⟩ : BufTy).Contents (Elt F) → (⟨S8192, .i32⟩ : BufTy).Contents (Elt F) → (⟨S8192, .i32⟩ : BufTy).Contents (Elt F)),
    StableHlo.ternary main_v18 main_v20 main_v12 main_v21 (select : (⟨S8192, .i1⟩ : BufTy).Contents (Elt F) → (⟨S8192, .i32⟩ : BufTy).Contents (Elt F) → (⟨S8192, .i32⟩ : BufTy).Contents (Elt F) → (⟨S8192, .i32⟩ : BufTy).Contents (Elt F)),
    StableHlo.unary main_v21 main_v22 (broadcastInDim S8192x1 ![0] bcast_S8192_S8192x1_0 : (⟨S8192, .i32⟩ : BufTy).Contents (Elt F) → (⟨S8192x1, .i32⟩ : BufTy).Contents (Elt F)),
    StableHlo.ternary main_v13 main_v22 main_v16 main_v23 ((fun x i u => Host.scatter scatter_S10241x2048_S8192x1_S8192x2048_1_0_0_1 (fun _ b => b) x i u) : (⟨S10241x2048, .f32⟩ : BufTy).Contents (Elt F) → (⟨S8192x1, .i32⟩ : BufTy).Contents (Elt F) → (⟨S8192x2048, .f32⟩ : BufTy).Contents (Elt F) → (⟨S10241x2048, .f32⟩ : BufTy).Contents (Elt F)),
    StableHlo.unary main_v23 main_v24 ((extractStridedSlice S10240x2048 ![0, 0] · slices_S10241x2048_S10240x2048_0_0) : (⟨S10241x2048, .f32⟩ : BufTy).Contents (Elt F) → (⟨S10240x2048, .f32⟩ : BufTy).Contents (Elt F)),
    StableHlo.reshape main_v24 main_v25 rfl shapeCasts_S10240x2048_S8x1280x2048,
    StableHlo.binary main_v25 main_arg3 main_v26 ((fun l r => Host.dotGeneral dot_S8x1280x2048_S8x2048x1376_S8x1280x1376_2_1_1_2_0_0 none l r) : (⟨S8x1280x2048, .f32⟩ : BufTy).Contents (Elt F) → (⟨S8x2048x1376, .f32⟩ : BufTy).Contents (Elt F) → (⟨S8x1280x1376, .f32⟩ : BufTy).Contents (Elt F)),
    StableHlo.TRef.unary (.of main_v26 : StableHlo.TRef sig ⟨S8x1280x1376, .f32⟩) (.of main_call5_v0 : StableHlo.TRef sig ⟨S8x1280x1376, .f32⟩) Host.negf,
    StableHlo.TRef.unary (.of main_call5_v0 : StableHlo.TRef sig ⟨S8x1280x1376, .f32⟩) (.of main_call5_v1 : StableHlo.TRef sig ⟨S8x1280x1376, .f32⟩) Host.exp,
    StableHlo.TRef.nullary (.of main_call5_cst : StableHlo.TRef sig ⟨S_, .f32⟩) (constant S_ .f32 0x3F800000#32),
    StableHlo.TRef.unary (.of main_call5_cst : StableHlo.TRef sig ⟨S_, .f32⟩) (.of main_call5_v2 : StableHlo.TRef sig ⟨S8x1280x1376, .f32⟩) (broadcastInDim S8x1280x1376 ![] bcast_S_S8x1280x1376),
    StableHlo.TRef.binary (.of main_call5_v2 : StableHlo.TRef sig ⟨S8x1280x1376, .f32⟩) (.of main_call5_v1 : StableHlo.TRef sig ⟨S8x1280x1376, .f32⟩) (.of main_call5_v3 : StableHlo.TRef sig ⟨S8x1280x1376, .f32⟩) addf,
    StableHlo.TRef.nullary (.of main_call5_cst_0 : StableHlo.TRef sig ⟨S_, .f32⟩) (constant S_ .f32 0x3F800000#32),
    StableHlo.TRef.unary (.of main_call5_cst_0 : StableHlo.TRef sig ⟨S_, .f32⟩) (.of main_call5_v4 : StableHlo.TRef sig ⟨S8x1280x1376, .f32⟩) (broadcastInDim S8x1280x1376 ![] bcast_S_S8x1280x1376),
    StableHlo.TRef.binary (.of main_call5_v4 : StableHlo.TRef sig ⟨S8x1280x1376, .f32⟩) (.of main_call5_v3 : StableHlo.TRef sig ⟨S8x1280x1376, .f32⟩) (.of main_call5_v5 : StableHlo.TRef sig ⟨S8x1280x1376, .f32⟩) Host.divf,
    StableHlo.TRef.binary (.of main_v26 : StableHlo.TRef sig ⟨S8x1280x1376, .f32⟩) (.of main_call5_v5 : StableHlo.TRef sig ⟨S8x1280x1376, .f32⟩) (.of main_v27 : StableHlo.TRef sig ⟨S8x1280x1376, .f32⟩) mulf,
    StableHlo.binary main_v25 main_arg4 main_v28 ((fun l r => Host.dotGeneral dot_S8x1280x2048_S8x2048x1376_S8x1280x1376_2_1_1_2_0_0 none l r) : (⟨S8x1280x2048, .f32⟩ : BufTy).Contents (Elt F) → (⟨S8x2048x1376, .f32⟩ : BufTy).Contents (Elt F) → (⟨S8x1280x1376, .f32⟩ : BufTy).Contents (Elt F)),
    StableHlo.binary main_v27 main_v28 main_v29 (mulf : (⟨S8x1280x1376, .f32⟩ : BufTy).Contents (Elt F) → (⟨S8x1280x1376, .f32⟩ : BufTy).Contents (Elt F) → (⟨S8x1280x1376, .f32⟩ : BufTy).Contents (Elt F)),
    StableHlo.binary main_v29 main_arg5 main_v30 ((fun l r => Host.dotGeneral dot_S8x1280x1376_S8x1376x2048_S8x1280x2048_2_1_1_2_0_0 none l r) : (⟨S8x1280x1376, .f32⟩ : BufTy).Contents (Elt F) → (⟨S8x1376x2048, .f32⟩ : BufTy).Contents (Elt F) → (⟨S8x1280x2048, .f32⟩ : BufTy).Contents (Elt F)),
    StableHlo.reshape main_v30 main_v31 rfl shapeCasts_S8x1280x2048_S10240x2048,
    StableHlo.nullary main_cst_6 (constant S_ .f32 0x00000000#32),
    StableHlo.unary main_cst_6 main_v32 (broadcastInDim S1x2048 ![] bcast_S_S1x2048 : (⟨S_, .f32⟩ : BufTy).Contents (Elt F) → (⟨S1x2048, .f32⟩ : BufTy).Contents (Elt F)),
    StableHlo.binary main_v31 main_v32 main_v33 ((fun a b => concatenate S10241x2048 0 [⟨S10240x2048, a⟩, ⟨S1x2048, b⟩] concatenates_S10240x2048_S1x2048_S10241x2048_d0) : (⟨S10240x2048, .f32⟩ : BufTy).Contents (Elt F) → (⟨S1x2048, .f32⟩ : BufTy).Contents (Elt F) → (⟨S10241x2048, .f32⟩ : BufTy).Contents (Elt F)),
    StableHlo.nullary main_c_7 (constantI S_ 32 0#32),
    StableHlo.unary main_c_7 main_v34 (broadcastInDim S8192 ![] bcast_S_S8192 : (⟨S_, .i32⟩ : BufTy).Contents (Elt F) → (⟨S8192, .i32⟩ : BufTy).Contents (Elt F)),
    StableHlo.binary main_v12 main_v34 main_v35 (cmpi .slt : (⟨S8192, .i32⟩ : BufTy).Contents (Elt F) → (⟨S8192, .i32⟩ : BufTy).Contents (Elt F) → (⟨S8192, .i1⟩ : BufTy).Contents (Elt F)),
    StableHlo.nullary main_c_8 (constantI S_ 32 10241#32),
    StableHlo.unary main_c_8 main_v36 (broadcastInDim S8192 ![] bcast_S_S8192 : (⟨S_, .i32⟩ : BufTy).Contents (Elt F) → (⟨S8192, .i32⟩ : BufTy).Contents (Elt F)),
    StableHlo.binary main_v12 main_v36 main_v37 (addi : (⟨S8192, .i32⟩ : BufTy).Contents (Elt F) → (⟨S8192, .i32⟩ : BufTy).Contents (Elt F) → (⟨S8192, .i32⟩ : BufTy).Contents (Elt F)),
    StableHlo.ternary main_v35 main_v37 main_v12 main_v38 (select : (⟨S8192, .i1⟩ : BufTy).Contents (Elt F) → (⟨S8192, .i32⟩ : BufTy).Contents (Elt F) → (⟨S8192, .i32⟩ : BufTy).Contents (Elt F) → (⟨S8192, .i32⟩ : BufTy).Contents (Elt F)),
    StableHlo.unary main_v38 main_v39 (broadcastInDim S8192x1 ![0] bcast_S8192_S8192x1_0 : (⟨S8192, .i32⟩ : BufTy).Contents (Elt F) → (⟨S8192x1, .i32⟩ : BufTy).Contents (Elt F)),
    StableHlo.binary main_v33 main_v39 main_v40 ((fun x i => Host.gather gather_S10241x2048_S8192x1_S8192x2048_1_0_n_n_0_1_12048 x i) : (⟨S10241x2048, .f32⟩ : BufTy).Contents (Elt F) → (⟨S8192x1, .i32⟩ : BufTy).Contents (Elt F) → (⟨S8192x2048, .f32⟩ : BufTy).Contents (Elt F)),
    StableHlo.unary main_v8 main_v41 (broadcastInDim S8192x1 ![0] bcast_S8192_S8192x1_0 : (⟨S8192, .i1⟩ : BufTy).Contents (Elt F) → (⟨S8192x1, .i1⟩ : BufTy).Contents (Elt F)),
    StableHlo.unary main_v41 main_v42 (uitofp .f32 : (⟨S8192x1, .i1⟩ : BufTy).Contents (Elt F) → (⟨S8192x1, .f32⟩ : BufTy).Contents (Elt F)),
    StableHlo.unary main_v42 main_v43 (broadcastInDim S8192x2048 ![0, 1] bcast_S8192x1_S8192x2048_0_1 : (⟨S8192x1, .f32⟩ : BufTy).Contents (Elt F) → (⟨S8192x2048, .f32⟩ : BufTy).Contents (Elt F)),
    StableHlo.binary main_v40 main_v43 main_v44 (mulf : (⟨S8192x2048, .f32⟩ : BufTy).Contents (Elt F) → (⟨S8192x2048, .f32⟩ : BufTy).Contents (Elt F) → (⟨S8192x2048, .f32⟩ : BufTy).Contents (Elt F)),
    StableHlo.unary main_arg2 main_v45 (broadcastInDim S8192x1 ![0] bcast_S8192_S8192x1_0 : (⟨S8192, .f32⟩ : BufTy).Contents (Elt F) → (⟨S8192x1, .f32⟩ : BufTy).Contents (Elt F)),
    StableHlo.nullary main_cst_9 (constant S_ .f32 0x3F800000#32),
    StableHlo.unary main_cst_9 main_v46 (broadcastInDim S8192x1 ![] bcast_S_S8192x1 : (⟨S_, .f32⟩ : BufTy).Contents (Elt F) → (⟨S8192x1, .f32⟩ : BufTy).Contents (Elt F)),
    StableHlo.binary main_v45 main_v46 main_v47 (mulf : (⟨S8192x1, .f32⟩ : BufTy).Contents (Elt F) → (⟨S8192x1, .f32⟩ : BufTy).Contents (Elt F) → (⟨S8192x1, .f32⟩ : BufTy).Contents (Elt F)),
    StableHlo.unary main_v47 main_v48 (broadcastInDim S8192x2048 ![0, 1] bcast_S8192x1_S8192x2048_0_1 : (⟨S8192x1, .f32⟩ : BufTy).Contents (Elt F) → (⟨S8192x2048, .f32⟩ : BufTy).Contents (Elt F)),
    StableHlo.binary main_v44 main_v48 main_v49 (mulf : (⟨S8192x2048, .f32⟩ : BufTy).Contents (Elt F) → (⟨S8192x2048, .f32⟩ : BufTy).Contents (Elt F) → (⟨S8192x2048, .f32⟩ : BufTy).Contents (Elt F)) ]

/-- The line is its three stretches. -/
theorem ops_split : (ops : List (HloOp τ sig (Elt F))) = pre ++ (mid ++ tail) := rfl

/-- @main is that line: with the functions' definitions unfolded at their calls both sides are one chain of steps,
    by computation. -/
theorem main_eq (c : Dev nD) : main (F := F) c = StableHlo.seq ops := by
  chain_rfl

theorem scopedRefs_eq : (Finset.univ.filter fun b : Ref sig .tc => b.isScoped) = ∅ := by decide
theorem scopedSems_eq : (Finset.univ.filter fun sm : SemLoc sig => sm.isScoped .tc) = ∅ := by decide

/-- Each operation touches TensorCore references only. -/
theorem ops_sub : (ops : List (HloOp τ sig (Elt F))).Forall fun op => op.bufs ⊆ StableHlo.tcRefs τ sig :=
  ⟨StableHlo.unary_bufs_sub .., StableHlo.nullary_bufs_sub .., StableHlo.unary_bufs_sub .., StableHlo.unary_bufs_sub .., StableHlo.binary_bufs_sub .., StableHlo.unary_bufs_sub ..,
    StableHlo.nullary_bufs_sub .., StableHlo.unary_bufs_sub .., StableHlo.binary_bufs_sub .., StableHlo.nullary_bufs_sub .., StableHlo.unary_bufs_sub .., StableHlo.binary_bufs_sub ..,
    StableHlo.unary_bufs_sub .., StableHlo.nullary_bufs_sub .., StableHlo.unary_bufs_sub .., StableHlo.binary_bufs_sub .., StableHlo.nullary_bufs_sub .., StableHlo.unary_bufs_sub ..,
    StableHlo.binary_bufs_sub .., StableHlo.ternary_bufs_sub .., StableHlo.reshape_bufs_sub .., StableHlo.nullary_bufs_sub .., StableHlo.nullary_bufs_sub .., StableHlo.unary_bufs_sub ..,
    StableHlo.binary_bufs_sub .., StableHlo.unary_bufs_sub .., StableHlo.unary_bufs_sub .., StableHlo.binary_bufs_sub .., StableHlo.binary_bufs_sub .., StableHlo.nullary_bufs_sub ..,
    StableHlo.binary_bufs_sub .., StableHlo.binary_bufs_sub .., StableHlo.nullary_bufs_sub .., StableHlo.unary_bufs_sub .., StableHlo.ternary_bufs_sub .., StableHlo.reshape_bufs_sub ..,
    StableHlo.nullary_bufs_sub .., StableHlo.unary_bufs_sub .., StableHlo.binary_bufs_sub .., StableHlo.nullary_bufs_sub .., StableHlo.unary_bufs_sub .., StableHlo.binary_bufs_sub ..,
    StableHlo.binary_bufs_sub .., StableHlo.nullary_bufs_sub .., StableHlo.unary_bufs_sub .., StableHlo.unary_bufs_sub .., StableHlo.ternary_bufs_sub .., StableHlo.nullary_bufs_sub ..,
    StableHlo.unary_bufs_sub .., StableHlo.unary_bufs_sub .., StableHlo.nullary_bufs_sub .., StableHlo.unary_bufs_sub .., StableHlo.unary_bufs_sub .., StableHlo.ternary_bufs_sub ..,
    StableHlo.nullary_bufs_sub .., StableHlo.unary_bufs_sub .., StableHlo.binary_bufs_sub .., StableHlo.nullary_bufs_sub .., StableHlo.unary_bufs_sub .., StableHlo.binary_bufs_sub ..,
    StableHlo.ternary_bufs_sub .., StableHlo.unary_bufs_sub .., StableHlo.ternary_bufs_sub .., StableHlo.unary_bufs_sub .., StableHlo.reshape_bufs_sub .., StableHlo.binary_bufs_sub ..,
    StableHlo.unary_bufs_sub .., StableHlo.unary_bufs_sub .., StableHlo.nullary_bufs_sub .., StableHlo.unary_bufs_sub .., StableHlo.binary_bufs_sub .., StableHlo.nullary_bufs_sub ..,
    StableHlo.unary_bufs_sub .., StableHlo.binary_bufs_sub .., StableHlo.binary_bufs_sub .., StableHlo.binary_bufs_sub .., StableHlo.binary_bufs_sub .., StableHlo.binary_bufs_sub ..,
    StableHlo.reshape_bufs_sub .., StableHlo.nullary_bufs_sub .., StableHlo.unary_bufs_sub .., StableHlo.binary_bufs_sub .., StableHlo.nullary_bufs_sub .., StableHlo.unary_bufs_sub ..,
    StableHlo.binary_bufs_sub .., StableHlo.nullary_bufs_sub .., StableHlo.unary_bufs_sub .., StableHlo.binary_bufs_sub .., StableHlo.ternary_bufs_sub .., StableHlo.unary_bufs_sub ..,
    StableHlo.binary_bufs_sub .., StableHlo.unary_bufs_sub .., StableHlo.unary_bufs_sub .., StableHlo.unary_bufs_sub .., StableHlo.binary_bufs_sub .., StableHlo.unary_bufs_sub ..,
    StableHlo.nullary_bufs_sub .., StableHlo.unary_bufs_sub .., StableHlo.binary_bufs_sub .., StableHlo.unary_bufs_sub .., StableHlo.binary_bufs_sub ..⟩

/-- On every device, from any memory with zero counters: every weakly fair execution of @main terminates with each
    buffer at the fold of the operations over the launch contents. -/
theorem run_all (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b)
        = StableHlo.after ops (StableHlo.launchContents m c) (Proc.devRef .tc b) :=
  StableHlo.run_seq scopedRefs_eq scopedSems_eq defs main (fun _ => ops) main_eq (fun _ => ops_sub) m ρ

end Cert.ReferenceIdeal.RefRun

end
-- ==== Proof.RefArgs.lean ====
/-
  The reference's operations write none of @main's arguments: after the whole line each argument buffer holds what it
  held at the start.
-/
import proofs.«169530_j74380243632186_1_alg».proof.Proof.RefRun

set_option maxRecDepth 16384

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F] (W : Valuation τ sig (Elt F))

set_option maxHeartbeats 4000000 in
theorem kept_arg0 : after (ops (F := F)) W (Proc.devRef .tc main_arg0) = W (Proc.devRef .tc main_arg0) := by
  simp only [ops]
  after_results_simp

set_option maxHeartbeats 4000000 in
theorem kept_arg1 : after (ops (F := F)) W (Proc.devRef .tc main_arg1) = W (Proc.devRef .tc main_arg1) := by
  simp only [ops]
  after_results_simp

set_option maxHeartbeats 4000000 in
theorem kept_arg2 : after (ops (F := F)) W (Proc.devRef .tc main_arg2) = W (Proc.devRef .tc main_arg2) := by
  simp only [ops]
  after_results_simp

set_option maxHeartbeats 4000000 in
theorem kept_arg3 : after (ops (F := F)) W (Proc.devRef .tc main_arg3) = W (Proc.devRef .tc main_arg3) := by
  simp only [ops]
  after_results_simp

set_option maxHeartbeats 4000000 in
theorem kept_arg4 : after (ops (F := F)) W (Proc.devRef .tc main_arg4) = W (Proc.devRef .tc main_arg4) := by
  simp only [ops]
  after_results_simp

set_option maxHeartbeats 4000000 in
theorem kept_arg5 : after (ops (F := F)) W (Proc.devRef .tc main_arg5) = W (Proc.devRef .tc main_arg5) := by
  simp only [ops]
  after_results_simp

end Cert.ReferenceIdeal.RefRun

end
-- ==== Proof.Spec.lean ====
/-
  The expert layer both programs compute, stated once over the extended reals and over literal shapes.

  There are 8 experts; each owns a buffer of 1280 token rows of width 2048 (the dispatched tokens), two
  projection matrices [2048, 1376] (gate and up) and a matrix [1376, 2048] (down). For expert e and row c:

    proj W (e, c, f)   = sum over k of X (e, c, k) * W (e, k, f)                          (k below 2048)
    hidden (e, c, f)   = (g * logistic g) * u,  g = proj Wg (e, c, f),  u = proj Wu (e, c, f)
    out (e, c, d)      = sum over f of hidden (e, c, f) * Wd (e, f, d)                    (f below 1376)

  with logistic g = 1 / (1 + exp (-g)) read on the extended reals. The order of the two products in `hidden`
  is the one both programs use, so that no law of the extended reals beyond reading the sums is needed.
-/
import Idealize.ShloMosaic.PureOps.Ideal
import Idealize.ShloMosaic.Lib.ValueIdx

noncomputable section

namespace Cert.MoE

open Idealize.ShloMosaic Idealize.ShloMosaic.ValueIdx
open scoped BigOperators

/-- The dispatched tokens, and the layer's result: expert, row, model width. -/
abbrev SX : Shape := ⟨3, ![8, 1280, 2048]⟩
/-- A gate or up projection: expert, model width, hidden width. -/
abbrev SW : Shape := ⟨3, ![8, 2048, 1376]⟩
/-- The down projection: expert, hidden width, model width. -/
abbrev SD : Shape := ⟨3, ![8, 1376, 2048]⟩
/-- The hidden activations: expert, row, hidden width. -/
abbrev SH : Shape := ⟨3, ![8, 1280, 1376]⟩

/-- Row c of expert e's tokens against column f of expert e's projection. -/
def proj (X : SX.Idx → EReal) (W : SW.Idx → EReal) (e : Fin 8) (c : Fin 1280) (f : Fin 1376) : EReal :=
  ∑ k : Fin 2048, X (ix3 e c k) * W (ix3 e k f)

/-- The gated hidden activation: the gate projection times its logistic, times the up projection. -/
def hidden (X : SX.Idx → EReal) (Wg Wu : SW.Idx → EReal) (e : Fin 8) (c : Fin 1280) (f : Fin 1376) : EReal :=
  (proj X Wg e c f * Ideal.logistic (proj X Wg e c f)) * proj X Wu e c f

/-- The layer's result at expert e, row c, column d. -/
def outAt (X : SX.Idx → EReal) (Wg Wu : SW.Idx → EReal) (Wd : SD.Idx → EReal) (e : Fin 8) (c : Fin 1280) (d : Fin 2048) : EReal :=
  ∑ f : Fin 1376, hidden X Wg Wu e c f * Wd (ix3 e f d)

/-- The layer's result as an array. -/
def expertOut (X : SX.Idx → EReal) (Wg Wu : SW.Idx → EReal) (Wd : SD.Idx → EReal) : SX.Idx → EReal :=
  fun j => outAt X Wg Wu Wd (j 0) (j 1) (j 2)

theorem expertOut_ix3 (X : SX.Idx → EReal) (Wg Wu : SW.Idx → EReal) (Wd : SD.Idx → EReal) (e : Fin 8) (c : Fin 1280) (d : Fin 2048) :
    expertOut X Wg Wu Wd (ix3 e c d) = outAt X Wg Wu Wd e c d := rfl

end Cert.MoE

end
-- ==== Proof.BridgePre.lean ====
/-
  The two programs' host operations around the expert layer, compared.

  Both programs begin with the same routing and dispatch and end with the same combine; between them the kernel's
  program runs the expert layer as a pipelined kernel on narrowed copies of its operands and the reference runs it as
  three batched products. Read at the extended reals a narrowing is the identity, so what has to be compared is:
  the buffers the routing leaves (the dispatched tokens, each token's slot, which tokens are kept) are the same
  functions of the arguments in both programs, operation by operation; and the combine is the same function of the
  expert layer's result, the slots, the kept flags and the scores.
-/
import proofs.«169530_j74380243632186_1_alg».proof.Proof.RefRun
import Idealize.ShloMosaic.Lib.Pipeline.FrameSuffix
import proofs.«169530_j74380243632186_1_alg».proof.Proof.Gen.KernelIdeal.Frame
import proofs.«169530_j74380243632186_1_alg».proof.Proof.Spec

set_option maxRecDepth 16384

noncomputable section

namespace Cert.Bridge

open Idealize.ShloMosaic Idealize.ShloMosaic.TcCoe Idealize.SL.Sem Idealize.ShloMosaic.StableHlo

variable (WR : Valuation Cert.ReferenceIdeal.τ Cert.ReferenceIdeal.sig (Elt Ideal)) (WK : Valuation Cert.KernelIdeal.τ Cert.KernelIdeal.sig (Elt Ideal))

set_option maxHeartbeats 4000000 in
/-- Each token's slot is the same function of the expert indices in both programs. -/
theorem pre_slot (h1 : WR (Proc.devRef .tc Cert.ReferenceIdeal.main_arg1 : DevRef Cert.ReferenceIdeal.τ Cert.ReferenceIdeal.sig) = WK (Proc.devRef .tc Cert.KernelIdeal.main_arg1 : DevRef Cert.KernelIdeal.τ Cert.KernelIdeal.sig)) :
    after (Cert.ReferenceIdeal.RefRun.pre (F := Ideal)) WR (Proc.devRef .tc Cert.ReferenceIdeal.main_v12 : DevRef Cert.ReferenceIdeal.τ Cert.ReferenceIdeal.sig)
      = after (List.flatten [Cert.KernelIdeal.Gen.hostOps0, Cert.KernelIdeal.Gen.hostOps0_1, Cert.KernelIdeal.Gen.hostOps0_2, Cert.KernelIdeal.Gen.hostOps0_3, Cert.KernelIdeal.Gen.hostOps0_4, Cert.KernelIdeal.Gen.hostOps0_5, Cert.KernelIdeal.Gen.hostOps0_6, Cert.KernelIdeal.Gen.hostOps0_7, Cert.KernelIdeal.Gen.hostOps0_8] : List (HloOp Cert.KernelIdeal.τ Cert.KernelIdeal.sig (Elt Ideal))) WK (Proc.devRef .tc Cert.KernelIdeal.main_v12 : DevRef Cert.KernelIdeal.τ Cert.KernelIdeal.sig) := by
  simp only [Cert.ReferenceIdeal.RefRun.pre, Cert.KernelIdeal.Gen.hostOps0, Cert.KernelIdeal.Gen.hostOps0_1, Cert.KernelIdeal.Gen.hostOps0_2, Cert.KernelIdeal.Gen.hostOps0_3, Cert.KernelIdeal.Gen.hostOps0_4, Cert.KernelIdeal.Gen.hostOps0_5, Cert.KernelIdeal.Gen.hostOps0_6, Cert.KernelIdeal.Gen.hostOps0_7, Cert.KernelIdeal.Gen.hostOps0_8, List.flatten_cons, List.flatten_nil, List.append_nil, List.cons_append, List.nil_append]
  after_results_simp
  rw [h1]
  rfl

set_option maxHeartbeats 4000000 in
/-- Which tokens are kept is the same function of the expert indices in both programs. -/
theorem pre_keep (h1 : WR (Proc.devRef .tc Cert.ReferenceIdeal.main_arg1 : DevRef Cert.ReferenceIdeal.τ Cert.ReferenceIdeal.sig) = WK (Proc.devRef .tc Cert.KernelIdeal.main_arg1 : DevRef Cert.KernelIdeal.τ Cert.KernelIdeal.sig)) :
    after (Cert.ReferenceIdeal.RefRun.pre (F := Ideal)) WR (Proc.devRef .tc Cert.ReferenceIdeal.main_v8 : DevRef Cert.ReferenceIdeal.τ Cert.ReferenceIdeal.sig)
      = after (List.flatten [Cert.KernelIdeal.Gen.hostOps0, Cert.KernelIdeal.Gen.hostOps0_1, Cert.KernelIdeal.Gen.hostOps0_2, Cert.KernelIdeal.Gen.hostOps0_3, Cert.KernelIdeal.Gen.hostOps0_4, Cert.KernelIdeal.Gen.hostOps0_5, Cert.KernelIdeal.Gen.hostOps0_6, Cert.KernelIdeal.Gen.hostOps0_7, Cert.KernelIdeal.Gen.hostOps0_8] : List (HloOp Cert.KernelIdeal.τ Cert.KernelIdeal.sig (Elt Ideal))) WK (Proc.devRef .tc Cert.KernelIdeal.main_v8 : DevRef Cert.KernelIdeal.τ Cert.KernelIdeal.sig) := by
  simp only [Cert.ReferenceIdeal.RefRun.pre, Cert.KernelIdeal.Gen.hostOps0, Cert.KernelIdeal.Gen.hostOps0_1, Cert.KernelIdeal.Gen.hostOps0_2, Cert.KernelIdeal.Gen.hostOps0_3, Cert.KernelIdeal.Gen.hostOps0_4, Cert.KernelIdeal.Gen.hostOps0_5, Cert.KernelIdeal.Gen.hostOps0_6, Cert.KernelIdeal.Gen.hostOps0_7, Cert.KernelIdeal.Gen.hostOps0_8, List.flatten_cons, List.flatten_nil, List.append_nil, List.cons_append, List.nil_append]
  after_results_simp
  rw [h1]
  rfl

set_option maxHeartbeats 4000000 in
/-- The dispatched tokens are the same function of the tokens and the expert indices in both programs. -/
theorem pre_tokens (h0 : WR (Proc.devRef .tc Cert.ReferenceIdeal.main_arg0 : DevRef Cert.ReferenceIdeal.τ Cert.ReferenceIdeal.sig) = WK (Proc.devRef .tc Cert.KernelIdeal.main_arg0 : DevRef Cert.KernelIdeal.τ Cert.KernelIdeal.sig)) (h1 : WR (Proc.devRef .tc Cert.ReferenceIdeal.main_arg1 : DevRef Cert.ReferenceIdeal.τ Cert.ReferenceIdeal.sig) = WK (Proc.devRef .tc Cert.KernelIdeal.main_arg1 : DevRef Cert.KernelIdeal.τ Cert.KernelIdeal.sig)) :
    after (Cert.ReferenceIdeal.RefRun.pre (F := Ideal)) WR (Proc.devRef .tc Cert.ReferenceIdeal.main_v25 : DevRef Cert.ReferenceIdeal.τ Cert.ReferenceIdeal.sig)
      = after (List.flatten [Cert.KernelIdeal.Gen.hostOps0, Cert.KernelIdeal.Gen.hostOps0_1, Cert.KernelIdeal.Gen.hostOps0_2, Cert.KernelIdeal.Gen.hostOps0_3, Cert.KernelIdeal.Gen.hostOps0_4, Cert.KernelIdeal.Gen.hostOps0_5, Cert.KernelIdeal.Gen.hostOps0_6, Cert.KernelIdeal.Gen.hostOps0_7, Cert.KernelIdeal.Gen.hostOps0_8] : List (HloOp Cert.KernelIdeal.τ Cert.KernelIdeal.sig (Elt Ideal))) WK (Proc.devRef .tc Cert.KernelIdeal.main_v25 : DevRef Cert.KernelIdeal.τ Cert.KernelIdeal.sig) := by
  simp only [Cert.ReferenceIdeal.RefRun.pre, Cert.KernelIdeal.Gen.hostOps0, Cert.KernelIdeal.Gen.hostOps0_1, Cert.KernelIdeal.Gen.hostOps0_2, Cert.KernelIdeal.Gen.hostOps0_3, Cert.KernelIdeal.Gen.hostOps0_4, Cert.KernelIdeal.Gen.hostOps0_5, Cert.KernelIdeal.Gen.hostOps0_6, Cert.KernelIdeal.Gen.hostOps0_7, Cert.KernelIdeal.Gen.hostOps0_8, List.flatten_cons, List.flatten_nil, List.append_nil, List.cons_append, List.nil_append]
  after_results_simp
  rw [h0, h1]
  rfl

set_option maxHeartbeats 4000000 in
/-- The narrowed gate matrices are the gate matrices. -/
theorem narrowed_gate :
    (after (List.flatten [Cert.KernelIdeal.Gen.hostOps0, Cert.KernelIdeal.Gen.hostOps0_1, Cert.KernelIdeal.Gen.hostOps0_2, Cert.KernelIdeal.Gen.hostOps0_3, Cert.KernelIdeal.Gen.hostOps0_4, Cert.KernelIdeal.Gen.hostOps0_5, Cert.KernelIdeal.Gen.hostOps0_6, Cert.KernelIdeal.Gen.hostOps0_7, Cert.KernelIdeal.Gen.hostOps0_8] : List (HloOp Cert.KernelIdeal.τ Cert.KernelIdeal.sig (Elt Ideal))) WK (Proc.devRef .tc Cert.KernelIdeal.main_v27 : DevRef Cert.KernelIdeal.τ Cert.KernelIdeal.sig) : Cert.MoE.SW.Idx → EReal)
      = (WK (Proc.devRef .tc Cert.KernelIdeal.main_arg3 : DevRef Cert.KernelIdeal.τ Cert.KernelIdeal.sig) : Cert.MoE.SW.Idx → EReal) := by
  simp only [Cert.KernelIdeal.Gen.hostOps0, Cert.KernelIdeal.Gen.hostOps0_1, Cert.KernelIdeal.Gen.hostOps0_2, Cert.KernelIdeal.Gen.hostOps0_3, Cert.KernelIdeal.Gen.hostOps0_4, Cert.KernelIdeal.Gen.hostOps0_5, Cert.KernelIdeal.Gen.hostOps0_6, Cert.KernelIdeal.Gen.hostOps0_7, Cert.KernelIdeal.Gen.hostOps0_8, List.flatten_cons, List.flatten_nil, List.append_nil, List.cons_append, List.nil_append]
  after_results_simp
  rfl

set_option maxHeartbeats 4000000 in
/-- The narrowed up matrices are the up matrices. -/
theorem narrowed_up :
    (after (List.flatten [Cert.KernelIdeal.Gen.hostOps0, Cert.KernelIdeal.Gen.hostOps0_1, Cert.KernelIdeal.Gen.hostOps0_2, Cert.KernelIdeal.Gen.hostOps0_3, Cert.KernelIdeal.Gen.hostOps0_4, Cert.KernelIdeal.Gen.hostOps0_5, Cert.KernelIdeal.Gen.hostOps0_6, Cert.KernelIdeal.Gen.hostOps0_7, Cert.KernelIdeal.Gen.hostOps0_8] : List (HloOp Cert.KernelIdeal.τ Cert.KernelIdeal.sig (Elt Ideal))) WK (Proc.devRef .tc Cert.KernelIdeal.main_v28 : DevRef Cert.KernelIdeal.τ Cert.KernelIdeal.sig) : Cert.MoE.SW.Idx → EReal)
      = (WK (Proc.devRef .tc Cert.KernelIdeal.main_arg4 : DevRef Cert.KernelIdeal.τ Cert.KernelIdeal.sig) : Cert.MoE.SW.Idx → EReal) := by
  simp only [Cert.KernelIdeal.Gen.hostOps0, Cert.KernelIdeal.Gen.hostOps0_1, Cert.KernelIdeal.Gen.hostOps0_2, Cert.KernelIdeal.Gen.hostOps0_3, Cert.KernelIdeal.Gen.hostOps0_4, Cert.KernelIdeal.Gen.hostOps0_5, Cert.KernelIdeal.Gen.hostOps0_6, Cert.KernelIdeal.Gen.hostOps0_7, Cert.KernelIdeal.Gen.hostOps0_8, List.flatten_cons, List.flatten_nil, List.append_nil, List.cons_append, List.nil_append]
  after_results_simp
  rfl

set_option maxHeartbeats 4000000 in
/-- The narrowed down matrices are the down matrices. -/
theorem narrowed_down :
    (after (List.flatten [Cert.KernelIdeal.Gen.hostOps0, Cert.KernelIdeal.Gen.hostOps0_1, Cert.KernelIdeal.Gen.hostOps0_2, Cert.KernelIdeal.Gen.hostOps0_3, Cert.KernelIdeal.Gen.hostOps0_4, Cert.KernelIdeal.Gen.hostOps0_5, Cert.KernelIdeal.Gen.hostOps0_6, Cert.KernelIdeal.Gen.hostOps0_7, Cert.KernelIdeal.Gen.hostOps0_8] : List (HloOp Cert.KernelIdeal.τ Cert.KernelIdeal.sig (Elt Ideal))) WK (Proc.devRef .tc Cert.KernelIdeal.main_v29 : DevRef Cert.KernelIdeal.τ Cert.KernelIdeal.sig) : Cert.MoE.SD.Idx → EReal)
      = (WK (Proc.devRef .tc Cert.KernelIdeal.main_arg5 : DevRef Cert.KernelIdeal.τ Cert.KernelIdeal.sig) : Cert.MoE.SD.Idx → EReal) := by
  simp only [Cert.KernelIdeal.Gen.hostOps0, Cert.KernelIdeal.Gen.hostOps0_1, Cert.KernelIdeal.Gen.hostOps0_2, Cert.KernelIdeal.Gen.hostOps0_3, Cert.KernelIdeal.Gen.hostOps0_4, Cert.KernelIdeal.Gen.hostOps0_5, Cert.KernelIdeal.Gen.hostOps0_6, Cert.KernelIdeal.Gen.hostOps0_7, Cert.KernelIdeal.Gen.hostOps0_8, List.flatten_cons, List.flatten_nil, List.append_nil, List.cons_append, List.nil_append]
  after_results_simp
  rfl

set_option maxHeartbeats 4000000 in
/-- The routing and the dispatch write no argument: the scores are as launched. -/
theorem kern_scores : after (List.flatten [Cert.KernelIdeal.Gen.hostOps0, Cert.KernelIdeal.Gen.hostOps0_1, Cert.KernelIdeal.Gen.hostOps0_2, Cert.KernelIdeal.Gen.hostOps0_3, Cert.KernelIdeal.Gen.hostOps0_4, Cert.KernelIdeal.Gen.hostOps0_5, Cert.KernelIdeal.Gen.hostOps0_6, Cert.KernelIdeal.Gen.hostOps0_7, Cert.KernelIdeal.Gen.hostOps0_8] : List (HloOp Cert.KernelIdeal.τ Cert.KernelIdeal.sig (Elt Ideal))) WK (Proc.devRef .tc Cert.KernelIdeal.main_arg2 : DevRef Cert.KernelIdeal.τ Cert.KernelIdeal.sig) = WK (Proc.devRef .tc Cert.KernelIdeal.main_arg2 : DevRef Cert.KernelIdeal.τ Cert.KernelIdeal.sig) := by
  simp only [Cert.KernelIdeal.Gen.hostOps0, Cert.KernelIdeal.Gen.hostOps0_1, Cert.KernelIdeal.Gen.hostOps0_2, Cert.KernelIdeal.Gen.hostOps0_3, Cert.KernelIdeal.Gen.hostOps0_4, Cert.KernelIdeal.Gen.hostOps0_5, Cert.KernelIdeal.Gen.hostOps0_6, Cert.KernelIdeal.Gen.hostOps0_7, Cert.KernelIdeal.Gen.hostOps0_8, List.flatten_cons, List.flatten_nil, List.append_nil, List.cons_append, List.nil_append]
  after_results_simp

set_option maxHeartbeats 4000000 in
/-- The reference's routing and dispatch write no argument. -/
theorem pre_args :
    after (Cert.ReferenceIdeal.RefRun.pre (F := Ideal)) WR (Proc.devRef .tc Cert.ReferenceIdeal.main_arg2 : DevRef Cert.ReferenceIdeal.τ Cert.ReferenceIdeal.sig) = WR (Proc.devRef .tc Cert.ReferenceIdeal.main_arg2 : DevRef Cert.ReferenceIdeal.τ Cert.ReferenceIdeal.sig)
    ∧ after (Cert.ReferenceIdeal.RefRun.pre (F := Ideal)) WR (Proc.devRef .tc Cert.ReferenceIdeal.main_arg3 : DevRef Cert.ReferenceIdeal.τ Cert.ReferenceIdeal.sig) = WR (Proc.devRef .tc Cert.ReferenceIdeal.main_arg3 : DevRef Cert.ReferenceIdeal.τ Cert.ReferenceIdeal.sig)
    ∧ after (Cert.ReferenceIdeal.RefRun.pre (F := Ideal)) WR (Proc.devRef .tc Cert.ReferenceIdeal.main_arg4 : DevRef Cert.ReferenceIdeal.τ Cert.ReferenceIdeal.sig) = WR (Proc.devRef .tc Cert.ReferenceIdeal.main_arg4 : DevRef Cert.ReferenceIdeal.τ Cert.ReferenceIdeal.sig)
    ∧ after (Cert.ReferenceIdeal.RefRun.pre (F := Ideal)) WR (Proc.devRef .tc Cert.ReferenceIdeal.main_arg5 : DevRef Cert.ReferenceIdeal.τ Cert.ReferenceIdeal.sig) = WR (Proc.devRef .tc Cert.ReferenceIdeal.main_arg5 : DevRef Cert.ReferenceIdeal.τ Cert.ReferenceIdeal.sig) := by
  simp only [Cert.ReferenceIdeal.RefRun.pre]
  refine ⟨?_, ?_, ?_, ?_⟩ <;> after_results_simp

end Cert.Bridge

end
-- ==== Proof.KernelRouting.lean ====
/-
  The last operations before the kernel: the narrowings.

  The host operations before the kernel end with four narrowings to bf16: of the dispatched tokens and of the three
  weight arrays. Read at the extended reals a narrowing is the identity, and none of the four writes the buffer it
  reads, so the narrowed copy of the dispatched tokens the kernel stages holds the dispatched tokens.
-/
import proofs.«169530_j74380243632186_1_alg».proof.Proof.Gen.KernelIdeal.Frame
import proofs.«169530_j74380243632186_1_alg».proof.Proof.Spec
import Idealize.ShloMosaic.Lib.Pipeline.Frame
import Idealize.ShloMosaic.Lib.StableHlo.Run

set_option maxRecDepth 16384

noncomputable section

namespace Cert.KernelIdeal.Gen

open Idealize.ShloMosaic Idealize.ShloMosaic.TcCoe Idealize.SL.Sem

variable {F : FTy → Type} [FloatOps F]

/-- The last stretch before the kernel, up to the dispatched tokens: 11 operations. -/
abbrev dispatchOps : List (HloOp τ sig (Elt F)) :=
  [ StableHlo.nullary main_c_4 (constantI S_ 32 0#32),
    StableHlo.unary main_c_4 main_v17 (broadcastInDim S8192 ![] bcast_S_S8192 : (⟨S_, .i32⟩ : BufTy).Contents (Elt F) → (⟨S8192, .i32⟩ : BufTy).Contents (Elt F)),
    StableHlo.binary main_v12 main_v17 main_v18 (cmpi .slt : (⟨S8192, .i32⟩ : BufTy).Contents (Elt F) → (⟨S8192, .i32⟩ : BufTy).Contents (Elt F) → (⟨S8192, .i1⟩ : BufTy).Contents (Elt F)),
    StableHlo.nullary main_c_5 (constantI S_ 32 10241#32),
    StableHlo.unary main_c_5 main_v19 (broadcastInDim S8192 ![] bcast_S_S8192 : (⟨S_, .i32⟩ : BufTy).Contents (Elt F) → (⟨S8192, .i32⟩ : BufTy).Contents (Elt F)),
    StableHlo.binary main_v12 main_v19 main_v20 (addi : (⟨S8192, .i32⟩ : BufTy).Contents (Elt F) → (⟨S8192, .i32⟩ : BufTy).Contents (Elt F) → (⟨S8192, .i32⟩ : BufTy).Contents (Elt F)),
    StableHlo.ternary main_v18 main_v20 main_v12 main_v21 (select : (⟨S8192, .i1⟩ : BufTy).Contents (Elt F) → (⟨S8192, .i32⟩ : BufTy).Contents (Elt F) → (⟨S8192, .i32⟩ : BufTy).Contents (Elt F) → (⟨S8192, .i32⟩ : BufTy).Contents (Elt F)),
    StableHlo.unary main_v21 main_v22 (broadcastInDim S8192x1 ![0] bcast_S8192_S8192x1_0 : (⟨S8192, .i32⟩ : BufTy).Contents (Elt F) → (⟨S8192x1, .i32⟩ : BufTy).Contents (Elt F)),
    StableHlo.ternary main_v13 main_v22 main_v16 main_v23 ((fun x i u => Host.scatter scatter_S10241x2048_S8192x1_S8192x2048_1_0_0_1 (fun _ b => b) x i u) : (⟨S10241x2048, .f32⟩ : BufTy).Contents (Elt F) → (⟨S8192x1, .i32⟩ : BufTy).Contents (Elt F) → (⟨S8192x2048, .f32⟩ : BufTy).Contents (Elt F) → (⟨S10241x2048, .f32⟩ : BufTy).Contents (Elt F)),
    StableHlo.unary main_v23 main_v24 ((extractStridedSlice S10240x2048 ![0, 0] · slices_S10241x2048_S10240x2048_0_0) : (⟨S10241x2048, .f32⟩ : BufTy).Contents (Elt F) → (⟨S10240x2048, .f32⟩ : BufTy).Contents (Elt F)),
    StableHlo.reshape main_v24 main_v25 rfl shapeCasts_S10240x2048_S8x1280x2048 ]

/-- The four narrowings. -/
abbrev narrowOps : List (HloOp τ sig (Elt F)) :=
  [ StableHlo.unary main_v25 main_v26 ((truncf .bf16 · bitsLt_bf16_f32) : (⟨S8x1280x2048, .f32⟩ : BufTy).Contents (Elt F) → (⟨S8x1280x2048, .bf16⟩ : BufTy).Contents (Elt F)),
    StableHlo.unary main_arg3 main_v27 ((truncf .bf16 · bitsLt_bf16_f32) : (⟨S8x2048x1376, .f32⟩ : BufTy).Contents (Elt F) → (⟨S8x2048x1376, .bf16⟩ : BufTy).Contents (Elt F)),
    StableHlo.unary main_arg4 main_v28 ((truncf .bf16 · bitsLt_bf16_f32) : (⟨S8x2048x1376, .f32⟩ : BufTy).Contents (Elt F) → (⟨S8x2048x1376, .bf16⟩ : BufTy).Contents (Elt F)),
    StableHlo.unary main_arg5 main_v29 ((truncf .bf16 · bitsLt_bf16_f32) : (⟨S8x1376x2048, .f32⟩ : BufTy).Contents (Elt F) → (⟨S8x1376x2048, .bf16⟩ : BufTy).Contents (Elt F)) ]

/-- The operations before the kernel end with the four narrowings. -/
theorem hostOps_split :
    (List.flatten [hostOps0, hostOps0_1, hostOps0_2, hostOps0_3, hostOps0_4, hostOps0_5, hostOps0_6, hostOps0_7, hostOps0_8] : List (HloOp τ sig (Elt F)))
      = (List.flatten [hostOps0, hostOps0_1, hostOps0_2, hostOps0_3, hostOps0_4, hostOps0_5, hostOps0_6, hostOps0_7] ++ dispatchOps) ++ narrowOps := rfl

/-- A narrowing read at the extended reals is the identity: after the four narrowings, from any contents, the narrowed
    tokens' buffer holds what the dispatched tokens' buffer held, -/
theorem narrow_tokens (W1 : Valuation τ sig (Elt Ideal)) :
    (StableHlo.after (narrowOps (F := Ideal)) W1 (Proc.devRef .tc main_v26 : DevRef τ sig) : Cert.MoE.SX.Idx → EReal)
      = (W1 (Proc.devRef .tc main_v25 : DevRef τ sig) : Cert.MoE.SX.Idx → EReal) := by
  simp only [narrowOps]
  open StableHlo in after_results
  rfl

/-- and the dispatched tokens' buffer is not written. -/
theorem narrow_keeps (W1 : Valuation τ sig (Elt Ideal)) :
    StableHlo.after (narrowOps (F := Ideal)) W1 (Proc.devRef .tc main_v25 : DevRef τ sig) = W1 (Proc.devRef .tc main_v25 : DevRef τ sig) := by
  simp only [narrowOps]
  open StableHlo in after_results

/-- After the operations before the kernel, the narrowed copy of the dispatched tokens is, at the extended reals, the
    dispatched tokens. -/
theorem narrowed_tokens (WK : Valuation τ sig (Elt Ideal)) :
    (StableHlo.after (List.flatten [hostOps0, hostOps0_1, hostOps0_2, hostOps0_3, hostOps0_4, hostOps0_5, hostOps0_6, hostOps0_7, hostOps0_8]) WK
        (Proc.devRef .tc main_v26 : DevRef τ sig) : Cert.MoE.SX.Idx → EReal)
      = (StableHlo.after (List.flatten [hostOps0, hostOps0_1, hostOps0_2, hostOps0_3, hostOps0_4, hostOps0_5, hostOps0_6, hostOps0_7, hostOps0_8]) WK
        (Proc.devRef .tc main_v25 : DevRef τ sig) : Cert.MoE.SX.Idx → EReal) := by
  rw [hostOps_split, StableHlo.after_append]
  exact (narrow_tokens _).trans (narrow_keeps _).symm

end Cert.KernelIdeal.Gen

end
-- ==== Proof.LibBatchedDot.lean ====
/-
  A general lemma about a batched matrix product read at the extended reals.

  A dot whose dimension numbers take axis 0 of a [B, M, K] operand and axis 0 of a [B, K, N] operand as the batch,
  and contract axis 2 of the first with axis 1 of the second, has at the output entry (e, p, q) the operand
  entries (e, p, k) and (e, k, q) at contraction position k: its value there is the sum over k of
  l (e, p, k) · r (e, k, q). Stated for the host's dot_general, for every record with those dimension numbers
  whatever its well-formedness proof.

  The contraction's entry is a sum over the contraction index set, whose one axis has extent K; that set is
  identified with the range of k. The operand indices are read axis by axis: an operand's batch axis carries the
  output's batch coordinate, its free axis the output coordinate of that operand's row or column, its contracted
  axis k. With the dimension lists written out every record with those lists is the written-out record at its
  own well-formedness proof.
-/
import Idealize.ShloMosaic.PureOps.Ideal.Laws
import Idealize.ShloMosaic.Lib.ValueIdx

noncomputable section

namespace Idealize.ShloMosaic.BatchedDot

open Idealize.ShloMosaic Idealize.ShloMosaic.ValueIdx
open scoped BigOperators

variable {B M K N : Nat}

/-- Axis 1 is not the batch axis 0. -/
theorem one_not_mem_batch : ¬ (1 : Fin 3) ∈ ([0] : List (Fin 3)) := by decide
/-- Axis 2 is not the batch axis 0. -/
theorem two_not_mem_batch : ¬ (2 : Fin 3) ∈ ([0] : List (Fin 3)) := by decide

/-- The record with the dimension numbers of the batched product, at any well-formedness proof. -/
abbrev mkB (wf : DotDims.WF (⟨3, ![B, M, K]⟩ : Shape) (⟨3, ![B, K, N]⟩ : Shape) (⟨3, ![B, M, N]⟩ : Shape) [2] [1] [1] [2] [0] [0]) :
    DotDims (⟨3, ![B, M, K]⟩ : Shape) (⟨3, ![B, K, N]⟩ : Shape) (⟨3, ![B, M, N]⟩ : Shape) :=
  ⟨[2], [1], [1], [2], [0], [0], wf⟩

section
variable (wf : DotDims.WF (⟨3, ![B, M, K]⟩ : Shape) (⟨3, ![B, K, N]⟩ : Shape) (⟨3, ![B, M, N]⟩ : Shape) [2] [1] [1] [2] [0] [0])

/-- The left operand's batch coordinate is the output's batch coordinate. -/
theorem lhs0 (j : (⟨3, ![B, M, N]⟩ : Shape).Idx) (q : (mkB wf).contr.Idx) : ((mkB wf).lhsIdx j q 0).val = (j 0).val := by
  unfold DotDims.lhsIdx
  rw [dif_pos (show (0 : Fin (⟨3, ![B, M, K]⟩ : Shape).rank) ∈ (mkB wf).lhsBatch from List.mem_singleton_self _)]
  rfl

/-- The left operand's row coordinate is the output's row coordinate. -/
theorem lhs1 (j : (⟨3, ![B, M, N]⟩ : Shape).Idx) (q : (mkB wf).contr.Idx) : ((mkB wf).lhsIdx j q 1).val = (j 1).val := by
  unfold DotDims.lhsIdx
  rw [dif_neg (show ¬(1 : Fin (⟨3, ![B, M, K]⟩ : Shape).rank) ∈ (mkB wf).lhsBatch from one_not_mem_batch),
    dif_pos (show (1 : Fin (⟨3, ![B, M, K]⟩ : Shape).rank) ∈ (mkB wf).lhsNonContracting from List.mem_singleton_self _)]
  rfl

/-- The left operand's last coordinate is the contraction position. -/
theorem lhs2 (j : (⟨3, ![B, M, N]⟩ : Shape).Idx) (q : (mkB wf).contr.Idx) : ((mkB wf).lhsIdx j q 2).val = (q ⟨0, Nat.one_pos⟩).val :=
  (mkB wf).lhsIdx_val_of_single rfl j q

/-- The right operand's batch coordinate is the output's batch coordinate. -/
theorem rhs0 (j : (⟨3, ![B, M, N]⟩ : Shape).Idx) (q : (mkB wf).contr.Idx) : ((mkB wf).rhsIdx j q 0).val = (j 0).val := by
  unfold DotDims.rhsIdx
  rw [dif_pos (show (0 : Fin (⟨3, ![B, K, N]⟩ : Shape).rank) ∈ (mkB wf).rhsBatch from List.mem_singleton_self _)]
  rfl

/-- The right operand's middle coordinate is the contraction position. -/
theorem rhs1 (j : (⟨3, ![B, M, N]⟩ : Shape).Idx) (q : (mkB wf).contr.Idx) : ((mkB wf).rhsIdx j q 1).val = (q ⟨0, Nat.one_pos⟩).val :=
  (mkB wf).rhsIdx_val_of_single rfl j q

/-- The right operand's last coordinate is the output's column coordinate. -/
theorem rhs2 (j : (⟨3, ![B, M, N]⟩ : Shape).Idx) (q : (mkB wf).contr.Idx) : ((mkB wf).rhsIdx j q 2).val = (j 2).val := by
  unfold DotDims.rhsIdx
  rw [dif_neg (show ¬(2 : Fin (⟨3, ![B, K, N]⟩ : Shape).rank) ∈ (mkB wf).rhsBatch from two_not_mem_batch),
    dif_pos (show (2 : Fin (⟨3, ![B, K, N]⟩ : Shape).rank) ∈ (mkB wf).rhsNonContracting from List.mem_singleton_self _)]
  rfl

/-- The contraction sum at the entry (e, p, q): over k, the left entry (e, p, k) times the right entry (e, k, q). -/
theorem sum_mkB {α : Type} [AddCommMonoid α] [Mul α] (l : (⟨3, ![B, M, K]⟩ : Shape).Idx → α) (r : (⟨3, ![B, K, N]⟩ : Shape).Idx → α)
    (e : Fin B) (p : Fin M) (q : Fin N) :
    ∑ k : (mkB wf).contr.Idx, l ((mkB wf).lhsIdx (ix3 e p q) k) * r ((mkB wf).rhsIdx (ix3 e p q) k)
      = ∑ k : Fin K, l (ix3 e p k) * r (ix3 e k q) := by
  rw [← Equiv.sum_comp (contrEquiv1 (mkB wf) K rfl rfl).symm]
  refine Finset.sum_congr rfl fun k _ => ?_
  have hk := contrEquiv1_symm_val (mkB wf) K rfl rfl k
  have el : (mkB wf).lhsIdx (ix3 e p q) ((contrEquiv1 (mkB wf) K rfl rfl).symm k) = ix3 e p k := funext fun a => Fin.ext (by
    match a with
    | ⟨0, _⟩ => exact lhs0 wf _ _
    | ⟨1, _⟩ => exact lhs1 wf _ _
    | ⟨2, _⟩ => exact (lhs2 wf _ _).trans hk)
  have er : (mkB wf).rhsIdx (ix3 e p q) ((contrEquiv1 (mkB wf) K rfl rfl).symm k) = ix3 e k q := funext fun a => Fin.ext (by
    match a with
    | ⟨0, _⟩ => exact rhs0 wf _ _
    | ⟨1, _⟩ => exact (rhs1 wf _ _).trans hk
    | ⟨2, _⟩ => exact rhs2 wf _ _)
  rw [el, er]
end

/-- Every record whose dimension numbers are the batched product's is `mkB` of its own well-formedness proof, so its
    contraction sum is the same. -/
theorem sum_of_batched {α : Type} [AddCommMonoid α] [Mul α]
    (D : DotDims (⟨3, ![B, M, K]⟩ : Shape) (⟨3, ![B, K, N]⟩ : Shape) (⟨3, ![B, M, N]⟩ : Shape))
    (h1 : D.lhsContracting = [2]) (h2 : D.rhsContracting = [1]) (h3 : D.lhsNonContracting = [1])
    (h4 : D.rhsNonContracting = [2]) (h5 : D.lhsBatch = [0]) (h6 : D.rhsBatch = [0])
    (l : (⟨3, ![B, M, K]⟩ : Shape).Idx → α) (r : (⟨3, ![B, K, N]⟩ : Shape).Idx → α) (e : Fin B) (p : Fin M) (q : Fin N) :
    ∑ k : D.contr.Idx, l (D.lhsIdx (ix3 e p q) k) * r (D.rhsIdx (ix3 e p q) k)
      = ∑ k : Fin K, l (ix3 e p k) * r (ix3 e k q) := by
  obtain ⟨lc, rc, ln, rn, lb, rb, wf⟩ := D
  simp only at h1 h2 h3 h4 h5 h6
  subst h1 h2 h3 h4 h5 h6
  exact sum_mkB wf l r e p q

/-- The host's dot_general of [B, M, K] with [B, K, N], batched over the first axes, at the entry (e, p, q). -/
theorem dotGeneral_batched_apply {φ₁ φ₂ : FTy}
    (D : DotDims (⟨3, ![B, M, K]⟩ : Shape) (⟨3, ![B, K, N]⟩ : Shape) (⟨3, ![B, M, N]⟩ : Shape))
    (h1 : D.lhsContracting = [2]) (h2 : D.rhsContracting = [1]) (h3 : D.lhsNonContracting = [1])
    (h4 : D.rhsNonContracting = [2]) (h5 : D.lhsBatch = [0]) (h6 : D.rhsBatch = [0])
    (prec : Option ContractPrecision) (sched : HostSchedule)
    (l : FVec Ideal (⟨3, ![B, M, K]⟩ : Shape) φ₁) (r : FVec Ideal (⟨3, ![B, K, N]⟩ : Shape) φ₂)
    (e : Fin B) (p : Fin M) (q : Fin N) :
    FloatOps.dotGeneral D prec sched l r (ix3 e p q)
      = ∑ k : Fin K, (l (ix3 e p k) : EReal) * (r (ix3 e k q) : EReal) :=
  (Ideal.dotGeneral_apply D prec sched l r (ix3 e p q)).trans
    (sum_of_batched (α := EReal) D h1 h2 h3 h4 h5 h6 l r e p q)

end Idealize.ShloMosaic.BatchedDot

end
-- ==== Proof.RefMid.lean ====
import proofs.«169530_j74380243632186_1_alg».proof.Proof.Gen.ReferenceIdeal
import proofs.«169530_j74380243632186_1_alg».proof.Proof.Spec
import Idealize.ShloMosaic.Lib.ValueIdx
import Idealize.ShloMosaic.PureOps.Ideal.Laws
import Idealize.ShloMosaic.Lib.IdealHost
import proofs.«169530_j74380243632186_1_alg».proof.Proof.LibBatchedDot

noncomputable section

namespace Cert.ReferenceIdeal.Mid

open Idealize.ShloMosaic Idealize.ShloMosaic.ValueIdx Idealize.SL.Sem
open Cert.ReferenceIdeal Cert.ReferenceIdeal.Gen
open Idealize.ShloMosaic.BatchedDot
open scoped BigOperators

/-- The reference's expert layer as its operations compose: the three batched products, the logistic spelt
    as negate, exponential, add one, divide into one. -/
def layer (X : FVec Ideal S8x1280x2048 .f32) (Wg Wu : FVec Ideal S8x2048x1376 .f32) (Wd : FVec Ideal S8x1376x2048 .f32) :
    FVec Ideal S8x1280x2048 .f32 :=
  Host.dotGeneral dot_S8x1280x1376_S8x1376x2048_S8x1280x2048_2_1_1_2_0_0 none
    (mulf
      (mulf (Host.dotGeneral dot_S8x1280x2048_S8x2048x1376_S8x1280x1376_2_1_1_2_0_0 none X Wg)
        (Host.divf (broadcastInDim S8x1280x1376 ![] bcast_S_S8x1280x1376 (constant S_ .f32 0x3F800000#32))
          (addf (broadcastInDim S8x1280x1376 ![] bcast_S_S8x1280x1376 (constant S_ .f32 0x3F800000#32))
            (Host.exp (Host.negf (Host.dotGeneral dot_S8x1280x2048_S8x2048x1376_S8x1280x1376_2_1_1_2_0_0 none X Wg))))))
      (Host.dotGeneral dot_S8x1280x2048_S8x2048x1376_S8x1280x1376_2_1_1_2_0_0 none X Wu))
    Wd

/-- A gate or up product at the entry (e, c, f): row c of expert e's tokens against column f of expert e's matrix. -/
theorem proj_apply (X : FVec Ideal S8x1280x2048 .f32) (W : FVec Ideal S8x2048x1376 .f32) (e : Fin 8) (c : Fin 1280) (f : Fin 1376) :
    Host.dotGeneral dot_S8x1280x2048_S8x2048x1376_S8x1280x1376_2_1_1_2_0_0 none X W (ix3 e c f) = Cert.MoE.proj X W e c f :=
  dotGeneral_batched_apply (B := 8) (M := 1280) (K := 2048) (N := 1376)
    dot_S8x1280x2048_S8x2048x1376_S8x1280x1376_2_1_1_2_0_0 rfl rfl rfl rfl rfl rfl none .single X W e c f

/-- The down product at the entry (e, c, d): row c of expert e's hidden activations against column d of expert e's
    down matrix. -/
theorem down_apply (H : FVec Ideal S8x1280x1376 .f32) (Wd : FVec Ideal S8x1376x2048 .f32) (e : Fin 8) (c : Fin 1280) (d : Fin 2048) :
    Host.dotGeneral dot_S8x1280x1376_S8x1376x2048_S8x1280x2048_2_1_1_2_0_0 none H Wd (ix3 e c d)
      = ∑ f : Fin 1376, (H (ix3 e c f) : EReal) * (Wd (ix3 e f d) : EReal) :=
  dotGeneral_batched_apply (B := 8) (M := 1280) (K := 1376) (N := 2048)
    dot_S8x1280x1376_S8x1376x2048_S8x1280x2048_2_1_1_2_0_0 rfl rfl rfl rfl rfl rfl none .single H Wd e c d

/-- The broadcast constant reads one at every entry. -/
theorem one_apply (i : S8x1280x1376.Idx) :
    broadcastInDim S8x1280x1376 ![] bcast_S_S8x1280x1376 (constant (F := Ideal) S_ .f32 0x3F800000#32) i = (1 : EReal) := by
  rw [broadcastInDim_scalar_apply, constant_apply, Ideal.ofBits_one_f32]

/-- One divided by one plus the exponential of the negation is the logistic, entry by entry. -/
theorem silu_apply (G : FVec Ideal S8x1280x1376 .f32) (i : S8x1280x1376.Idx) :
    Host.divf (broadcastInDim S8x1280x1376 ![] bcast_S_S8x1280x1376 (constant (F := Ideal) S_ .f32 0x3F800000#32))
      (addf (broadcastInDim S8x1280x1376 ![] bcast_S_S8x1280x1376 (constant (F := Ideal) S_ .f32 0x3F800000#32))
        (Host.exp (Host.negf G))) i = Ideal.logistic (G i) := by
  rw [hostDivf_apply, addf_apply, one_apply]
  rfl

/-- Entry by entry it is the expert layer of the specification. -/
theorem layer_eq (X : FVec Ideal S8x1280x2048 .f32) (Wg Wu : FVec Ideal S8x2048x1376 .f32) (Wd : FVec Ideal S8x1376x2048 .f32) :
    layer X Wg Wu Wd = Cert.MoE.expertOut X Wg Wu Wd := by
  funext j
  obtain ⟨e, c, d, rfl⟩ : ∃ (e : Fin 8) (c : Fin 1280) (d : Fin 2048), j = ix3 e c d := ⟨j 0, j 1, j 2, eq_ix3 j⟩
  rw [Cert.MoE.expertOut_ix3]
  unfold layer
  refine (down_apply _ Wd e c d).trans ?_
  unfold Cert.MoE.outAt Cert.MoE.hidden
  refine Finset.sum_congr rfl fun f _ => ?_
  rw [mulf_apply, mulf_apply, silu_apply, proj_apply, proj_apply]

end Cert.ReferenceIdeal.Mid

end
-- ==== Proof.LibPlainDot.lean ====
/-
  General lemmas about a contraction of a matrix's columns with another matrix's rows, read at the
  extended reals, and about a sum along the rows of a matrix.

  * A dot whose dimension numbers contract axis 1 of an [M, K] operand with axis 0 of a [K, N] operand, with
    no batch axis, has at the output entry (p, q) the operand entries (p, k) and (k, q) at contraction
    position k, so its value there is the textbook sum over k of l (p, k) · r (k, q). This holds for every
    record with those dimension numbers, whatever its well-formedness proof.
  * The same for a kernel's matrix product into a zero accumulator and for the host's dot_general.
  * A sum of a [R, C] matrix along axis 1 at row p is the sum over k of the entries (p, k).
  * A vector made a column, [a] to [a, 1] (or to [a, 1, 1]), a column made a vector again, and a column repeated along
    the rows, [a, 1] to [a, b], each read at an entry.
-/
import Idealize.ShloMosaic.PureOps.Ideal.Laws
import Idealize.ShloMosaic.Lib.ValueIdx
import Idealize.ShloMosaic.Lib.ValueLayout

noncomputable section

namespace Idealize.ShloMosaic.PlainDot

open Idealize.ShloMosaic Idealize.ShloMosaic.ValueIdx
open scoped BigOperators

variable {M K N : Nat}

/-- The record with the dimension numbers of a plain matrix product, at any well-formedness proof. -/
abbrev mk (wf : DotDims.WF (⟨2, ![M, K]⟩ : Shape) (⟨2, ![K, N]⟩ : Shape) (⟨2, ![M, N]⟩ : Shape) [1] [0] [0] [1] [] []) :
    DotDims (⟨2, ![M, K]⟩ : Shape) (⟨2, ![K, N]⟩ : Shape) (⟨2, ![M, N]⟩ : Shape) :=
  ⟨[1], [0], [0], [1], [], [], wf⟩

section
variable (wf : DotDims.WF (⟨2, ![M, K]⟩ : Shape) (⟨2, ![K, N]⟩ : Shape) (⟨2, ![M, N]⟩ : Shape) [1] [0] [0] [1] [] [])

theorem lhs0 (j : (⟨2, ![M, N]⟩ : Shape).Idx) (q : (mk wf).contr.Idx) : ((mk wf).lhsIdx j q 0).val = (j 0).val := by
  unfold DotDims.lhsIdx
  rw [dif_neg (show ¬(0 : Fin (⟨2, ![M, K]⟩ : Shape).rank) ∈ (mk wf).lhsBatch from List.not_mem_nil),
    dif_pos (show (0 : Fin (⟨2, ![M, K]⟩ : Shape).rank) ∈ (mk wf).lhsNonContracting from List.mem_singleton_self _)]
  rfl

theorem lhs1 (j : (⟨2, ![M, N]⟩ : Shape).Idx) (q : (mk wf).contr.Idx) : ((mk wf).lhsIdx j q 1).val = (q ⟨0, Nat.one_pos⟩).val :=
  (mk wf).lhsIdx_val_of_single rfl j q

theorem rhs0 (j : (⟨2, ![M, N]⟩ : Shape).Idx) (q : (mk wf).contr.Idx) : ((mk wf).rhsIdx j q 0).val = (q ⟨0, Nat.one_pos⟩).val :=
  (mk wf).rhsIdx_val_of_single rfl j q

theorem rhs1 (j : (⟨2, ![M, N]⟩ : Shape).Idx) (q : (mk wf).contr.Idx) : ((mk wf).rhsIdx j q 1).val = (j 1).val := by
  unfold DotDims.rhsIdx
  rw [dif_neg (show ¬(1 : Fin (⟨2, ![K, N]⟩ : Shape).rank) ∈ (mk wf).rhsBatch from List.not_mem_nil),
    dif_pos (show (1 : Fin (⟨2, ![K, N]⟩ : Shape).rank) ∈ (mk wf).rhsNonContracting from List.mem_singleton_self _)]
  rfl

/-- The contraction sum of a plain product at the entry (p, q): over k, the left entry (p, k) times the right entry (k, q). -/
theorem sum_mk {α : Type} [AddCommMonoid α] [Mul α] (l : (⟨2, ![M, K]⟩ : Shape).Idx → α) (r : (⟨2, ![K, N]⟩ : Shape).Idx → α)
    (p : Fin M) (q : Fin N) :
    ∑ k : (mk wf).contr.Idx, l ((mk wf).lhsIdx (ix2 p q) k) * r ((mk wf).rhsIdx (ix2 p q) k)
      = ∑ k : Fin K, l (ix2 p k) * r (ix2 k q) := by
  rw [← Equiv.sum_comp (contrEquiv1 (mk wf) K rfl rfl).symm]
  refine Finset.sum_congr rfl fun k _ => ?_
  have hk := contrEquiv1_symm_val (mk wf) K rfl rfl k
  have el : (mk wf).lhsIdx (ix2 p q) ((contrEquiv1 (mk wf) K rfl rfl).symm k) = ix2 p k := funext fun a => Fin.ext (by
    match a with
    | ⟨0, _⟩ => exact lhs0 wf _ _
    | ⟨1, _⟩ => exact (lhs1 wf _ _).trans hk)
  have er : (mk wf).rhsIdx (ix2 p q) ((contrEquiv1 (mk wf) K rfl rfl).symm k) = ix2 k q := funext fun a => Fin.ext (by
    match a with
    | ⟨0, _⟩ => exact (rhs0 wf _ _).trans hk
    | ⟨1, _⟩ => exact rhs1 wf _ _)
  rw [el, er]
end

/-- Every record whose dimension numbers are the plain product's is `mk` of its own well-formedness proof. -/
theorem sum_of_plain {α : Type} [AddCommMonoid α] [Mul α]
    (D : DotDims (⟨2, ![M, K]⟩ : Shape) (⟨2, ![K, N]⟩ : Shape) (⟨2, ![M, N]⟩ : Shape))
    (h1 : D.lhsContracting = [1]) (h2 : D.rhsContracting = [0]) (h3 : D.lhsNonContracting = [0])
    (h4 : D.rhsNonContracting = [1]) (h5 : D.lhsBatch = []) (h6 : D.rhsBatch = [])
    (l : (⟨2, ![M, K]⟩ : Shape).Idx → α) (r : (⟨2, ![K, N]⟩ : Shape).Idx → α) (p : Fin M) (q : Fin N) :
    ∑ k : D.contr.Idx, l (D.lhsIdx (ix2 p q) k) * r (D.rhsIdx (ix2 p q) k) = ∑ k : Fin K, l (ix2 p k) * r (ix2 k q) := by
  obtain ⟨lc, rc, ln, rn, lb, rb, wf⟩ := D
  simp only at h1 h2 h3 h4 h5 h6
  subst h1 h2 h3 h4 h5 h6
  exact sum_mk wf l r p q

/-- A kernel's matrix product into the zero accumulator, at the entry (p, q). -/
theorem matmul_zero_apply {φ₁ φ₂ : FTy}
    (D : DotDims (⟨2, ![M, K]⟩ : Shape) (⟨2, ![K, N]⟩ : Shape) (⟨2, ![M, N]⟩ : Shape))
    (h1 : D.lhsContracting = [1]) (h2 : D.rhsContracting = [0]) (h3 : D.lhsNonContracting = [0])
    (h4 : D.rhsNonContracting = [1]) (h5 : D.lhsBatch = []) (h6 : D.rhsBatch = [])
    (prec : Option ContractPrecision) (l : FVec Ideal (⟨2, ![M, K]⟩ : Shape) φ₁) (r : FVec Ideal (⟨2, ![K, N]⟩ : Shape) φ₂)
    (p : Fin M) (q : Fin N) :
    FloatOps.matmul D prec l r (constant (⟨2, ![M, N]⟩ : Shape) .f32 0x00000000#32) (ix2 p q)
      = ∑ k : Fin K, (l (ix2 p k) : EReal) * (r (ix2 k q) : EReal) :=
  (Ideal.matmul_constant_zero_apply D prec l r (ix2 p q)).trans
    (sum_of_plain (α := EReal) D h1 h2 h3 h4 h5 h6 l r p q)

/-- The host's dot_general of the same dimension numbers, at the entry (p, q). -/
theorem dotGeneral_apply {φ₁ φ₂ : FTy}
    (D : DotDims (⟨2, ![M, K]⟩ : Shape) (⟨2, ![K, N]⟩ : Shape) (⟨2, ![M, N]⟩ : Shape))
    (h1 : D.lhsContracting = [1]) (h2 : D.rhsContracting = [0]) (h3 : D.lhsNonContracting = [0])
    (h4 : D.rhsNonContracting = [1]) (h5 : D.lhsBatch = []) (h6 : D.rhsBatch = [])
    (prec : Option ContractPrecision) (sched : HostSchedule)
    (l : FVec Ideal (⟨2, ![M, K]⟩ : Shape) φ₁) (r : FVec Ideal (⟨2, ![K, N]⟩ : Shape) φ₂) (p : Fin M) (q : Fin N) :
    FloatOps.dotGeneral D prec sched l r (ix2 p q) = ∑ k : Fin K, (l (ix2 p k) : EReal) * (r (ix2 k q) : EReal) :=
  (Ideal.dotGeneral_apply D prec sched l r (ix2 p q)).trans
    (sum_of_plain (α := EReal) D h1 h2 h3 h4 h5 h6 l r p q)

/-- A kernel's sum of an [R, C] matrix along axis 1, at row p: the sum over k of the entries (p, k). -/
theorem rowSum_apply {R C : Nat} {φ : FTy} (src : FVec Ideal (⟨2, ![R, C]⟩ : Shape) φ) (acc : BitVec φ.bits)
    (h : Shape.Reduces (⟨2, ![R, C]⟩ : Shape) [1] (⟨1, ![R]⟩ : Shape)) (hφ : FKind.Formats φ)
    (hacc : acc = FKind.add.neutral φ hφ) (p : Fin R) :
    multiReduction .add [1] (⟨1, ![R]⟩ : Shape) src acc h hφ hacc (ix1 p) = ∑ k : Fin C, (src (ix2 p k) : EReal) := by
  refine (Ideal.multiReduction_add_single src acc h hφ hacc (ix1 p)).trans ?_
  refine Finset.sum_congr rfl fun k _ => congrArg src ?_
  funext a
  exact Fin.ext (by match a with | ⟨0, _⟩ => rfl | ⟨1, _⟩ => rfl)

/-- An `[a]` vector cast to the column `[a, 1]` reads, at `(i, 0)`, the operand at `i`. -/
theorem shapeCast_a_a1_apply {α : Type} {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    omega)

/-- A column `[a, 1]` broadcast along the rows to `[a, b]` reads, at `(p, c)`, the operand at `(p, 0)`. -/
theorem broadcastTo_a1_ab_apply {α : Type} {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A column `[a, 1]` cast to the vector `[a]` reads, at `i`, the operand at `(i, 0)`. -/
theorem shapeCast_a1_a_apply {α : Type} {a : ℕ} (x : (⟨2, ![a, 1]⟩ : Shape).Idx → α) (h : (⟨2, ![a, 1]⟩ : Shape).ShapeCasts ⟨1, ![a]⟩)
    (i : Fin a) : shapeCast ⟨1, ![a]⟩ x h (ix1 i) = x (ix2 i (0 : Fin 1)) :=
  shapeCast_apply x h _ _ (by
    rw [Shape.rowMajor_val_two, Shape.rowMajor_val_one]
    show i.val * 1 + 0 = i.val
    omega)

/-- An `[a]` vector cast to `[a, 1, 1]` reads, at `(i, 0, 0)`, the operand at `i`. -/
theorem shapeCast_a_a11_apply {α : Type} {a : ℕ} (x : (⟨1, ![a]⟩ : Shape).Idx → α) (h : (⟨1, ![a]⟩ : Shape).ShapeCasts ⟨3, ![a, 1, 1]⟩)
    (i : Fin a) (u w : Fin 1) : shapeCast ⟨3, ![a, 1, 1]⟩ x h (ix3 i u w) = x (ix1 i) :=
  shapeCast_apply x h _ _ (by
    have hu : u.val = 0 := by omega
    have hw : w.val = 0 := by omega
    rw [Shape.rowMajor_val_three, Shape.rowMajor_val_one]
    show i.val = (i.val * 1 + u.val) * 1 + w.val
    omega)

end Idealize.ShloMosaic.PlainDot

end
-- ==== Proof.KernelBlock.lean ====
import proofs.«169530_j74380243632186_1_alg».proof.Proof.Gen.KernelIdeal.Frame
import proofs.«169530_j74380243632186_1_alg».proof.Proof.Spec
import proofs.«169530_j74380243632186_1_alg».proof.Proof.LibPlainDot
import Idealize.ShloMosaic.Lib.Pipeline.Value
import Idealize.ShloMosaic.Lib.ValueIdx
import Idealize.ShloMosaic.PureOps.Ideal.Laws

set_option maxRecDepth 16384

noncomputable section

namespace Cert.KernelIdeal.Block

open Idealize.ShloMosaic Idealize.ShloMosaic.TcCoe Idealize.ShloMosaic.ValueIdx Idealize.SL.Sem
open Cert.KernelIdeal Cert.KernelIdeal.Gen
open scoped BigOperators

variable (m : (ℓ : Loc nD τ sig) → Buf (Elt Ideal) ℓ)

/-! # The kernel's blocks read as one array

The grid is 8 experts by 4 row tiles of 320 rows. At a point the body holds a tile of token rows [1, 320, 2048] and the
point's expert's gate, up and down matrices, and stores, at row r and column d of the tile,

    sum over f of ((g f * logistic (g f)) * u f) * down (f, d),   g f = sum over k of tokens (r, k) * gate (k, f),
                                                                  u f = sum over k of tokens (r, k) * up (k, f).

The tile at block index (e, ci, 0) is rows 320 ci … 320 ci + 319 of expert e, so the stored value is the layer's result
at (e, 320 ci + r, d); the 32 result blocks tile the result array, which therefore ends holding the layer's result. -/

/-! ## The unit axis -/

/-- A [1, a, b] block viewed as an [a, b] matrix reads, at (p, q), the block at (0, p, q). -/
theorem dropUnit_apply {a b : Nat} {α : Type} (v : (⟨3, ![1, a, b]⟩ : Shape).Idx → α)
    (h : (⟨3, ![1, a, b]⟩ : Shape).ShapeCasts ⟨2, ![a, b]⟩) (p : Fin a) (q : Fin b) :
    shapeCast ⟨2, ![a, b]⟩ v h (ix2 p q) = v (ix3 (0 : Fin 1) p q) :=
  (shapeCast_dropUnit_apply ![a, b] v h (ix2 p q)).trans
    (congrArg v (funext fun d => by match d with | ⟨0, _⟩ => rfl | ⟨1, _⟩ => rfl | ⟨2, _⟩ => rfl))

/-- An [a, b] matrix stored as a [1, a, b] block reads, at (0, p, q), the matrix at (p, q). -/
theorem addUnit_apply {a b : Nat} {α : Type} (v : (⟨2, ![a, b]⟩ : Shape).Idx → α)
    (h : (⟨2, ![a, b]⟩ : Shape).ShapeCasts ⟨3, ![1, a, b]⟩) (u : Fin 1) (p : Fin a) (q : Fin b) :
    shapeCast ⟨3, ![1, a, b]⟩ v h (ix3 u p q) = v (ix2 p q) :=
  (shapeCast_addUnit_apply ![a, b] v h (ix3 u p q)).trans
    (congrArg v (funext fun d => by match d with | ⟨0, _⟩ => rfl | ⟨1, _⟩ => rfl))

/-! ## One tile of rows through the layer -/

/-- Row r of a token tile against column f of a projection block. -/
def tileProj (x0 : FVec Ideal S1x320x2048 .bf16) (w : FVec Ideal S1x2048x1376 .bf16) (r : Fin 320) (f : Fin 1376) : EReal :=
  ∑ k : Fin 2048, x0 (ix3 (0 : Fin 1) r k) * w (ix3 (0 : Fin 1) k f)

/-- The body's stored value at row r, column d of the tile: the gated hidden row against column d of the down block. -/
theorem payload_apply (x0 : FVec Ideal S1x320x2048 .bf16) (x1 x2 : FVec Ideal S1x2048x1376 .bf16)
    (x3 : FVec Ideal S1x1376x2048 .bf16) (u : Fin 1) (r : Fin 320) (d : Fin 2048) :
    k0_pay1 (F := Ideal) x0 x1 x2 x3 (ix3 u r d)
      = ∑ f : Fin 1376, ((tileProj x0 x1 r f * Ideal.logistic (tileProj x0 x1 r f)) * tileProj x0 x2 r f)
          * x3 (ix3 (0 : Fin 1) f d) := by
  unfold k0_pay1
  refine (addUnit_apply _ _ u r d).trans ?_
  refine (PlainDot.matmul_zero_apply dot_S320x1376_S1376x2048_S320x2048_1_0_0_1_n_n rfl rfl rfl rfl rfl rfl none _ _ r d).trans ?_
  refine Finset.sum_congr rfl fun f _ => ?_
  refine congrArg₂ (· * ·) ?_ (dropUnit_apply _ _ f d)
  have hg : ∀ (w : FVec Ideal S1x2048x1376 .bf16),
      matmul dot_S320x2048_S2048x1376_S320x1376_1_0_0_1_n_n none
        (shapeCast S320x2048 x0 shapeCasts_S1x320x2048_S320x2048)
        (shapeCast S2048x1376 w shapeCasts_S1x2048x1376_S2048x1376)
        (constant (F := Ideal) S320x1376 .f32 0x00000000#32) (ix2 r f) = tileProj x0 w r f := fun w =>
    (PlainDot.matmul_zero_apply dot_S320x2048_S2048x1376_S320x1376_1_0_0_1_n_n rfl rfl rfl rfl rfl rfl none _ _ r f).trans
      (Finset.sum_congr rfl fun k _ => congrArg₂ (· * ·) (dropUnit_apply _ _ r k) (dropUnit_apply _ _ k f))
  show (matmul (F := Ideal) _ none _ _ _ (ix2 r f) * Ideal.logistic (matmul (F := Ideal) _ none _ _ _ (ix2 r f)))
      * matmul (F := Ideal) _ none _ _ _ (ix2 r f) = _
  rw [hg x1, hg x2]
/-- A tile whose blocks are the rows of one expert's arrays computes that expert's layer at those rows. -/
theorem tile_apply (X : Cert.MoE.SX.Idx → EReal) (Wg Wu : Cert.MoE.SW.Idx → EReal) (Wd : Cert.MoE.SD.Idx → EReal)
    (x0 : FVec Ideal S1x320x2048 .bf16) (x1 x2 : FVec Ideal S1x2048x1376 .bf16) (x3 : FVec Ideal S1x1376x2048 .bf16)
    (e : Fin 8) (row : Fin 1280) (u : Fin 1) (r : Fin 320) (d : Fin 2048)
    (h0 : ∀ k : Fin 2048, x0 (ix3 (0 : Fin 1) r k) = X (ix3 e row k))
    (h1 : ∀ (k : Fin 2048) (f : Fin 1376), x1 (ix3 (0 : Fin 1) k f) = Wg (ix3 e k f))
    (h2 : ∀ (k : Fin 2048) (f : Fin 1376), x2 (ix3 (0 : Fin 1) k f) = Wu (ix3 e k f))
    (h3 : ∀ f : Fin 1376, x3 (ix3 (0 : Fin 1) f d) = Wd (ix3 e f d)) :
    k0_pay1 (F := Ideal) x0 x1 x2 x3 (ix3 u r d) = Cert.MoE.outAt X Wg Wu Wd e row d := by
  rw [payload_apply]
  have hg : ∀ f, tileProj x0 x1 r f = Cert.MoE.proj X Wg e row f := fun f =>
    Finset.sum_congr rfl fun k _ => by rw [h0 k, h1 k f]
  have hu : ∀ f, tileProj x0 x2 r f = Cert.MoE.proj X Wu e row f := fun f =>
    Finset.sum_congr rfl fun k _ => by rw [h0 k, h2 k f]
  unfold Cert.MoE.outAt Cert.MoE.hidden
  exact Finset.sum_congr rfl fun f _ => by rw [hg f, hu f, h3 f]

/-! ## The grid's blocks -/

/-- The zero offsets of a whole rank-3 block, as the constant function. -/
theorem zeros3 : (![0, 0, 0] : Fin 3 → Nat) = fun _ => 0 := funext fun a => by fin_cases a <;> rfl

/-- The index maps, decided over the 32 grid points: the token tile moves with the result tile; each weight block is the
    result tile's expert's whole matrix; the result tile's expert is below 8, its row tile below 4, its column block 0. -/
theorem index_facts : ∀ t : Fin cfg0.N,
    win0_0.index t (0 : Fin 3) = win0_4.index t (0 : Fin 3)
    ∧ win0_0.index t (1 : Fin 3) = win0_4.index t (1 : Fin 3)
    ∧ win0_0.index t (2 : Fin 3) = 0
    ∧ win0_1.index t (0 : Fin 3) = win0_4.index t (0 : Fin 3)
    ∧ win0_1.index t (1 : Fin 3) = 0
    ∧ win0_1.index t (2 : Fin 3) = 0
    ∧ win0_2.index t (0 : Fin 3) = win0_4.index t (0 : Fin 3)
    ∧ win0_2.index t (1 : Fin 3) = 0
    ∧ win0_2.index t (2 : Fin 3) = 0
    ∧ win0_3.index t (0 : Fin 3) = win0_4.index t (0 : Fin 3)
    ∧ win0_3.index t (1 : Fin 3) = 0
    ∧ win0_3.index t (2 : Fin 3) = 0
    ∧ win0_4.index t (2 : Fin 3) = 0
    ∧ win0_4.index t (0 : Fin 3) ≤ 7
    ∧ win0_4.index t (1 : Fin 3) ≤ 3 :=
  (by decide +kernel : ∀ t : Fin grid0.N, _)

/-- Every (expert, row tile) is some grid point's result block. -/
theorem index_onto : ∀ (q0 : Fin 8) (q1 : Fin 4), ∃ t : Fin cfg0.N, win0_4.index t = ![q0.val, q1.val, 0] :=
  (by decide +kernel : ∀ (q0 : Fin 8) (q1 : Fin 4), ∃ t : Fin grid0.N, win0_4.index t = ![q0.val, q1.val, 0])

/-- The token tile at a point, read off any token array: rows of the point's expert, from the point's row tile on. -/
theorem tokens_read (A : Cert.MoE.SX.Idx → EReal) (t : Fin cfg0.N) (u : Fin 1) (r : Fin 320) (k : Fin 2048) (e : Fin 8)
    (row : Fin 1280) (he : e.val = win0_4.index t (0 : Fin 3)) (hrow : row.val = win0_4.index t (1 : Fin 3) * 320 + r.val) :
    (((cfg0.win 0).blk t).view.read (Elt Ideal) A : FVec Ideal S1x320x2048 .bf16) (ix3 u r k) = A (ix3 e row k) := by
  obtain ⟨a0, a1, a2, -⟩ := index_facts t
  show A (((cfg0.win 0).blk t).view.emb (ix3 u r k)) = A (ix3 e row k)
  refine congrArg A (funext fun a => Fin.ext ?_)
  match a with
  | ⟨0, _⟩ => show win0_0.index t (0 : Fin 3) * 1 + 1 * u.val = e.val; have := u.isLt; omega
  | ⟨1, _⟩ => show win0_0.index t (1 : Fin 3) * 320 + 1 * r.val = row.val; omega
  | ⟨2, _⟩ => show win0_0.index t (2 : Fin 3) * 2048 + 1 * k.val = k.val; omega

/-- The gate block at a point, read off any gate array: the point's expert's whole matrix. -/
theorem gate_read (A : Cert.MoE.SW.Idx → EReal) (t : Fin cfg0.N) (u : Fin 1) (k : Fin 2048) (f : Fin 1376) (e : Fin 8)
    (he : e.val = win0_4.index t (0 : Fin 3)) :
    (((cfg0.win 1).blk t).view.read (Elt Ideal) A : FVec Ideal S1x2048x1376 .bf16) (ix3 u k f) = A (ix3 e k f) := by
  obtain ⟨-, -, -, a0, a1, a2, -⟩ := index_facts t
  show A (((cfg0.win 1).blk t).view.emb (ix3 u k f)) = A (ix3 e k f)
  refine congrArg A (funext fun a => Fin.ext ?_)
  match a with
  | ⟨0, _⟩ => show win0_1.index t (0 : Fin 3) * 1 + 1 * u.val = e.val; have := u.isLt; omega
  | ⟨1, _⟩ => show win0_1.index t (1 : Fin 3) * 2048 + 1 * k.val = k.val; omega
  | ⟨2, _⟩ => show win0_1.index t (2 : Fin 3) * 1376 + 1 * f.val = f.val; omega

/-- The up block at a point, read off any up array: the point's expert's whole matrix. -/
theorem up_read (A : Cert.MoE.SW.Idx → EReal) (t : Fin cfg0.N) (u : Fin 1) (k : Fin 2048) (f : Fin 1376) (e : Fin 8)
    (he : e.val = win0_4.index t (0 : Fin 3)) :
    (((cfg0.win 2).blk t).view.read (Elt Ideal) A : FVec Ideal S1x2048x1376 .bf16) (ix3 u k f) = A (ix3 e k f) := by
  obtain ⟨-, -, -, -, -, -, a0, a1, a2, -⟩ := index_facts t
  show A (((cfg0.win 2).blk t).view.emb (ix3 u k f)) = A (ix3 e k f)
  refine congrArg A (funext fun a => Fin.ext ?_)
  match a with
  | ⟨0, _⟩ => show win0_2.index t (0 : Fin 3) * 1 + 1 * u.val = e.val; have := u.isLt; omega
  | ⟨1, _⟩ => show win0_2.index t (1 : Fin 3) * 2048 + 1 * k.val = k.val; omega
  | ⟨2, _⟩ => show win0_2.index t (2 : Fin 3) * 1376 + 1 * f.val = f.val; omega

/-- The down block at a point, read off any down array: the point's expert's whole matrix. -/
theorem down_read (A : Cert.MoE.SD.Idx → EReal) (t : Fin cfg0.N) (u : Fin 1) (f : Fin 1376) (d : Fin 2048) (e : Fin 8)
    (he : e.val = win0_4.index t (0 : Fin 3)) :
    (((cfg0.win 3).blk t).view.read (Elt Ideal) A : FVec Ideal S1x1376x2048 .bf16) (ix3 u f d) = A (ix3 e f d) := by
  obtain ⟨-, -, -, -, -, -, -, -, -, a0, a1, a2, -⟩ := index_facts t
  show A (((cfg0.win 3).blk t).view.emb (ix3 u f d)) = A (ix3 e f d)
  refine congrArg A (funext fun a => Fin.ext ?_)
  match a with
  | ⟨0, _⟩ => show win0_3.index t (0 : Fin 3) * 1 + 1 * u.val = e.val; have := u.isLt; omega
  | ⟨1, _⟩ => show win0_3.index t (1 : Fin 3) * 1376 + 1 * f.val = f.val; omega
  | ⟨2, _⟩ => show win0_3.index t (2 : Fin 3) * 2048 + 1 * d.val = d.val; omega

/-- Where a point's result block puts its entry (0, r, d): expert and row from the block index, column d. -/
theorem result_emb (t : Fin cfg0.N) (u : Fin 1) (r : Fin 320) (d : Fin 2048) (e : Fin 8) (row : Fin 1280)
    (he : e.val = win0_4.index t (0 : Fin 3)) (hrow : row.val = win0_4.index t (1 : Fin 3) * 320 + r.val) :
    ((cfg0.win 4).blk t).view.emb (ix3 u r d) = (ix3 e row d : Cert.MoE.SX.Idx) := by
  obtain ⟨-, -, -, -, -, -, -, -, -, -, -, -, b2, -⟩ := index_facts t
  funext a
  apply Fin.ext
  match a with
  | ⟨0, _⟩ => show win0_4.index t (0 : Fin 3) * 1 + 1 * u.val = e.val; have := u.isLt; omega
  | ⟨1, _⟩ => show win0_4.index t (1 : Fin 3) * 320 + 1 * r.val = row.val; omega
  | ⟨2, _⟩ => show win0_4.index t (2 : Fin 3) * 2048 + 1 * d.val = d.val; omega

/-- What a point stores at (0, r, d) of its tile, its blocks read off any four arrays, is the layer's result of those
    arrays where the result block puts that entry. -/
theorem stored_read (A0 : Cert.MoE.SX.Idx → EReal) (A1 A2 : Cert.MoE.SW.Idx → EReal) (A3 : Cert.MoE.SD.Idx → EReal)
    (t : Fin cfg0.N) (u : Fin 1) (r : Fin 320) (d : Fin 2048) :
    k0_pay1 (F := Ideal) (((cfg0.win 0).blk t).view.read (Elt Ideal) A0) (((cfg0.win 1).blk t).view.read (Elt Ideal) A1)
        (((cfg0.win 2).blk t).view.read (Elt Ideal) A2) (((cfg0.win 3).blk t).view.read (Elt Ideal) A3) (ix3 u r d)
      = Cert.MoE.expertOut A0 A1 A2 A3 (((cfg0.win 4).blk t).view.emb (ix3 u r d)) := by
  obtain ⟨-, -, -, -, -, -, -, -, -, -, -, -, -, b0, b1⟩ := index_facts t
  have he : win0_4.index t (0 : Fin 3) < 8 := by omega
  have hrow : win0_4.index t (1 : Fin 3) * 320 + r.val < 1280 := by have := r.isLt; omega
  rw [result_emb t u r d ⟨win0_4.index t (0 : Fin 3), he⟩ ⟨win0_4.index t (1 : Fin 3) * 320 + r.val, hrow⟩ rfl rfl,
    Cert.MoE.expertOut_ix3]
  exact tile_apply A0 A1 A2 A3 (((cfg0.win 0).blk t).view.read (Elt Ideal) A0) (((cfg0.win 1).blk t).view.read (Elt Ideal) A1)
    (((cfg0.win 2).blk t).view.read (Elt Ideal) A2) (((cfg0.win 3).blk t).view.read (Elt Ideal) A3)
    ⟨win0_4.index t (0 : Fin 3), he⟩ ⟨win0_4.index t (1 : Fin 3) * 320 + r.val, hrow⟩ u r d
    (fun k => tokens_read A0 t 0 r k ⟨win0_4.index t (0 : Fin 3), he⟩ ⟨win0_4.index t (1 : Fin 3) * 320 + r.val, hrow⟩ rfl rfl)
    (fun k f => gate_read A1 t 0 k f ⟨win0_4.index t (0 : Fin 3), he⟩ rfl)
    (fun k f => up_read A2 t 0 k f ⟨win0_4.index t (0 : Fin 3), he⟩ rfl)
    (fun f => down_read A3 t 0 f d ⟨win0_4.index t (0 : Fin 3), he⟩ rfl)

/-- The result window writes its staging buffer back whole. -/
theorem cut_whole (t : Fin cfg0.N) (P : FVec Ideal S1x320x2048 .f32) : (cfg0.win 4).cut (grid0.coords t) P = P := rfl

/-- A point's result block of any array, at an entry. -/
theorem result_read (t : Fin cfg0.N) (G : Cert.MoE.SX.Idx → EReal) (u : Fin 1) (r : Fin 320) (d : Fin 2048) :
    (((cfg0.win 4).blk t).view.read (Elt Ideal) G : FVec Ideal S1x320x2048 .f32) (ix3 u r d)
      = G (((cfg0.win 4).blk t).view.emb (ix3 u r d)) := rfl

/-- What a point writes back, its blocks read off any four arrays, is its block of the layer's result of those arrays. -/
theorem block_read (A0 : Cert.MoE.SX.Idx → EReal) (A1 A2 : Cert.MoE.SW.Idx → EReal) (A3 : Cert.MoE.SD.Idx → EReal)
    (t : Fin cfg0.N) :
    (cfg0.win 4).cut (grid0.coords t)
        (k0_pay1 (F := Ideal) (((cfg0.win 0).blk t).view.read (Elt Ideal) A0) (((cfg0.win 1).blk t).view.read (Elt Ideal) A1)
          (((cfg0.win 2).blk t).view.read (Elt Ideal) A2) (((cfg0.win 3).blk t).view.read (Elt Ideal) A3))
      = ((cfg0.win 4).blk t).view.read (Elt Ideal) (Cert.MoE.expertOut A0 A1 A2 A3) := by
  refine (cut_whole t _).trans ?_
  funext j
  obtain ⟨u, r, d, rfl⟩ : ∃ (u : Fin 1) (r : Fin 320) (d : Fin 2048), j = ix3 u r d := ⟨j 0, j 1, j 2, eq_ix3 j⟩
  exact (stored_read A0 A1 A2 A3 t u r d).trans (result_read t (Cert.MoE.expertOut A0 A1 A2 A3) u r d).symm

/-- What a point writes back is its block of the layer's result. -/
theorem flushed_eq (c : Dev nD) (t : Fin cfg0.N) :
    (dats (F := Ideal) m 0 c).flushed 4 t = ((cfg0.win 4).blk t).view.read (Elt Ideal)
      (Cert.MoE.expertOut (V m c main_v26) (V m c main_v27) (V m c main_v28) (V m c main_v29)) := by
  show (cfg0.win 4).cut (grid0.coords t) ((dats (F := Ideal) m 0 c).after 4 t) = _
  rw [after0_4]
  unfold out0_4
  rw [View.canon_unit_zero zeros3]
  simp only [View.ld_unit_zero (S := S1x320x2048) zeros3, View.ld_unit_zero (S := S1x2048x1376) zeros3,
    View.ld_unit_zero (S := S1x1376x2048) zeros3]
  exact block_read (V m c main_v26) (V m c main_v27) (V m c main_v28) (V m c main_v29) t

/-- An entry of the result array is in a point's block iff each coordinate is in the block's range on its axis. -/
theorem mem_block (t : Fin cfg0.N) (i : S8x1280x2048.Idx) :
    i ∈ ((cfg0.win 4).blk t).view.set ↔ ∀ a : Fin 3, win0_4.index t a * S1x320x2048.size a ≤ (i a).val
      ∧ (i a).val < win0_4.index t a * S1x320x2048.size a + S1x320x2048.size a := by
  show i ∈ ((View.whole main_v30).slice (win0_4.rect t)).set ↔ _
  rw [View.set_slice_whole, Rect.mem_set_unit]
  exact Iff.rfl

/-- Row c of expert e is in the block of the point with block index (e, c / 320, 0). -/
theorem covered (i : S8x1280x2048.Idx) :
    ∃ t : Fin cfg0.N, (cfg0.win 4).flush t = true ∧ i ∈ ((cfg0.win 4).blk t).view.set := by
  have hi0 : (i 0).val < 8 := (i 0).isLt
  have hi1 : (i 1).val < 1280 := (i 1).isLt
  have hi2 : (i 2).val < 2048 := (i 2).isLt
  obtain ⟨t, ht⟩ := index_onto ⟨(i 0).val, hi0⟩ ⟨(i 1).val / 320, by omega⟩
  have q0 : win0_4.index t (0 : Fin 3) = (i 0).val := congrFun ht 0
  have q1 : win0_4.index t (1 : Fin 3) = (i 1).val / 320 := congrFun ht 1
  have q2 : win0_4.index t (2 : Fin 3) = 0 := congrFun ht 2
  refine ⟨t, flush0_4 t, ?_⟩
  rw [mem_block]
  intro a
  match a with
  | ⟨0, _⟩ => show win0_4.index t (0 : Fin 3) * 1 ≤ (i 0).val ∧ (i 0).val < win0_4.index t (0 : Fin 3) * 1 + 1; omega
  | ⟨1, _⟩ => show win0_4.index t (1 : Fin 3) * 320 ≤ (i 1).val ∧ (i 1).val < win0_4.index t (1 : Fin 3) * 320 + 320; omega
  | ⟨2, _⟩ => show win0_4.index t (2 : Fin 3) * 2048 ≤ (i 2).val ∧ (i 2).val < win0_4.index t (2 : Fin 3) * 2048 + 2048; omega

/-- After the run the kernel's result array is the expert layer of the four arrays the region found. -/
theorem final (c : Dev nD) :
    (dats (F := Ideal) m 0 c).arrAt 4 cfg0.N
      = Cert.MoE.expertOut (V m c main_v26) (V m c main_v27) (V m c main_v28) (V m c main_v29) :=
  (dats (F := Ideal) m 0 c).arrAt_eq_of_cover 4
    (Cert.MoE.expertOut (V m c main_v26) (V m c main_v27) (V m c main_v28) (V m c main_v29))
    (fun t _ => flushed_eq m c t) covered

end Cert.KernelIdeal.Block

end
-- ==== Proof.Bridge.lean ====
/-
  The reference's result is the kernel program's result.

  The reference's line of operations is the routing and dispatch, the expert layer, the combine. The combine is the
  same function in both programs of four buffers: the expert layer's result, each token's slot, the kept flags, the
  scores. The last three are left by the routing, the same in both programs. The first is, in the reference, the three
  batched products with the gate's logistic between them, and in the kernel's program what the pipelined kernel
  leaves in its result array: both are the expert layer of the specification, of the dispatched tokens and the
  three weight arrays (the kernel's narrowed copies being, at the extended reals, the arrays themselves).
-/
import proofs.«169530_j74380243632186_1_alg».proof.Proof.BridgePre
import proofs.«169530_j74380243632186_1_alg».proof.Proof.KernelRouting
import proofs.«169530_j74380243632186_1_alg».proof.Proof.RefMid
import proofs.«169530_j74380243632186_1_alg».proof.Proof.KernelBlock

set_option maxRecDepth 16384

noncomputable section

namespace Cert.Bridge

open Idealize.ShloMosaic Idealize.ShloMosaic.TcCoe Idealize.SL.Sem Idealize.ShloMosaic.StableHlo

section Stretches
variable (WR : Valuation Cert.ReferenceIdeal.τ Cert.ReferenceIdeal.sig (Elt Ideal)) (WK : Valuation Cert.KernelIdeal.τ Cert.KernelIdeal.sig (Elt Ideal))

set_option maxHeartbeats 4000000 in
/-- The reference's expert layer writes its result as `layer` of the dispatched tokens and the three weight arrays. -/
theorem mid_layer : after (Cert.ReferenceIdeal.RefRun.mid (F := Ideal)) WR (Proc.devRef .tc Cert.ReferenceIdeal.main_v30 : DevRef Cert.ReferenceIdeal.τ Cert.ReferenceIdeal.sig)
    = Cert.ReferenceIdeal.Mid.layer (WR (Proc.devRef .tc Cert.ReferenceIdeal.main_v25 : DevRef Cert.ReferenceIdeal.τ Cert.ReferenceIdeal.sig)) (WR (Proc.devRef .tc Cert.ReferenceIdeal.main_arg3 : DevRef Cert.ReferenceIdeal.τ Cert.ReferenceIdeal.sig)) (WR (Proc.devRef .tc Cert.ReferenceIdeal.main_arg4 : DevRef Cert.ReferenceIdeal.τ Cert.ReferenceIdeal.sig)) (WR (Proc.devRef .tc Cert.ReferenceIdeal.main_arg5 : DevRef Cert.ReferenceIdeal.τ Cert.ReferenceIdeal.sig)) := by
  simp only [Cert.ReferenceIdeal.RefRun.mid]
  after_results_simp
  rfl

/-- The expert layer leaves the slots alone, -/
theorem mid_slot : after (Cert.ReferenceIdeal.RefRun.mid (F := Ideal)) WR (Proc.devRef .tc Cert.ReferenceIdeal.main_v12 : DevRef Cert.ReferenceIdeal.τ Cert.ReferenceIdeal.sig) = WR (Proc.devRef .tc Cert.ReferenceIdeal.main_v12 : DevRef Cert.ReferenceIdeal.τ Cert.ReferenceIdeal.sig) := by
  simp only [Cert.ReferenceIdeal.RefRun.mid]
  after_results_simp

/-- the kept flags, -/
theorem mid_keep : after (Cert.ReferenceIdeal.RefRun.mid (F := Ideal)) WR (Proc.devRef .tc Cert.ReferenceIdeal.main_v8 : DevRef Cert.ReferenceIdeal.τ Cert.ReferenceIdeal.sig) = WR (Proc.devRef .tc Cert.ReferenceIdeal.main_v8 : DevRef Cert.ReferenceIdeal.τ Cert.ReferenceIdeal.sig) := by
  simp only [Cert.ReferenceIdeal.RefRun.mid]
  after_results_simp

/-- and the scores. -/
theorem mid_scores : after (Cert.ReferenceIdeal.RefRun.mid (F := Ideal)) WR (Proc.devRef .tc Cert.ReferenceIdeal.main_arg2 : DevRef Cert.ReferenceIdeal.τ Cert.ReferenceIdeal.sig) = WR (Proc.devRef .tc Cert.ReferenceIdeal.main_arg2 : DevRef Cert.ReferenceIdeal.τ Cert.ReferenceIdeal.sig) := by
  simp only [Cert.ReferenceIdeal.RefRun.mid]
  after_results_simp

set_option maxHeartbeats 4000000 in
/-- The combine is the same function, in both programs, of the expert layer's result, the slots, the kept flags and the scores. -/
theorem tail_eq (h30 : WR (Proc.devRef .tc Cert.ReferenceIdeal.main_v30 : DevRef Cert.ReferenceIdeal.τ Cert.ReferenceIdeal.sig) = WK (Proc.devRef .tc Cert.KernelIdeal.main_v30 : DevRef Cert.KernelIdeal.τ Cert.KernelIdeal.sig)) (h12 : WR (Proc.devRef .tc Cert.ReferenceIdeal.main_v12 : DevRef Cert.ReferenceIdeal.τ Cert.ReferenceIdeal.sig) = WK (Proc.devRef .tc Cert.KernelIdeal.main_v12 : DevRef Cert.KernelIdeal.τ Cert.KernelIdeal.sig))
    (h8 : WR (Proc.devRef .tc Cert.ReferenceIdeal.main_v8 : DevRef Cert.ReferenceIdeal.τ Cert.ReferenceIdeal.sig) = WK (Proc.devRef .tc Cert.KernelIdeal.main_v8 : DevRef Cert.KernelIdeal.τ Cert.KernelIdeal.sig)) (h2 : WR (Proc.devRef .tc Cert.ReferenceIdeal.main_arg2 : DevRef Cert.ReferenceIdeal.τ Cert.ReferenceIdeal.sig) = WK (Proc.devRef .tc Cert.KernelIdeal.main_arg2 : DevRef Cert.KernelIdeal.τ Cert.KernelIdeal.sig)) :
    after (Cert.ReferenceIdeal.RefRun.tail (F := Ideal)) WR (Proc.devRef .tc Cert.ReferenceIdeal.main_v49 : DevRef Cert.ReferenceIdeal.τ Cert.ReferenceIdeal.sig)
      = after (Cert.KernelIdeal.Gen.hostOps1 : List (HloOp Cert.KernelIdeal.τ Cert.KernelIdeal.sig (Elt Ideal))) WK (Proc.devRef .tc Cert.KernelIdeal.main_v49 : DevRef Cert.KernelIdeal.τ Cert.KernelIdeal.sig) := by
  simp only [Cert.ReferenceIdeal.RefRun.tail, Cert.KernelIdeal.Gen.hostOps1]
  after_results
  rw [h30, h12, h8, h2]
  rfl

end Stretches

/-- From memories that agree on the arguments, the reference's result is what the kernel's program leaves in its result:
    the lines after the region folded over the region's arrays. -/
theorem result_eq (m : (ℓ : Loc Cert.KernelIdeal.nD Cert.KernelIdeal.τ Cert.KernelIdeal.sig) → Buf (Elt Ideal) ℓ) (m' : (ℓ : Loc Cert.ReferenceIdeal.nD Cert.ReferenceIdeal.τ Cert.ReferenceIdeal.sig) → Buf (Elt Ideal) ℓ) (c : Dev Cert.KernelIdeal.nD)
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (h4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
    (h5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) :
    after (Cert.ReferenceIdeal.RefRun.ops (F := Ideal)) (launchContents m' c) (Proc.devRef .tc Cert.ReferenceIdeal.main_v49 : DevRef Cert.ReferenceIdeal.τ Cert.ReferenceIdeal.sig)
      = Pipeline.afterTail₀ Cert.KernelIdeal.cfgs (Cert.KernelIdeal.Gen.dats m) 0 (Cert.KernelIdeal.Gen.V0 m) [Cert.KernelIdeal.Gen.hostOps1] c Cert.KernelIdeal.main_v49 := by
  rw [Cert.ReferenceIdeal.RefRun.ops_split, StableHlo.after_append, StableHlo.after_append]
  unfold Pipeline.afterTail₀
  simp only [List.flatten_cons, List.flatten_nil, List.append_nil]
  obtain ⟨p2, p3, p4, p5⟩ := pre_args (launchContents m' c)
  refine tail_eq _ _ ?_ ?_ ?_ ?_
  · -- the expert layer's result
    rw [mid_layer, Cert.ReferenceIdeal.Mid.layer_eq, p3, p4, p5]
    refine Eq.trans ?_ (Pipeline.withArrays_arr Cert.KernelIdeal.spec0 Cert.KernelIdeal.Gen.launch0.win.arr_inj c (Cert.KernelIdeal.Gen.V0 m c) _ 4).symm
    refine Eq.trans ?_ (Cert.KernelIdeal.Block.final m c).symm
    have eX : (after (Cert.ReferenceIdeal.RefRun.pre (F := Ideal)) (launchContents m' c) (Proc.devRef .tc Cert.ReferenceIdeal.main_v25 : DevRef Cert.ReferenceIdeal.τ Cert.ReferenceIdeal.sig) : Cert.MoE.SX.Idx → EReal)
        = Cert.KernelIdeal.Gen.V m c Cert.KernelIdeal.main_v26 :=
      (pre_tokens (launchContents m' c) (fun b => m (c, b)) h0 h1).trans (Cert.KernelIdeal.Gen.narrowed_tokens (fun b => m (c, b))).symm
    have eG : (launchContents m' c (Proc.devRef .tc Cert.ReferenceIdeal.main_arg3 : DevRef Cert.ReferenceIdeal.τ Cert.ReferenceIdeal.sig) : Cert.MoE.SW.Idx → EReal) = Cert.KernelIdeal.Gen.V m c Cert.KernelIdeal.main_v27 :=
      h3.trans (narrowed_gate (fun b => m (c, b))).symm
    have eU : (launchContents m' c (Proc.devRef .tc Cert.ReferenceIdeal.main_arg4 : DevRef Cert.ReferenceIdeal.τ Cert.ReferenceIdeal.sig) : Cert.MoE.SW.Idx → EReal) = Cert.KernelIdeal.Gen.V m c Cert.KernelIdeal.main_v28 :=
      h4.trans (narrowed_up (fun b => m (c, b))).symm
    have eD : (launchContents m' c (Proc.devRef .tc Cert.ReferenceIdeal.main_arg5 : DevRef Cert.ReferenceIdeal.τ Cert.ReferenceIdeal.sig) : Cert.MoE.SD.Idx → EReal) = Cert.KernelIdeal.Gen.V m c Cert.KernelIdeal.main_v29 :=
      h5.trans (narrowed_down (fun b => m (c, b))).symm
    exact congr (congr (congr (congrArg Cert.MoE.expertOut eX) eG) eU) eD
  · exact (mid_slot _).trans ((pre_slot (launchContents m' c) (fun b => m (c, b)) h1).trans
      (Pipeline.withArrays_of_ne Cert.KernelIdeal.spec0 c (Cert.KernelIdeal.Gen.V0 m c) _ Cert.KernelIdeal.main_v12 (by decide)).symm)
  · exact (mid_keep _).trans ((pre_keep (launchContents m' c) (fun b => m (c, b)) h1).trans
      (Pipeline.withArrays_of_ne Cert.KernelIdeal.spec0 c (Cert.KernelIdeal.Gen.V0 m c) _ Cert.KernelIdeal.main_v8 (by decide)).symm)
  · exact (mid_scores _).trans (p2.trans (h2.trans (((kern_scores (fun b => m (c, b))).symm).trans
      (Pipeline.withArrays_of_ne Cert.KernelIdeal.spec0 c (Cert.KernelIdeal.Gen.V0 m c) _ Cert.KernelIdeal.main_arg2 (by decide)).symm)))

end Cert.Bridge

end
-- ==== Proof.lean ====
/-
  The certificate of a mixture-of-experts layer with token dropping.

  Both programs route 8192 tokens to 8 experts (each token's rank within its expert by a running count, tokens of rank
  1280 or more dropped), scatter the kept tokens into the experts' buffers, run every expert's gated two-layer network
  on its buffer, and gather each token's row back, zeroing the dropped tokens and scaling by the token's score. The
  kernel's program runs the experts' networks as one pipelined kernel over (expert, tile of 320 rows) on operands
  narrowed to bf16; the reference runs them as three batched products with the gate's logistic spelt out. Read at the
  extended reals a narrowing is the identity, a kernel's matrix product into a zero accumulator and the host's
  batched product are the same sums, and the kernel's logistic is the host's spelling of it, so the two programs
  compute one function: the routing and the combine are literally the same operations, and the expert layer is the
  function of Proof/Spec.lean on both sides, product by product in the same order — no law of the extended reals beyond
  reading the sums is used, and the precondition is never opened.

  The three frames: the kernel's programs by their frame certificates; the reference by its run, a straight line of
  host operations that writes none of its arguments. The idealization rewrote nothing, so `preserves` is trivial.
-/
import proofs.«169530_j74380243632186_1_alg».proof.Defs
import proofs.«169530_j74380243632186_1_alg».proof.Proof.Gen.Kernel
import proofs.«169530_j74380243632186_1_alg».proof.Proof.Gen.Kernel.Frame
import proofs.«169530_j74380243632186_1_alg».proof.Proof.Gen.KernelIdeal
import proofs.«169530_j74380243632186_1_alg».proof.Proof.Gen.KernelIdeal.Frame
import proofs.«169530_j74380243632186_1_alg».proof.Proof.Gen.ReferenceIdeal
import proofs.«169530_j74380243632186_1_alg».proof.Proof.Gen.Pre_finite_inputs
import proofs.«169530_j74380243632186_1_alg».proof.Proof.RefRun
import proofs.«169530_j74380243632186_1_alg».proof.Proof.RefArgs
import proofs.«169530_j74380243632186_1_alg».proof.Proof.Bridge
import Idealize.ShloMosaic.Adequacy
import Idealize.ShloMosaic.Init

set_option maxRecDepth 16384

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's run with everything but the arguments dropped. -/
theorem frame_referenceIdeal : Cert.frame_ReferenceIdeal := fun m ρ _ =>
  (θ_run Cert.ReferenceIdeal.defs _ _).mono (fun _ h c =>
    ⟨(h c Cert.ReferenceIdeal.main_arg0).trans (Cert.ReferenceIdeal.RefRun.kept_arg0 _), (h c Cert.ReferenceIdeal.main_arg1).trans (Cert.ReferenceIdeal.RefRun.kept_arg1 _),
      (h c Cert.ReferenceIdeal.main_arg2).trans (Cert.ReferenceIdeal.RefRun.kept_arg2 _), (h c Cert.ReferenceIdeal.main_arg3).trans (Cert.ReferenceIdeal.RefRun.kept_arg3 _),
      (h c Cert.ReferenceIdeal.main_arg4).trans (Cert.ReferenceIdeal.RefRun.kept_arg4 _), (h c Cert.ReferenceIdeal.main_arg5).trans (Cert.ReferenceIdeal.RefRun.kept_arg5 _)⟩)
    (Cert.ReferenceIdeal.RefRun.run_all (F := Ideal) m ρ)

theorem preserves : Cert.preserves_Kernel_KernelIdeal := trivial

/-- The kernel's program ends with its result at the lines after the region folded over the region's arrays (its frame
    run), the reference with its result at the fold of its line; from memories agreeing on the arguments the two are
    equal (`Cert.Bridge.result_eq`). -/
theorem algebraic : Cert.algebraic_KernelIdeal_ReferenceIdeal := by
  intro m ρ m' ρ' _ hagree
  refine ⟨fun c => Pipeline.afterTail₀ Cert.KernelIdeal.cfgs (Cert.KernelIdeal.Gen.dats m) 0 (Cert.KernelIdeal.Gen.V0 m) [Cert.KernelIdeal.Gen.hostOps1] c Cert.KernelIdeal.main_v49, ?_, ?_⟩
  · exact (θ_run Cert.KernelIdeal.defs _ _).mono (fun _ h c =>
      ⟨(h c).2 Cert.KernelIdeal.main_v49 (Pipeline.mem_restRefs_of Cert.KernelIdeal.main_v49 (by decide) (by decide)),
        ((h c).2 Cert.KernelIdeal.main_arg0 (Pipeline.mem_restRefs_of Cert.KernelIdeal.main_arg0 (by decide) (by decide))).trans (Cert.KernelIdeal.Gen.W_main_arg0 m (Cert.KernelIdeal.Gen.dats m) c),
        ((h c).2 Cert.KernelIdeal.main_arg1 (Pipeline.mem_restRefs_of Cert.KernelIdeal.main_arg1 (by decide) (by decide))).trans (Cert.KernelIdeal.Gen.W_main_arg1 m (Cert.KernelIdeal.Gen.dats m) c),
        ((h c).2 Cert.KernelIdeal.main_arg2 (Pipeline.mem_restRefs_of Cert.KernelIdeal.main_arg2 (by decide) (by decide))).trans (Cert.KernelIdeal.Gen.W_main_arg2 m (Cert.KernelIdeal.Gen.dats m) c),
        ((h c).2 Cert.KernelIdeal.main_arg3 (Pipeline.mem_restRefs_of Cert.KernelIdeal.main_arg3 (by decide) (by decide))).trans (Cert.KernelIdeal.Gen.W_main_arg3 m (Cert.KernelIdeal.Gen.dats m) c),
        ((h c).2 Cert.KernelIdeal.main_arg4 (Pipeline.mem_restRefs_of Cert.KernelIdeal.main_arg4 (by decide) (by decide))).trans (Cert.KernelIdeal.Gen.W_main_arg4 m (Cert.KernelIdeal.Gen.dats m) c),
        ((h c).2 Cert.KernelIdeal.main_arg5 (Pipeline.mem_restRefs_of Cert.KernelIdeal.main_arg5 (by decide) (by decide))).trans (Cert.KernelIdeal.Gen.W_main_arg5 m (Cert.KernelIdeal.Gen.dats m) c)⟩)
      (Cert.KernelIdeal.Gen.run_main (F := Ideal) m ρ)
  · exact (θ_run Cert.ReferenceIdeal.defs _ _).mono (fun _ h c =>
      ⟨(h c Cert.ReferenceIdeal.main_v49).trans (Cert.Bridge.result_eq m m' c (hagree c).1 (hagree c).2.1 (hagree c).2.2.1 (hagree c).2.2.2.1 (hagree c).2.2.2.2.1 (hagree c).2.2.2.2.2),
        (h c Cert.ReferenceIdeal.main_arg0).trans (Cert.ReferenceIdeal.RefRun.kept_arg0 _), (h c Cert.ReferenceIdeal.main_arg1).trans (Cert.ReferenceIdeal.RefRun.kept_arg1 _),
        (h c Cert.ReferenceIdeal.main_arg2).trans (Cert.ReferenceIdeal.RefRun.kept_arg2 _), (h c Cert.ReferenceIdeal.main_arg3).trans (Cert.ReferenceIdeal.RefRun.kept_arg3 _),
        (h c Cert.ReferenceIdeal.main_arg4).trans (Cert.ReferenceIdeal.RefRun.kept_arg4 _), (h c Cert.ReferenceIdeal.main_arg5).trans (Cert.ReferenceIdeal.RefRun.kept_arg5 _)⟩)
      (Cert.ReferenceIdeal.RefRun.run_all (F := Ideal) m' ρ')

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
